-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x100x4 : Shape := ⟨3, ![30000, 100, 4]⟩
abbrev S30000 : Shape := ⟨1, ![30000]⟩
abbrev S30000x4 : Shape := ⟨2, ![30000, 4]⟩
abbrev S64x9 : Shape := ⟨2, ![64, 9]⟩
abbrev S64 : Shape := ⟨1, ![64]⟩
abbrev S_ : Shape := ⟨0, ![]⟩

class Facts : Prop where
  bcast_S_S30000x100x4 : S_.BroadcastsInDim S30000x100x4 (![] : Fin 0 → Fin S30000x100x4.rank)
  reducesTo_S30000x100x4_S_d0_1_2 : S30000x100x4.ReducesTo [0, 1, 2] S_
  h_S_ : 0 < S_.numel
  bcast_S_S64x9 : S_.BroadcastsInDim S64x9 (![] : Fin 0 → Fin S64x9.rank)
  reducesTo_S64x9_S_d0_1 : S64x9.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S30000x100x4 .f32) (main_arg1 : IVec S30000 32) (main_arg2 : IVec S30000x4 32) (main_arg3 : FVec F S64x9 .f32) (main_arg4 : FVec F S64 .f32) (main_arg5 : FVec F S64 .f32) : IVec S_ 1 :=
  let main_v0 : FVec F S30000x100x4 .f32 := Host.absf main_arg0
  let main_cst : FVec F S_ .f32 := constant S_ .f32 0x7F800000#32
  let main_v1 : FVec F S30000x100x4 .f32 := broadcastInDim S30000x100x4 ![] bcast_S_S30000x100x4 main_cst
  let main_v2 : IVec S30000x100x4 1 := cmpf .olt main_v0 main_v1
  let main_c : IVec S_ 1 := constantI S_ 1 1#1
  let main_v3 : IVec S_ 1 := (fun x v => Host.reduce IntOp.andi x v reducesTo_S30000x100x4_S_d0_1_2 h_S_) main_v2 main_c
  let main_v4 : FVec F S64x9 .f32 := Host.absf main_arg3
  let main_cst_0 : FVec F S_ .f32 := constant S_ .f32 0x7F800000#32
  let main_v5 : FVec F S64x9 .f32 := broadcastInDim S64x9 ![] bcast_S_S64x9 main_cst_0
  let main_v6 : IVec S64x9 1 := cmpf .olt main_v4 main_v5
  let main_c_1 : IVec S_ 1 := constantI S_ 1 1#1
  let main_v7 : IVec S_ 1 := (fun x v => Host.reduce IntOp.andi x v reducesTo_S64x9_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S30000x100x4 : Shape := ⟨3, ![30000, 100, 4]⟩
abbrev S30000 : Shape := ⟨1, ![30000]⟩
abbrev S30000x4 : Shape := ⟨2, ![30000, 4]⟩
abbrev S64x9 : Shape := ⟨2, ![64, 9]⟩
abbrev S64 : Shape := ⟨1, ![64]⟩
abbrev S30000x1 : Shape := ⟨2, ![30000, 1]⟩
abbrev S9x64 : Shape := ⟨2, ![9, 64]⟩
abbrev S1x64 : Shape := ⟨2, ![1, 64]⟩
abbrev S80x100x4 : Shape := ⟨3, ![80, 100, 4]⟩
abbrev S80x1 : Shape := ⟨2, ![80, 1]⟩
abbrev S80x4 : Shape := ⟨2, ![80, 4]⟩
abbrev S80x100x3 : Shape := ⟨3, ![80, 100, 3]⟩
abbrev S80x3 : Shape := ⟨2, ![80, 3]⟩
abbrev S80x1x3 : Shape := ⟨3, ![80, 1, 3]⟩
abbrev S80x100x1 : Shape := ⟨3, ![80, 100, 1]⟩
abbrev S80x100 : Shape := ⟨2, ![80, 100]⟩
abbrev S80x100x2 : Shape := ⟨3, ![80, 100, 2]⟩
abbrev S80x100x9 : Shape := ⟨3, ![80, 100, 9]⟩
abbrev S80x100x64 : Shape := ⟨3, ![80, 100, 64]⟩
abbrev S1x1x64 : Shape := ⟨3, ![1, 1, 64]⟩
abbrev S80x64 : Shape := ⟨2, ![80, 64]⟩
abbrev S_ : Shape := ⟨0, ![]⟩
abbrev S30000x64 : Shape := ⟨2, ![30000, 64]⟩

abbrev nBuf : Space → Nat
  | .hbm => 25
  | .vmem => 24
  | .smem => 0
  | _ => 0

abbrev bufTy : (tb : Table) → Fin (tcTables nBuf tb) → BufTy
  | .hbm, ⟨0, _⟩ => ⟨S30000x100x4, .f32⟩
  | .hbm, ⟨1, _⟩ => ⟨S30000, .i32⟩
  | .hbm, ⟨2, _⟩ => ⟨S30000x4, .i32⟩
  | .hbm, ⟨3, _⟩ => ⟨S64x9, .f32⟩
  | .hbm, ⟨4, _⟩ => ⟨S64, .f32⟩
  | .hbm, ⟨5, _⟩ => ⟨S64, .f32⟩
  | .hbm, ⟨6, _⟩ => ⟨S30000x1, .i32⟩
  | .hbm, ⟨7, _⟩ => ⟨S9x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S1x64, .f32⟩
  | .hbm, ⟨23, _⟩ => ⟨S1x64, .f32⟩
  | .hbm, ⟨24, _⟩ => ⟨S30000x64, .f32⟩
  | .local _ .vmem, ⟨0, _⟩ => ⟨S80x100x4, .f32⟩
  | .local _ .vmem, ⟨1, _⟩ => ⟨S80x100x4, .f32⟩
  | .local _ .vmem, ⟨2, _⟩ => ⟨S80x1, .i32⟩
  | .local _ .vmem, ⟨3, _⟩ => ⟨S80x1, .i32⟩
  | .local _ .vmem, ⟨4, _⟩ => ⟨S80x4, .i32⟩
  | .local _ .vmem, ⟨5, _⟩ => ⟨S80x4, .i32⟩
  | .local _ .vmem, ⟨6, _⟩ => ⟨S9x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S80x100x4, .f32⟩
  | .local _ .vmem, ⟨12, _⟩ => ⟨S80x100x4, .f32⟩
  | .local _ .vmem, ⟨13, _⟩ => ⟨S80x1, .i32⟩
  | .local _ .vmem, ⟨14, _⟩ => ⟨S80x1, .i32⟩
  | .local _ .vmem, ⟨15, _⟩ => ⟨S80x4, .i32⟩
  | .local _ .vmem, ⟨16, _⟩ => ⟨S80x4, .i32⟩
  | .local _ .vmem, ⟨17, _⟩ => ⟨S9x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S80x64, .f32⟩
  | .local _ .vmem, ⟨23, _⟩ => ⟨S80x64, .f32⟩
  | _, _ => ⟨S30000x100x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![375], ![false]⟩

def k0_cond2 (i : grid0.Coords) : BitVec 1 :=
  let arg0 : BitVec 32 := BitVec.ofNat 32 (i 0).val
  let c374_i32 : BitVec 32 := 374#32
  let v139 : BitVec 1 := Scalar.cmpi .eq arg0 c374_i32
  let v140 : BitVec 32 := Scalar.extui v139
  let c0_i32_26 : BitVec 32 := 0#32
  let v141 : BitVec 1 := Scalar.cmpi .ne v140 c0_i32_26
  v141

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S80x100x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![375], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x100x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S80x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S80x4 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S9x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S80x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S30000_S30000x1 : S30000.ShapeCasts S30000x1
  transposes_S64x9_S9x64_1_0 : S64x9.Transposes [1, 0] S9x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S80x100x4_S80x100x4_0_0_0 : ∀ a, (![0, 0, 0] : Fin 3 → Nat) a + S80x100x4.size a ≤ S80x100x4.size a
  h_S80x100x4 : 0 < S80x100x4.numel
  inb_S80x1_S80x1_0_0 : ∀ a, (![0, 0] : Fin 2 → Nat) a + S80x1.size a ≤ S80x1.size a
  h_S80x1 : 0 < S80x1.numel
  shapeCasts_S80x1_S80x1 : S80x1.ShapeCasts S80x1
  inb_S80x4_S80x4_0_0 : ∀ a, (![0, 0] : Fin 2 → Nat) a + S80x4.size a ≤ S80x4.size a
  h_S80x4 : 0 < S80x4.numel
  slices_S80x100x4_o0_0_0_S80x100x3 : S80x100x4.Slices ![0, 0, 0] S80x100x3
  reduces_S80x100x3_S80x3 : S80x100x3.Reduces [1] S80x3
  broadcasts_S80x1_S80x3 : S80x1.Broadcasts S80x3
  shapeCasts_S80x3_S80x1x3 : S80x3.ShapeCasts S80x1x3
  broadcasts_S80x1x3_S80x100x3 : S80x1x3.Broadcasts S80x100x3
  slices_S80x4_o0_3_S80x1 : S80x4.Slices ![0, 3] S80x1
  slices_S80x4_o0_2_S80x1 : S80x4.Slices ![0, 2] S80x1
  slices_S80x100x4_o0_0_0_S80x100x1 : S80x100x4.Slices ![0, 0, 0] S80x100x1
  shapeCasts_S80x100x1_S80x100 : S80x100x1.ShapeCasts S80x100
  broadcasts_S80x1_S80x100 : S80x1.Broadcasts S80x100
  slices_S80x100x4_o0_0_1_S80x100x1 : S80x100x4.Slices ![0, 0, 1] S80x100x1
  shapeCasts_S80x100_S80x100x1 : S80x100.ShapeCasts S80x100x1
  concatenates_S80x100x1_S80x100x1_S80x100x2_d2 : Shape.Concatenates [S80x100x1, S80x100x1] S80x100x2 2
  concatenates_S80x100x4_S80x100x3_S80x100x2_S80x100x9_d2 : Shape.Concatenates [S80x100x4, S80x100x3, S80x100x2] S80x100x9 2
  iota_S80x100_d1_w32 : S80x100.Iotas .tc 32 [1]
  natLt_1_32 : 1 < 32
  broadcasts_S80x100x1_S80x100x9 : S80x100x1.Broadcasts S80x100x9
  inb_S9x64_S9x64_0_0 : ∀ a, (![0, 0] : Fin 2 → Nat) a + S9x64.size a ≤ S9x64.size a
  h_S9x64 : 0 < S9x64.numel
  shapeCasts_S9x64_S9x64 : S9x64.ShapeCasts S9x64
  slices_S9x64_o0_0_S1x64 : S9x64.Slices ![0, 0] S1x64
  shapeCasts_S1x64_S64 : S1x64.ShapeCasts S64
  shapeCasts_S64_S1x1x64 : S64.ShapeCasts S1x1x64
  slices_S80x100x9_o0_0_0_S80x100x1 : S80x100x9.Slices ![0, 0, 0] S80x100x1
  broadcasts_S80x100x1_S80x100x64 : S80x100x1.Broadcasts S80x100x64
  broadcasts_S1x1x64_S80x100x64 : S1x1x64.Broadcasts S80x100x64
  slices_S9x64_o1_0_S1x64 : S9x64.Slices ![1, 0] S1x64
  slices_S80x100x9_o0_0_1_S80x100x1 : S80x100x9.Slices ![0, 0, 1] S80x100x1
  slices_S9x64_o2_0_S1x64 : S9x64.Slices ![2, 0] S1x64
  slices_S80x100x9_o0_0_2_S80x100x1 : S80x100x9.Slices ![0, 0, 2] S80x100x1
  slices_S9x64_o3_0_S1x64 : S9x64.Slices ![3, 0] S1x64
  slices_S80x100x9_o0_0_3_S80x100x1 : S80x100x9.Slices ![0, 0, 3] S80x100x1
  slices_S9x64_o4_0_S1x64 : S9x64.Slices ![4, 0] S1x64
  slices_S80x100x9_o0_0_4_S80x100x1 : S80x100x9.Slices ![0, 0, 4] S80x100x1
  slices_S9x64_o5_0_S1x64 : S9x64.Slices ![5, 0] S1x64
  slices_S80x100x9_o0_0_5_S80x100x1 : S80x100x9.Slices ![0, 0, 5] S80x100x1
  slices_S9x64_o6_0_S1x64 : S9x64.Slices ![6, 0] S1x64
  slices_S80x100x9_o0_0_6_S80x100x1 : S80x100x9.Slices ![0, 0, 6] S80x100x1
  slices_S9x64_o7_0_S1x64 : S9x64.Slices ![7, 0] S1x64
  slices_S80x100x9_o0_0_7_S80x100x1 : S80x100x9.Slices ![0, 0, 7] S80x100x1
  slices_S9x64_o8_0_S1x64 : S9x64.Slices ![8, 0] S1x64
  slices_S80x100x9_o0_0_8_S80x100x1 : S80x100x9.Slices ![0, 0, 8] S80x100x1
  reduces_S80x100x64_S80x64 : S80x100x64.Reduces [1] S80x64
  reduces_S80x64_S64 : S80x64.Reduces [0] S64
  bcast_S_S64 : S_.BroadcastsInDim S64 (![] : Fin 0 → Fin S64.rank)
  shapeCasts_S1x64_S1x1x64 : S1x64.ShapeCasts S1x1x64
  inb_S80x64_S80x64_0_0 : ∀ a, (![0, 0] : Fin 2 → Nat) a + S80x64.size a ≤ S80x64.size a
  h_S80x64 : 0 < S80x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x100x4.size a ≤ S30000x100x4.size a
  hwx0_0 : ∀ i : grid0.Coords, EltTy.bits .f32 = 32 ∨ (Rect.block (s := S30000x100x4) S80x100x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S80x1.size a ≤ S30000x1.size a
  hwx0_1 : ∀ i : grid0.Coords, EltTy.bits .i32 = 32 ∨ (Rect.block (s := S30000x1) S80x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x4.size a ≤ S30000x4.size a
  hwx0_2 : ∀ i : grid0.Coords, EltTy.bits .i32 = 32 ∨ (Rect.block (s := S30000x4) S80x4.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x64.size a ≤ S9x64.size a
  hwx0_3 : ∀ i : grid0.Coords, EltTy.bits .f32 = 32 ∨ (Rect.block (s := S9x64) S9x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S80x100x4.size a ≤ S30000x100x4.size a
  hwx1_0 : ∀ i : grid1.Coords, EltTy.bits .f32 = 32 ∨ (Rect.block (s := S30000x100x4) S80x100x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S80x1.size a ≤ S30000x1.size a
  hwx1_1 : ∀ i : grid1.Coords, EltTy.bits .i32 = 32 ∨ (Rect.block (s := S30000x1) S80x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S80x4.size a ≤ S30000x4.size a
  hwx1_2 : ∀ i : grid1.Coords, EltTy.bits .i32 = 32 ∨ (Rect.block (s := S30000x4) S80x4.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x64.size a ≤ S9x64.size a
  hwx1_3 : ∀ i : grid1.Coords, EltTy.bits .f32 = 32 ∨ (Rect.block (s := S9x64) S9x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S80x64.size a ≤ S30000x64.size a
  hwx1_8 : ∀ i : grid1.Coords, EltTy.bits .f32 = 32 ∨ (Rect.block (s := S30000x64) S80x64.size (cc1_transform_8 i) (hinb1_8 i)).WholeWords (EltTy.packing .f32)

variable [Facts₀]

abbrev win0_0 : Pipeline.Window sig grid0 :=
  Pipeline.Window.ofSpec (Memref.whole main_arg0) S80x100x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S80x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S80x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S9x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S80x100x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S80x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S80x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S9x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S80x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S30000x100x4 : Shape := ⟨3, ![30000, 100, 4]⟩
abbrev S30000 : Shape := ⟨1, ![30000]⟩
abbrev S30000x4 : Shape := ⟨2, ![30000, 4]⟩
abbrev S64x9 : Shape := ⟨2, ![64, 9]⟩
abbrev S64 : Shape := ⟨1, ![64]⟩
abbrev S30000x100x3 : Shape := ⟨3, ![30000, 100, 3]⟩
abbrev S_ : Shape := ⟨0, ![]⟩
abbrev S30000x3 : Shape := ⟨2, ![30000, 3]⟩
abbrev S30000x1x3 : Shape := ⟨3, ![30000, 1, 3]⟩
abbrev S30000x1x1 : Shape := ⟨3, ![30000, 1, 1]⟩
abbrev S30000x1 : Shape := ⟨2, ![30000, 1]⟩
abbrev S30000x100x1 : Shape := ⟨3, ![30000, 100, 1]⟩
abbrev S30000x100 : Shape := ⟨2, ![30000, 100]⟩
abbrev S30000x100x2 : Shape := ⟨3, ![30000, 100, 2]⟩
abbrev S30000x100x9 : Shape := ⟨3, ![30000, 100, 9]⟩
abbrev S100 : Shape := ⟨1, ![100]⟩
abbrev S1x100 : Shape := ⟨2, ![1, 100]⟩
abbrev S30000x100x64 : Shape := ⟨3, ![30000, 100, 64]⟩
abbrev S1x1x64 : Shape := ⟨3, ![1, 1, 64]⟩
abbrev S30000x64 : Shape := ⟨2, ![30000, 64]⟩

abbrev nBuf : Space → Nat
  | .hbm => 95
  | .vmem => 0
  | .smem => 0
  | _ => 0

abbrev bufTy : (tb : Table) → Fin (tcTables nBuf tb) → BufTy
  | .hbm, ⟨0, _⟩ => ⟨S30000x100x4, .f32⟩
  | .hbm, ⟨1, _⟩ => ⟨S30000, .i32⟩
  | .hbm, ⟨2, _⟩ => ⟨S30000x4, .i32⟩
  | .hbm, ⟨3, _⟩ => ⟨S64x9, .f32⟩
  | .hbm, ⟨4, _⟩ => ⟨S64, .f32⟩
  | .hbm, ⟨5, _⟩ => ⟨S64, .f32⟩
  | .hbm, ⟨6, _⟩ => ⟨S30000, .f32⟩
  | .hbm, ⟨7, _⟩ => ⟨S30000x100x3, .f32⟩
  | .hbm, ⟨8, _⟩ => ⟨S_, .f32⟩
  | .hbm, ⟨9, _⟩ => ⟨S30000x3, .f32⟩
  | .hbm, ⟨10, _⟩ => ⟨S30000x1x3, .f32⟩
  | .hbm, ⟨11, _⟩ => ⟨S30000x1x1, .f32⟩
  | .hbm, ⟨12, _⟩ => ⟨S30000x1x3, .f32⟩
  | .hbm, ⟨13, _⟩ => ⟨S30000x1x3, .f32⟩
  | .hbm, ⟨14, _⟩ => ⟨S30000x100x3, .f32⟩
  | .hbm, ⟨15, _⟩ => ⟨S30000x100x3, .f32⟩
  | .hbm, ⟨16, _⟩ => ⟨S30000x100x3, .f32⟩
  | .hbm, ⟨17, _⟩ => ⟨S30000x1, .i32⟩
  | .hbm, ⟨18, _⟩ => ⟨S30000, .i32⟩
  | .hbm, ⟨19, _⟩ => ⟨S30000, .f32⟩
  | .hbm, ⟨20, _⟩ => ⟨S30000x1, .f32⟩
  | .hbm, ⟨21, _⟩ => ⟨S30000x1, .i32⟩
  | .hbm, ⟨22, _⟩ => ⟨S30000, .i32⟩
  | .hbm, ⟨23, _⟩ => ⟨S30000, .f32⟩
  | .hbm, ⟨24, _⟩ => ⟨S30000x1, .f32⟩
  | .hbm, ⟨25, _⟩ => ⟨S30000x100x1, .f32⟩
  | .hbm, ⟨26, _⟩ => ⟨S30000x100, .f32⟩
  | .hbm, ⟨27, _⟩ => ⟨S_, .f32⟩
  | .hbm, ⟨28, _⟩ => ⟨S30000x1, .f32⟩
  | .hbm, ⟨29, _⟩ => ⟨S30000x1, .f32⟩
  | .hbm, ⟨30, _⟩ => ⟨S_, .f32⟩
  | .hbm, ⟨31, _⟩ => ⟨S30000x1, .f32⟩
  | .hbm, ⟨32, _⟩ => ⟨S30000x1, .f32⟩
  | .hbm, ⟨33, _⟩ => ⟨S30000x100, .f32⟩
  | .hbm, ⟨34, _⟩ => ⟨S30000x100, .f32⟩
  | .hbm, ⟨35, _⟩ => ⟨S30000x100x1, .f32⟩
  | .hbm, ⟨36, _⟩ => ⟨S30000x100, .f32⟩
  | .hbm, ⟨37, _⟩ => ⟨S_, .f32⟩
  | .hbm, ⟨38, _⟩ => ⟨S30000x1, .f32⟩
  | .hbm, ⟨39, _⟩ => ⟨S30000x1, .f32⟩
  | .hbm, ⟨40, _⟩ => ⟨S_, .f32⟩
  | .hbm, ⟨41, _⟩ => ⟨S30000x1, .f32⟩
  | .hbm, ⟨42, _⟩ => ⟨S30000x1, .f32⟩
  | .hbm, ⟨43, _⟩ => ⟨S30000x100, .f32⟩
  | .hbm, ⟨44, _⟩ => ⟨S30000x100, .f32⟩
  | .hbm, ⟨45, _⟩ => ⟨S30000x100x1, .f32⟩
  | .hbm, ⟨46, _⟩ => ⟨S30000x100x1, .f32⟩
  | .hbm, ⟨47, _⟩ => ⟨S30000x100x2, .f32⟩
  | .hbm, ⟨48, _⟩ => ⟨S30000x100x9, .f32⟩
  | .hbm, ⟨49, _⟩ => ⟨S100, .i32⟩
  | .hbm, ⟨50, _⟩ => ⟨S1x100, .i32⟩
  | .hbm, ⟨51, _⟩ => ⟨S30000x1, .i32⟩
  | .hbm, ⟨52, _⟩ => ⟨S30000x100, .i32⟩
  | .hbm, ⟨53, _⟩ => ⟨S30000x100, .i32⟩
  | .hbm, ⟨54, _⟩ => ⟨S30000x100, .i1⟩
  | .hbm, ⟨55, _⟩ => ⟨S30000x100, .f32⟩
  | .hbm, ⟨56, _⟩ => ⟨S30000x100x1, .f32⟩
  | .hbm, ⟨57, _⟩ => ⟨S30000x100x9, .f32⟩
  | .hbm, ⟨58, _⟩ => ⟨S30000x100x9, .f32⟩
  | .hbm, ⟨59, _⟩ => ⟨S30000x100x64, .f32⟩
  | .hbm, ⟨60, _⟩ => ⟨S_, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S1x1x64, .f32⟩
  | .hbm, ⟨66, _⟩ => ⟨S30000x100x64, .f32⟩
  | .hbm, ⟨67, _⟩ => ⟨S30000x100x64, .f32⟩
  | .hbm, ⟨68, _⟩ => ⟨S30000x100x64, .f32⟩
  | .hbm, ⟨69, _⟩ => ⟨S_, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S1x1x64, .f32⟩
  | .hbm, ⟨75, _⟩ => ⟨S30000x100x64, .f32⟩
  | .hbm, ⟨76, _⟩ => ⟨S30000x100x64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S1x1x64, .f32⟩
  | .hbm, ⟨82, _⟩ => ⟨S30000x100x64, .f32⟩
  | .hbm, ⟨83, _⟩ => ⟨S30000x100x64, .f32⟩
  | .hbm, ⟨84, _⟩ => ⟨S1x1x64, .f32⟩
  | .hbm, ⟨85, _⟩ => ⟨S30000x100x64, .f32⟩
  | .hbm, ⟨86, _⟩ => ⟨S30000x100x64, .f32⟩
  | .hbm, ⟨87, _⟩ => ⟨S1x1x64, .f32⟩
  | .hbm, ⟨88, _⟩ => ⟨S30000x100x64, .f32⟩
  | .hbm, ⟨89, _⟩ => ⟨S30000x100x64, .f32⟩
  | .hbm, ⟨90, _⟩ => ⟨S_, .f32⟩
  | .hbm, ⟨91, _⟩ => ⟨S30000x100x64, .f32⟩
  | .hbm, ⟨92, _⟩ => ⟨S30000x100x64, .f32⟩
  | .hbm, ⟨93, _⟩ => ⟨S_, .f32⟩
  | .hbm, ⟨94, _⟩ => ⟨S30000x64, .f32⟩
  | _, _ => ⟨S30000x100x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_4 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_8 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_call0_cst : Ref sig .tc := ⟨.hbm, 90, rfl⟩
abbrev main_call0_v0 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩

abbrev nD : Nat := 1
abbrev τ : Topo := Topo.v7x

variable {F : FTy → Type} [FloatOps F]

class Facts₀ : Prop where
  slices_S30000x100x4_S30000x100x3_0_0_0 : S30000x100x4.Slices ![0, 0, 0] S30000x100x3
  reducesTo_S30000x100x3_S30000x3_d1 : S30000x100x3.ReducesTo [1] S30000x3
  h_S_ : 0 < S_.numel
  bcast_S30000x3_S30000x1x3_0_2 : S30000x3.BroadcastsInDim S30000x1x3 (![0, 2] : Fin 2 → Fin S30000x1x3.rank)
  bcast_S30000_S30000x1x1_0 : S30000.BroadcastsInDim S30000x1x1 (![0] : Fin 1 → Fin S30000x1x1.rank)
  bcast_S30000x1x1_S30000x1x3_0_1_2 : S30000x1x1.BroadcastsInDim S30000x1x3 (![0, 1, 2] : Fin 3 → Fin S30000x1x3.rank)
  bcast_S30000x1x3_S30000x100x3_0_1_2 : S30000x1x3.BroadcastsInDim S30000x100x3 (![0, 1, 2] : Fin 3 → Fin S30000x100x3.rank)
  slices_S30000x4_S30000x1_0_3 : S30000x4.Slices ![0, 3] S30000x1
  shapeCasts_S30000x1_S30000 : S30000x1.ShapeCasts S30000
  bcast_S30000_S30000x1_0 : S30000.BroadcastsInDim S30000x1 (![0] : Fin 1 → Fin S30000x1.rank)
  slices_S30000x4_S30000x1_0_2 : S30000x4.Slices ![0, 2] S30000x1
  slices_S30000x100x4_S30000x100x1_0_0_0 : S30000x100x4.Slices ![0, 0, 0] S30000x100x1
  shapeCasts_S30000x100x1_S30000x100 : S30000x100x1.ShapeCasts S30000x100
  bcast_S_S30000x1 : S_.BroadcastsInDim S30000x1 (![] : Fin 0 → Fin S30000x1.rank)
  bcast_S30000x1_S30000x100_0_1 : S30000x1.BroadcastsInDim S30000x100 (![0, 1] : Fin 2 → Fin S30000x100.rank)
  slices_S30000x100x4_S30000x100x1_0_0_1 : S30000x100x4.Slices ![0, 0, 1] S30000x100x1
  bcast_S30000x100_S30000x100x1_0_1 : S30000x100.BroadcastsInDim S30000x100x1 (![0, 1] : Fin 2 → Fin S30000x100x1.rank)
  concatenates_S30000x100x1_S30000x100x1_S30000x100x2_d2 : Shape.Concatenates [S30000x100x1, S30000x100x1] S30000x100x2 2
  concatenates_S30000x100x4_S30000x100x3_S30000x100x2_S30000x100x9_d2 : Shape.Concatenates [S30000x100x4, S30000x100x3, S30000x100x2] S30000x100x9 2
  bcast_S100_S1x100_1 : S100.BroadcastsInDim S1x100 (![1] : Fin 1 → Fin S1x100.rank)
  bcast_S1x100_S30000x100_0_1 : S1x100.BroadcastsInDim S30000x100 (![0, 1] : Fin 2 → Fin S30000x100.rank)
  bcast_S30000x100x1_S30000x100x9_0_1_2 : S30000x100x1.BroadcastsInDim S30000x100x9 (![0, 1, 2] : Fin 3 → Fin S30000x100x9.rank)
  reducesTo_S30000x100x64_S64_d0_1 : S30000x100x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S1x1x64_S30000x100x64_0_1_2 : S1x1x64.BroadcastsInDim S30000x100x64 (![0, 1, 2] : Fin 3 → Fin S30000x100x64.rank)
  bcast_S_S30000x100x64 : S_.BroadcastsInDim S30000x100x64 (![] : Fin 0 → Fin S30000x100x64.rank)
  reducesTo_S30000x100x64_S30000x64_d1 : S30000x100x64.ReducesTo [1] S30000x64
  dot_S30000x100x9_S64x9_S30000x100x64_2_1_01_0_n_n_wf : DotDims.WF S30000x100x9 S64x9 S30000x100x64 [2] [1] [0, 1] [0] [] []

variable [Facts₀]

def dot_S30000x100x9_S64x9_S30000x100x64_2_1_01_0_n_n : DotDims S30000x100x9 S64x9 S30000x100x64 where
  lhsContracting := [2]
  rhsContracting := [1]
  lhsNonContracting := [0, 1]
  rhsNonContracting := [0]
  lhsBatch := []
  rhsBatch := []
  wf := dot_S30000x100x9_S64x9_S30000x100x64_2_1_01_0_n_n_wf

class Facts : Prop extends Facts₀ where

variable [Facts]
-- ==== Proof.K.Terms.lean ====
/-
  The values the two kernel bodies compute, as compositions of the bodies' named pure terms, at any float instance.
  A block of 80 pillars is (x1, x2, x3, x4) = (points [80,100,4], point counts [80,1], voxel coordinates [80,4], the
  transposed weight [9,64]). `lin` is the masked nine-feature vector of every point times the weight, [80,100,64];
  `accSum` / `accSq` add the block's column sums of `lin` and of its square to a running [1,64] row; `normMax` is the
  second body's result: `lin` shifted by a mean row, scaled by the reciprocal root of a variance row plus 1e-3 and by
  gamma, shifted by beta, clamped at zero, and maximised over the 100 points, [80,64].
-/
import proofs.«164556_j22273700397341_1_alg».proof.Proof.Gen.Kernel.Skeleton

noncomputable section

namespace Cert.Kernel.Hand

open Idealize.ShloMosaic Cert.Kernel Cert.Kernel.Gen

variable {F : FTy → Type} [FloatOps F]

/-- The nine masked features of each point of the block: the point's four values, its offset from the pillar's mean
    (sum over the 100 points divided by the point count), its offset from the voxel centre, all times the 0/1 mask
    "point index below the count". -/
def feats0 (x1 : Vec F S80x100x4 .f32) (x2 : Vec F S80x1 .i32) (x3 : Vec F S80x4 .i32) : FVec F S80x100x9 .f32 :=
  k0_pay6 (k0_pay4 x1 x2 x3) (k0_pay5 x2)

/-- The linear layer on the block in the first body: nine products accumulated from zero. -/
def lin0 (x1 : Vec F S80x100x4 .f32) (x2 : Vec F S80x1 .i32) (x3 : Vec F S80x4 .i32) (x4 : Vec F S9x64 .f32) : FVec F S80x100x64 .f32 :=
  k0_pay10 (feats0 x1 x2 x3) (k0_pay7 x4) (k0_pay8 (k0_pay4 x1 x2 x3) (k0_pay5 x2) x4) (k0_pay9 x4)

/-- The running row of sums `s` plus this block's sum of `lin0` over pillars and points. -/
def accSum (x1 : Vec F S80x100x4 .f32) (x2 : Vec F S80x1 .i32) (x3 : Vec F S80x4 .i32) (x4 : Vec F S9x64 .f32) (s : Vec F S1x64 .f32) : Vec F S1x64 .f32 :=
  k0_pay11 (feats0 x1 x2 x3) (k0_pay7 x4) (k0_pay8 (k0_pay4 x1 x2 x3) (k0_pay5 x2) x4) (k0_pay9 x4) s

/-- The running row of sums of squares `s` plus this block's sum of `lin0` squared over pillars and points. -/
def accSq (x1 : Vec F S80x100x4 .f32) (x2 : Vec F S80x1 .i32) (x3 : Vec F S80x4 .i32) (x4 : Vec F S9x64 .f32) (s : Vec F S1x64 .f32) : Vec F S1x64 .f32 :=
  k0_pay12 (feats0 x1 x2 x3) (k0_pay7 x4) (k0_pay8 (k0_pay4 x1 x2 x3) (k0_pay5 x2) x4) (k0_pay9 x4) s

/-- The zero row both accumulators start from at the first grid point. -/
def zeroSum : Vec F S1x64 .f32 := k0_pay1 (F := F)
def zeroSq : Vec F S1x64 .f32 := k0_pay2 (F := F)

/-- The second body's result on the block: x5 the mean row, x6 the variance row, x7 gamma, x8 beta. -/
def normMax (x1 : Vec F S80x100x4 .f32) (x2 : Vec F S80x1 .i32) (x3 : Vec F S80x4 .i32) (x4 : Vec F S9x64 .f32)
    (x5 x6 x7 x8 : Vec F S1x64 .f32) : Vec F S80x64 .f32 :=
  k1_pay1 (k1_pay2 x1 x2 x3) (k1_pay3 x4) (k1_pay4 (k1_pay2 x1 x2 x3) x4) (k1_pay5 x4) x5 x6 x7 x8

end Cert.Kernel.Hand

end
-- ==== Proof.K.Data.lean ====
/-
  The proof data of the two pipelines, at any float instance and at a PARAMETER `V`: the TensorCore's buffer contents
  when a region is entered. Region 0 walks the 375 blocks of 80 pillars keeping two [1,64] rows in scratch: after grid
  point n they hold the sums over blocks 0..n of the blocks' column sums of the linear layer's output and of its square
  (`sumAt`, `sqAt`: a recursion on the point), and the last point copies them to the two outputs. Region 1 is
  pointwise in the block: its output block is `normMax` of the point's eight input blocks.
-/
import proofs.«164556_j22273700397341_1_alg».proof.Proof.K.Terms
import proofs.«164556_j22273700397341_1_alg».proof.Proof.Gen.Kernel.Launch
import proofs.«164556_j22273700397341_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two scratch operands of region 0's kernel as whole memrefs. -/
abbrev scSum : Memref sig .tc .vmem S1x64 .f32 := Memref.whole cc0_scratch0
abbrev scSq : Memref sig .tc .vmem S1x64 .f32 := Memref.whole cc0_scratch1

/-- The running row of sums after grid point `n`: blocks 0..n accumulated from the zero row. -/
def sumAt (c : Dev nD) : (n : ℕ) → n < cfg0.N → Vec F S1x64 .f32
  | 0, h => accSum (iblk0 V c 0 ⟨0, h⟩) (iblk0 V c 1 ⟨0, h⟩) (iblk0 V c 2 ⟨0, h⟩) (iblk0 V c 3 ⟨0, h⟩) zeroSum
  | n + 1, h => accSum (iblk0 V c 0 ⟨n + 1, h⟩) (iblk0 V c 1 ⟨n + 1, h⟩) (iblk0 V c 2 ⟨n + 1, h⟩) (iblk0 V c 3 ⟨n + 1, h⟩)
      (sumAt c n (Nat.lt_of_succ_lt h))

/-- The running row of sums of squares after grid point `n`. -/
def sqAt (c : Dev nD) : (n : ℕ) → n < cfg0.N → Vec F S1x64 .f32
  | 0, h => accSq (iblk0 V c 0 ⟨0, h⟩) (iblk0 V c 1 ⟨0, h⟩) (iblk0 V c 2 ⟨0, h⟩) (iblk0 V c 3 ⟨0, h⟩) zeroSq
  | n + 1, h => accSq (iblk0 V c 0 ⟨n + 1, h⟩) (iblk0 V c 1 ⟨n + 1, h⟩) (iblk0 V c 2 ⟨n + 1, h⟩) (iblk0 V c 3 ⟨n + 1, h⟩)
      (sqAt c n (Nat.lt_of_succ_lt h))

/-- Region 0's invariant before position `n`: before the first point the scoped rest at anything and the generator
    register at some state; afterwards the two scratch rows at the running sums the point before left, every other
    scoped buffer that is no staging buffer at anything, and the generator register at some state. -/
def Phi0 (c : Dev nD) : (n : ℕ) → n ≤ cfg0.N → sProp 𝕄
  | 0, _ => Pipeline.ΦA spec0 c
  | n + 1, hn => iprop(owns (c : Thread nD τ) scSum fullShare (sumAt V c n hn) ∗ owns (c : Thread nD τ) scSq fullShare (sqAt V c n hn)
      ∗ Pipeline.scopedRestBut (Ix := Unit) (Name := ℕ) (U := UR sig nD τ) (Lvl := ℕ) (Val := Elt F) spec0 c [cc0_scratch0, cc0_scratch1]
      ∗ (∃ r, prngReg c r))

/-- Region 0's proof data on core `c`: the arrays as the region finds them; after the body each input's buffer at its
    block, the two outputs' at the running rows (they are live at the last point only, where the body copies the rows
    into them); the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => sumAt V c t.val t.isLt
    | ⟨5, _⟩ => sqAt V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = sumAt V c t.val t.isLt := by dsimp only [dat0]
theorem after0_5 (c : Dev nD) (t : Fin cfg0.N) : (dat0 V c).after 5 t = sqAt V c t.val t.isLt := by dsimp only [dat0]

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scSum fullShare (sumAt V c n hn) ∗ owns (c : Thread nD τ) scSq fullShare (sqAt V c n hn)
      ∗ Pipeline.scopedRestBut (Ix := Unit) (Name := ℕ) (U := UR sig nD τ) (Lvl := ℕ) (Val := Elt F) spec0 c [cc0_scratch0, cc0_scratch1]
      ∗ (∃ r, prngReg c r)) := rfl

theorem Phi0_pos (c : Dev nD) (n : ℕ) (h : n ≤ cfg0.N) (hz : n ≠ 0) :
    Phi0 V c n h = iprop(owns (c : Thread nD τ) scSum fullShare (sumAt V c (n - 1) (by omega)) ∗ owns (c : Thread nD τ) scSq fullShare (sqAt V c (n - 1) (by omega))
      ∗ Pipeline.scopedRestBut (Ix := Unit) (Name := ℕ) (U := UR sig nD τ) (Lvl := ℕ) (Val := Elt F) spec0 c [cc0_scratch0, cc0_scratch1]
      ∗ (∃ r, prngReg c r)) := by
  cases n with
  | zero => exact absurd rfl hz
  | succ n => rfl

theorem Phi0_castSucc (c : Dev nD) (t : Fin cfg0.N) :
    (dat0 V c).Φ t.castSucc = Phi0 V c t.val (Nat.le_of_lt t.isLt) := by
  dsimp only [dat0]; simp only [Fin.coe_castSucc]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What region 1's body leaves in its output's staging buffer at point `t`. -/
def outAt1 (c : Dev nD) (t : Fin cfg1.N) : Vec F S80x64 .f32 :=
  normMax (iblk1 V c 0 t) (iblk1 V c 1 t) (iblk1 V c 2 t) (iblk1 V c 3 t) (iblk1 V c 4 t) (iblk1 V c 5 t) (iblk1 V c 6 t) (iblk1 V c 7 t)

/-- Region 1's proof data on core `c`: the class invariant (scoped rest and generator register, untouched). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = outAt1 V c t := by dsimp only [dat1]

end Cert.Kernel.Hand

end
-- ==== Proof.K.Bounds.lean ====
/-
  The TensorCore's buffer contents at each boundary of @main, as a fold from the launch memory: after the first four
  host operations (a reshape of the counts, the weight's transpose, two reshapes), after region 0 (its two outputs at
  what its write-backs leave, every other buffer as entered), after the twelve host operations that turn the two rows
  of sums into the mean and variance rows, and after region 1 (its output at what its write-backs leave). And the
  family of the two pipelines' proof data, each at its region's entry contents.
-/
import proofs.«164556_j22273700397341_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev B0 : Dev nD → Valuation τ sig (Elt F) := fun c b => m ((c : Dev nD), b)
/-- After the first host stretch (region 0's entry). -/
abbrev B1 : Dev nD → Valuation τ sig (Elt F) := fun c => StableHlo.after hostOps0 (B0 m c)
/-- The same read at the TensorCore's references. -/
abbrev E1 : (c : Dev nD) → (b : Ref sig .tc) → Buf (Elt F) ((c : Thread nD τ).loc b) := fun c b => B1 m c b
/-- At region 0's exit. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second host stretch (region 1's entry). -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- At region 1's exit. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-- No pipeline has a prefetched table. -/
abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c

end Cert.Kernel.Hand

end
-- ==== Proof.K.Body0.lean ====
/-
  The first kernel body on whole memrefs, point by point. The body tests the grid coordinate twice: at coordinate 0 it
  first writes the zero row into each of the two carried [1,64] rows; at every point it adds to the first row the
  block's column sums of the linear layer's output and to the second row those of its square (`accSum`, `accSq` of
  the four input blocks and the row's previous contents); at coordinate 374 it then copies the two rows into the two
  outputs. Over the 375 points that is three cases: the first point (reset, then accumulate from the zero row), the
  middle points (accumulate onto what the point before left), the last point (accumulate, then copy out). For each
  case: the body, run on the inputs at contents x1..x4, leaves the inputs as they were and the two rows at the new
  sums; the outputs are untouched except at the last point, where they receive the new rows.
-/
import proofs.«164556_j22273700397341_1_alg».proof.Proof.K.Terms
import proofs.«164556_j22273700397341_1_alg».proof.Proof.Gen.Kernel.Launch
import proofs.«164556_j22273700397341_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a whole-shape rectangle, at ranks 2 and 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## The two conditions over the grid, and where the outputs are idle -/

/-- The first conditional's test (the grid coordinate equals 0), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional's test (the grid coordinate equals 374). -/
abbrev cond0_1 (i : grid0.Coords) : Prop := k0_cond2 i = 1#1
/-- It holds at the last point only. -/
theorem hcond0_1 : ∀ t : Fin cfg0.N, cond0_1 (grid0.coords t) ↔ t.val = 374 :=
  (by decide +kernel : ∀ t : Fin grid0.N, cond0_1 (grid0.coords t) ↔ t.val = 374)

/-- The four inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

/-- Away from the last point the two outputs are idle and not written back; at the last point they are live. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The body's triple in each of the three cases -/

set_option maxHeartbeats 1000000 in
/-- The first point: whatever the two rows held, they end at this block's sums added to the zero row; the outputs
    are handed back as found. -/
theorem run_first (c : Dev nD) (E : Set ℕ) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : cond0_0 i) (hc1 : ¬cond0_1 i) (x1 : Vec F S80x100x4 .f32) (x2 : Vec F S80x1 .i32) (x3 : Vec F S80x4 .i32) (x4 : Vec F S9x64 .f32) (xi5 xi6 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ owns (c : Thread nD τ) arg5 fullShare xi5 ∗ owns (c : Thread nD τ) arg6 fullShare xi6
        ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare xi5 ∗ owns (c : Thread nD τ) arg6 fullShare xi6
            ∗ owns (c : Thread nD τ) arg7 fullShare (accSum x1 x2 x3 x4 zeroSum) ∗ owns (c : Thread nD τ) arg8 fullShare (accSq x1 x2 x3 x4 zeroSq)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [View.read_writes_eq_canon _ _ _ (fun y => ⟨_, List.mem_cons.mpr (Or.inl rfl), View.mem_set_unit_zero hz2 inb_S1x64_S1x64_0_0 y⟩)]
    rw [View.canon_cons_unit_zero (S := S1x64) hz2]
    sl_unfold_words
    rw [View.readCov_unit_zero (S := S1x64) _ hz2]
    simp only [View.readAt_eq_ld, harg1.read_unread, harg2.read_unread, harg3.read_unread, harg4.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2]
    unfold accSum feats0 zeroSum
    rfl
  iexists _; isplitr
  swap; · iexact H8
  ipureintro
  rw [View.read_writes_eq_canon _ _ _ (fun y => ⟨_, List.mem_cons.mpr (Or.inl rfl), View.mem_set_unit_zero hz2 inb_S1x64_S1x64_0_0 y⟩)]
  rw [View.canon_cons_unit_zero (S := S1x64) hz2]
  sl_unfold_words
  rw [View.readCov_unit_zero (S := S1x64) _ hz2]
  simp only [View.readAt_eq_ld, harg1.read_unread, harg2.read_unread, harg3.read_unread, harg4.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2]
  unfold accSq feats0 zeroSq
  rfl

set_option maxHeartbeats 1000000 in
/-- A middle point: the rows at `s7`, `s8` end at this block's sums added to them; the outputs are handed back as found. -/
theorem run_mid (c : Dev nD) (E : Set ℕ) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬cond0_0 i) (hc1 : ¬cond0_1 i) (x1 : Vec F S80x100x4 .f32) (x2 : Vec F S80x1 .i32) (x3 : Vec F S80x4 .i32) (x4 : Vec F S9x64 .f32) (xi5 xi6 s7 s8 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ owns (c : Thread nD τ) arg5 fullShare xi5 ∗ owns (c : Thread nD τ) arg6 fullShare xi6
        ∗ owns (c : Thread nD τ) arg7 fullShare s7 ∗ owns (c : Thread nD τ) arg8 fullShare s8
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare xi5 ∗ owns (c : Thread nD τ) arg6 fullShare xi6
            ∗ owns (c : Thread nD τ) arg7 fullShare (accSum x1 x2 x3 x4 s7) ∗ owns (c : Thread nD τ) arg8 fullShare (accSq x1 x2 x3 x4 s8)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_cons.mpr (Or.inl rfl), View.mem_set_unit_zero hz2 inb_S1x64_S1x64_0_0 y⟩)]
    rw [View.canon_cons_unit_zero (S := S1x64) hz2]
    simp only [View.readAt_eq_ld, harg1.read_unread, harg2.read_unread, harg3.read_unread, harg4.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2]
    unfold accSum feats0
    rfl
  · iexists _; isplitr
    swap; · iexact H8
    ipureintro
    sl_unfold_words
    rw [View.read_writes_eq_canon _ _ _ (fun y => ⟨_, List.mem_cons.mpr (Or.inl rfl), View.mem_set_unit_zero hz2 inb_S1x64_S1x64_0_0 y⟩)]
    rw [View.canon_cons_unit_zero (S := S1x64) hz2]
    simp only [View.readAt_eq_ld, harg1.read_unread, harg2.read_unread, harg3.read_unread, harg4.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2]
    unfold accSq feats0
    rfl

set_option maxHeartbeats 1000000 in
/-- The last point: the rows at `s7`, `s8` end at this block's sums added to them, and the two outputs, whatever
    they held, receive those same new rows. -/
theorem run_last (c : Dev nD) (E : Set ℕ) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬cond0_0 i) (hc1 : cond0_1 i) (x1 : Vec F S80x100x4 .f32) (x2 : Vec F S80x1 .i32) (x3 : Vec F S80x4 .i32) (x4 : Vec F S9x64 .f32) (s7 s8 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ owns (c : Thread nD τ) arg7 fullShare s7 ∗ owns (c : Thread nD τ) arg8 fullShare s8
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (accSum x1 x2 x3 x4 s7) ∗ owns (c : Thread nD τ) arg6 fullShare (accSq x1 x2 x3 x4 s8)
            ∗ owns (c : Thread nD τ) arg7 fullShare (accSum x1 x2 x3 x4 s7) ∗ owns (c : Thread nD τ) arg8 fullShare (accSq x1 x2 x3 x4 s8)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [View.read_writes_eq_canon _ _ _ (fun y => ⟨_, List.mem_cons.mpr (Or.inl rfl), View.mem_set_unit_zero hz2 inb_S1x64_S1x64_0_0 y⟩)]
    rw [View.canon_cons_unit_zero (S := S1x64) hz2]
    rw [View.readCov_unit_zero (S := S1x64) _ hz2]
    simp only [View.readAt_eq_ld, harg1.read_unread, harg2.read_unread, harg3.read_unread, harg4.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2]
    unfold accSum feats0
    rfl
  isplitl [H6]
  · iexists _; isplitr
    swap; · iexact H6
    ipureintro
    sl_unfold_words
    rw [View.read_writes_eq_canon _ _ _ (fun y => ⟨_, List.mem_cons.mpr (Or.inl rfl), View.mem_set_unit_zero hz2 inb_S1x64_S1x64_0_0 y⟩)]
    rw [View.canon_cons_unit_zero (S := S1x64) hz2]
    rw [View.readCov_unit_zero (S := S1x64) _ hz2]
    simp only [View.readAt_eq_ld, harg1.read_unread, harg2.read_unread, harg3.read_unread, harg4.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2]
    unfold accSq feats0
    rfl
  isplitl [H7]
  · iexists _; isplitr
    swap; · iexact H7
    ipureintro
    sl_unfold_words
    rw [View.read_writes_eq_canon _ _ _ (fun y => ⟨_, List.mem_cons.mpr (Or.inl rfl), View.mem_set_unit_zero hz2 inb_S1x64_S1x64_0_0 y⟩)]
    rw [View.canon_cons_unit_zero (S := S1x64) hz2]
    simp only [View.readAt_eq_ld, harg1.read_unread, harg2.read_unread, harg3.read_unread, harg4.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2]
    unfold accSum feats0
    rfl
  · iexists _; isplitr
    swap; · iexact H8
    ipureintro
    sl_unfold_words
    rw [View.read_writes_eq_canon _ _ _ (fun y => ⟨_, List.mem_cons.mpr (Or.inl rfl), View.mem_set_unit_zero hz2 inb_S1x64_S1x64_0_0 y⟩)]
    rw [View.canon_cons_unit_zero (S := S1x64) hz2]
    simp only [View.readAt_eq_ld, harg1.read_unread, harg2.read_unread, harg3.read_unread, harg4.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2]
    unfold accSq feats0
    rfl

end Cert.Kernel.Hand

end
-- ==== Proof.K.Oblig0.lean ====
/-
  Region 0's body obligation: at every grid point the first kernel body, run on the windows' staging buffers at their
  blocks and the two scratch rows at the running sums the point before left, leaves the rows at this point's running
  sums; the two outputs are touched at the last point only, where they receive the rows.
-/
import proofs.«164556_j22273700397341_1_alg».proof.Proof.K.Data
import proofs.«164556_j22273700397341_1_alg».proof.Proof.K.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the inputs' staging buffers -/

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The running sums at a point, by whether it is the first -/

theorem sumAt_first (c : Dev nD) (t : Fin cfg0.N) (h0 : t.val = 0) :
    sumAt V c t.val t.isLt = accSum (iblk0 V c 0 t) (iblk0 V c 1 t) (iblk0 V c 2 t) (iblk0 V c 3 t) zeroSum := by
  obtain ⟨n, hn⟩ := t
  cases n with
  | zero => rfl
  | succ n => exact absurd h0 (Nat.succ_ne_zero n)

theorem sqAt_first (c : Dev nD) (t : Fin cfg0.N) (h0 : t.val = 0) :
    sqAt V c t.val t.isLt = accSq (iblk0 V c 0 t) (iblk0 V c 1 t) (iblk0 V c 2 t) (iblk0 V c 3 t) zeroSq := by
  obtain ⟨n, hn⟩ := t
  cases n with
  | zero => rfl
  | succ n => exact absurd h0 (Nat.succ_ne_zero n)

theorem sumAt_pos (c : Dev nD) (t : Fin cfg0.N) (h0 : t.val ≠ 0) :
    sumAt V c t.val t.isLt = accSum (iblk0 V c 0 t) (iblk0 V c 1 t) (iblk0 V c 2 t) (iblk0 V c 3 t) (sumAt V c (t.val - 1) (Nat.lt_of_le_of_lt (Nat.sub_le _ _) t.isLt)) := by
  obtain ⟨n, hn⟩ := t
  cases n with
  | zero => exact absurd rfl h0
  | succ n => rfl

theorem sqAt_pos (c : Dev nD) (t : Fin cfg0.N) (h0 : t.val ≠ 0) :
    sqAt V c t.val t.isLt = accSq (iblk0 V c 0 t) (iblk0 V c 1 t) (iblk0 V c 2 t) (iblk0 V c 3 t) (sqAt V c (t.val - 1) (Nat.lt_of_le_of_lt (Nat.sub_le _ _) t.isLt)) := by
  obtain ⟨n, hn⟩ := t
  cases n with
  | zero => exact absurd rfl h0
  | succ n => rfl

/-! ## The class invariant with the two scratch rows taken out -/

/-- The scoped rest splits into the two scratch rows, each at some contents, and every other scoped buffer that is no
    staging buffer. -/
theorem PhiA0_eq (c : Dev nD) :
    (Pipeline.ΦA spec0 c : sProp 𝕄)
      = iprop((((∃ d, owns (c : Thread nD τ) scSum fullShare d) ∗ (∃ d, owns (c : Thread nD τ) scSq fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA
  rw [Pipeline.scopedRest_split_of_list spec0 c [cc0_scratch0, cc0_scratch1] (by decide) (by decide)]
  simp only [scSum, scSq, owns_whole, bigSepL_cons_cons, bigSepL_singleton]
  try rfl

/-! ## The body obligation, at a generic point -/

/-- Each window's current staging memref at point `t`. -/
abbrev ms0_0 (t : Fin cfg0.N) : Memref sig .tc .vmem S80x100x4 .f32 := win0_0.stage (cfg0.slots t 0)
abbrev ms0_1 (t : Fin cfg0.N) : Memref sig .tc .vmem S80x1 .i32 := win0_1.stage (cfg0.slots t 1)
abbrev ms0_2 (t : Fin cfg0.N) : Memref sig .tc .vmem S80x4 .i32 := win0_2.stage (cfg0.slots t 2)
abbrev ms0_3 (t : Fin cfg0.N) : Memref sig .tc .vmem S9x64 .f32 := win0_3.stage (cfg0.slots t 3)
abbrev ms0_4 (t : Fin cfg0.N) : Memref sig .tc .vmem S1x64 .f32 := win0_4.stage (cfg0.slots t 4)
abbrev ms0_5 (t : Fin cfg0.N) : Memref sig .tc .vmem S1x64 .f32 := win0_5.stage (cfg0.slots t 5)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' memrefs hold their blocks; the point is the first, the last, or neither. At the
    first point the invariant is the class's, and the two rows come out of the scoped rest at anything; afterwards it
    holds them at the running sums the point before left. In each case the body's triple leaves them at this point's
    running sums (the recursion's equation at the point), and the outputs idle (handed back as found) except at the
    last point, where they receive the rows. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 375 := lt_of_lt_of_eq t.isLt (show cfg0.N = 375 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 4 t (idleAt0_4 t hc1) (noFlush0_4 t hc1),
      Dat.leavesExact_idle (dat0 V c) 5 t (idleAt0_5 t hc1) (noFlush0_5 t hc1)]
    rw [sumAt_first V c t h0, sqAt_first V c t h0]
    rw [Phi0_castSucc V c t, Phi0_zero V c _ _ h0, PhiA0_eq]
    iintro ⟨⟨⟨⟨HS7, HS8⟩, HR⟩, Hg⟩, Ho, ⟨%d0, H0⟩, ⟨%d1, H1⟩, ⟨%d2, H2⟩, ⟨%d3, H3⟩, ⟨%d4, H4⟩, ⟨%d5, H5⟩⟩
    iapply (run_first c Set.univ (grid0.coords t) _ _ _ _ _ _ _ _ _ _ _ _ _ _ _ _ hc0 hc1 (iblk0 V c 0 t) (iblk0 V c 1 t) (iblk0 V c 2 t) (iblk0 V c 3 t) _ _ _)
    isplitl [H0]; · iexact H0
    isplitl [H1]; · iexact H1
    isplitl [H2]; · iexact H2
    isplitl [H3]; · iexact H3
    isplitl [H4]; · iexact H4
    isplitl [H5]; · iexact H5
    isplitl [HS7]; · iexact HS7
    isplitl [HS8]; · iexact HS8
    iintro ⟨H0, H1, H2, H3, H4, H5, HS7, HS8⟩
    isplitl [HS7 HS8 HR Hg]
    · isplitl [HS7]; · iexact HS7
      isplitl [HS8]; · iexact HS8
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hc0 : ¬cond0_0 (grid0.coords t) := fun h => h0 ((hcond0_0 t).mp h)
    rw [sumAt_pos V c t h0, sqAt_pos V c t h0]
    rw [Phi0_castSucc V c t, Phi0_pos V c _ _ h0]
    by_cases h1 : t.val = 374
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4, sumAt_pos V c t h0]
      rw [show (dat0 V c).leavesExact 5 t = owns (c : Thread nD τ) (ms0_5 t) fullShare ((dat0 V c).after 5 t) from by
        unfold Dat.leavesExact; rw [liveAt0_5 t hc1], after0_5, sqAt_pos V c t h0]
      iintro ⟨⟨HS7, HS8, HR, Hg⟩, Ho, ⟨%d0, H0⟩, ⟨%d1, H1⟩, ⟨%d2, H2⟩, ⟨%d3, H3⟩, ⟨%d4, H4⟩, ⟨%d5, H5⟩⟩
      iapply (run_last c Set.univ (grid0.coords t) _ _ _ _ _ _ _ _ _ _ _ _ _ _ _ _ hc0 hc1 (iblk0 V c 0 t) (iblk0 V c 1 t) (iblk0 V c 2 t) (iblk0 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [HS7]; · iexact HS7
      isplitl [HS8]; · iexact HS8
      iintro ⟨H0, H1, H2, H3, H4, H5, HS7, HS8⟩
      isplitl [HS7 HS8 HR Hg]
      · isplitl [HS7]; · iexact HS7
        isplitl [HS8]; · iexact HS8
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond0_1 (grid0.coords t) := fun h => h1 ((hcond0_1 t).mp h)
      rw [Dat.leavesExact_idle (dat0 V c) 4 t (idleAt0_4 t hc1) (noFlush0_4 t hc1),
        Dat.leavesExact_idle (dat0 V c) 5 t (idleAt0_5 t hc1) (noFlush0_5 t hc1)]
      iintro ⟨⟨HS7, HS8, HR, Hg⟩, Ho, ⟨%d0, H0⟩, ⟨%d1, H1⟩, ⟨%d2, H2⟩, ⟨%d3, H3⟩, ⟨%d4, H4⟩, ⟨%d5, H5⟩⟩
      iapply (run_mid c Set.univ (grid0.coords t) _ _ _ _ _ _ _ _ _ _ _ _ _ _ _ _ hc0 hc1 (iblk0 V c 0 t) (iblk0 V c 1 t) (iblk0 V c 2 t) (iblk0 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [HS7]; · iexact HS7
      isplitl [HS8]; · iexact HS8
      iintro ⟨H0, H1, H2, H3, H4, H5, HS7, HS8⟩
      isplitl [HS7 HS8 HR Hg]
      · isplitl [HS7]; · iexact HS7
        isplitl [HS8]; · iexact HS8
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation0 (c : Dev nD) : BodyObligation (dat0 (F := F) V c) (defs₀ (F := F)) Variants.none () Set.univ := by
  intro t
  rw [bigSep_W0, bigSep_W0]
  exact sound_body0 V c t

/-- What the launch hands region 0 is its invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class invariant back: the rows' contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 375 := N_0; omega), PhiA0_eq]
  iintro ⟨HS7, HS8, HR, Hg⟩
  isplitl [HS7 HS8 HR]
  · isplitl [HS7 HS8]
    · isplitl [HS7]
      · iexists _; iexact HS7
      iexists _; iexact HS8
    iexact HR
  iexact Hg

end Cert.Kernel.Hand

end
-- ==== Proof.K.Body1.lean ====
/-
  The second kernel body's triple. Run on nine whole memrefs, the eight inputs held at contents x1 … x8 and the output
  at anything, the body leaves the inputs as they were and the output at `normMax x1 … x8`: its one store goes through
  the whole output rectangle, so the buffer reads as the store's payload, and the payload's arguments are the eight
  loads, each through its memref's whole rectangle, which read the contents.
-/
import proofs.«164556_j22273700397341_1_alg».proof.Proof.K.Terms
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-2 and of a rank-3 whole rectangle, as constant functions. -/
theorem k1_off2 : (![0, 0] : Fin 2 → ℕ) = fun _ => 0 := funext fun a => by fin_cases a <;> rfl
theorem k1_off3 : (![0, 0, 0] : Fin 3 → ℕ) = fun _ => 0 := funext fun a => by fin_cases a <;> rfl

set_option maxHeartbeats 4000000 in
/-- The body on whole memrefs: inputs at x1 … x8, output at anything, to the inputs unchanged and the output at
    `normMax x1 … x8`. -/
theorem sound_kernel1 (c : Dev nD) (E : Set ℕ) (i : grid1.Coords)
    (arg1 : Memref sig .tc .vmem S80x100x4 .f32) (harg1 : arg1.IsWhole) (arg2 : Memref sig .tc .vmem S80x1 .i32) (harg2 : arg2.IsWhole)
    (arg3 : Memref sig .tc .vmem S80x4 .i32) (harg3 : arg3.IsWhole) (arg4 : Memref sig .tc .vmem S9x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S80x64 .f32) (harg9 : arg9.IsWhole)
    (x1 : Vec F S80x100x4 .f32) (x2 : Vec F S80x1 .i32) (x3 : Vec F S80x4 .i32) (x4 : Vec F S9x64 .f32)
    (x5 x6 x7 x8 : Vec F S1x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare (normMax x1 x2 x3 x4 x5 x6 x7 x8)) -∗ K ⟨⟩))
      ⊢ wp frame (wpE (defs₀ (F := F)) Variants.none c none) E
          (cc1__pass2_kernel i arg1 harg1 arg2 harg2 arg3 harg3 arg4 harg4 arg5 harg5 arg6 harg6 arg7 harg7 arg8 harg8 arg9 harg9) K := by
  simp only [cc1__pass2_kernel_eq_skeleton]; unfold cc1__pass2_kernel_skel
  simp only [k1_part1_eq_skeleton]; unfold k1_part1_skel
  simp only [k1_part2_eq_skeleton]; unfold k1_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  -- the one store's rectangle is the whole output, so the buffer reads as the store's payload
  rw [View.read_writes_eq_canon _ _ _ (fun y => ⟨_, List.mem_singleton_self _,
      View.mem_set_unit_zero (S := S80x64) k1_off2 inb_S80x64_S80x64_0_0 y⟩),
    View.canon_unit_zero (S := S80x64) k1_off2]
  -- each load goes through its memref's whole rectangle, so it reads the contents
  unfold normMax
  simp only [View.readAt_eq_ld, View.ld_unit_zero (S := S80x100x4) k1_off3, View.ld_unit_zero (S := S80x1) k1_off2,
    View.ld_unit_zero (S := S80x4) k1_off2, View.ld_unit_zero (S := S9x64) k1_off2, View.ld_unit_zero (S := S1x64) k1_off2]

end Cert.Kernel.Hand

end
-- ==== Proof.K.Oblig1.lean ====
/-
  Region 1's body obligation: at every grid point the second kernel body, run on the eight input windows' staging
  buffers at their blocks, leaves the output's buffer at `normMax` of them.
-/
import proofs.«164556_j22273700397341_1_alg».proof.Proof.K.Data
import proofs.«164556_j22273700397341_1_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer

An input window's current staging buffer holds the window's block at the point, whether the pipeline fetched it at
this point or at an earlier one: unfetched, the window's block index has not moved, and the body leaves every input
buffer as it found it. Windows 3 to 7 (weight, mean, variance, gamma, beta) are fetched at the first point only. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-! ## The body at a generic point -/

/-- What the body is called with at point `t`: the invariant, what the core owes, and the nine windows' current
    staging buffers, each at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- What it returns: the invariant and what the core owes at the next point, and each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the eight inputs' buffers hold their blocks, so the body's triple applies at those blocks;
    the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  unfold outAt1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point: the windows' conjunction written out one by one. -/
theorem body_obligation1 (c : Dev nD) : BodyObligation (dat1 (F := F) V c) (defs₀ (F := F)) Variants.none () Set.univ := by
  intro t
  rw [bigSep_W1, bigSep_W1]
  exact sound_body1 V c t

end Cert.Kernel.Hand

end
-- ==== Proof.K.Run.lean ====
/-
  The run of @main at any float instance: four segments — the first host stretch, region 0, the second host stretch,
  region 1 — each entered from the buffer contents the one before left (`B0` … `B4`), the generator register at some
  state and nothing owed riding along. Every weakly fair execution terminates, and in the final state every unscoped
  buffer of the TensorCore holds its `B4` contents: the arguments as launched, the result at what region 1's
  write-backs leave.
-/
import proofs.«164556_j22273700397341_1_alg».proof.Proof.K.Bounds
import proofs.«164556_j22273700397341_1_alg».proof.Proof.K.Oblig0
import proofs.«164556_j22273700397341_1_alg».proof.Proof.K.Oblig1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tend (c : Dev nD) : sProp 𝕄 := iprop(StableHlo.held (c : Thread nD τ) (Pipeline.ucRefs τ sig) (B4 m c) ∗ ∃ r, prngReg c r)

set_option backward.isDefEq.respectTransparency.types false in
/-- Region 0 over the thread state: entered from every unscoped buffer at `B1`, left at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) : sProp 𝕄) ⊢ Pipeline.ΦA spec0 c := by
      unfold Pipeline.ΦA
      iintro ⟨Hp, -, Hr⟩
      isplitl [Hr]; · iexact Hr
      iexact Hp
    exact h.trans (hin0 (E1 m) c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (E1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order. -/
abbrev segs : List (Pipeline.Seg (pcfgs (F := F)) adm (pdats m) () defs₀ 𝒱₀ L lv) :=
  [ .host (hseg hostOps0 hostOps0_sub hostOps0_fresh' (B0 m)),
    .region (reg0 m),
    .host (hseg hostOps1 hostOps1_sub hostOps1_fresh' (B2 m)),
    .region (reg1 m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final state has every unscoped buffer at its `B4` contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

end Cert.Kernel.Hand

end
-- ==== Proof.K.Blocks.lean ====
/-
  Blocks and covers. Grid point `t` of either region works on pillars 80·t … 80·t+79: a window's block at `t` read at
  a local index is its array read at the global index; a window with a constant index map (the weight, the mean,
  variance, gamma and beta rows) is its whole array at every point. Region 0's two outputs are written back once, at
  the last point, and their one block is the whole array; region 1's output is written back at every point, block `t`
  covering rows 80·t … 80·t+79, so the array after the run is, row by row, what the row's point left.
-/
import proofs.«164556_j22273700397341_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

open Idealize.ShloMosaic.ValueIdx

/-- The global pillar index of pillar `p` of block `t`. -/
def gp (t : Fin 375) (p : Fin 80) : Fin 30000 := ⟨80 * t.val + p.val, by have := t.isLt; have := p.isLt; omega⟩

/-- Grid points of either region are the 375 blocks. -/
def pt0 (t : Fin 375) : Fin cfg0.N := ⟨t.val, by have : cfg0.N = 375 := N_0; omega⟩
def pt1 (t : Fin 375) : Fin cfg1.N := ⟨t.val, by have : cfg1.N = 375 := N_1; omega⟩

/-! ## The index maps, decided once over the grid -/

/-- Region 0: windows 0, 1, 2 move with the point on the pillar axis and sit at block 0 on the others. -/
theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
/-- Region 0: windows 3, 4, 5 sit at block (0, 0) at every point. -/
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
/-- Region 1: windows 0, 1, 2 and the output window 8 move with the point on the pillar axis. -/
theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_8 : ∀ t : Fin cfg1.N, win1_8.index t (0 : Fin 2) = t.val ∧ win1_8.index t (1 : Fin 2) = 0 :=
  (by decide +kernel : ∀ t : Fin grid1.N, _)
/-- Region 1: windows 3 … 7 sit at block (0, 0) at every point. -/
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)

/-! ## Region 0's input blocks -/

theorem iblk0_0_apply (c : Dev nD) (t : Fin 375) (p : Fin 80) (n : Fin 100) (k : Fin 4) :
    (iblk0 V c 0 (pt0 t) : Vec F S80x100x4 .f32) (ix3 p n k) = (V c main_arg0 : Vec F S30000x100x4 .f32) (ix3 (gp t p) n k) := by
  obtain ⟨e0, e1, e2⟩ := idx0_0 (pt0 t)
  show V c main_arg0 (((cfg0.win 0).blk (pt0 t)).view.emb (ix3 p n k)) = V c main_arg0 (ix3 (gp t p) n k)
  congr 1
  funext a
  apply Fin.ext
  match a with
  | ⟨0, _⟩ => show win0_0.index (pt0 t) (0 : Fin 3) * 80 + 1 * p.val = 80 * t.val + p.val; rw [e0]; show t.val * 80 + 1 * p.val = _; omega
  | ⟨1, _⟩ => show win0_0.index (pt0 t) (1 : Fin 3) * 100 + 1 * n.val = n.val; omega
  | ⟨2, _⟩ => show win0_0.index (pt0 t) (2 : Fin 3) * 4 + 1 * k.val = k.val; omega
theorem iblk0_1_apply (c : Dev nD) (t : Fin 375) (p : Fin 80) :
    (iblk0 V c 1 (pt0 t) : Vec F S80x1 .i32) (ix2 p 0) = (V c main_v0 : Vec F S30000x1 .i32) (ix2 (gp t p) 0) := by
  obtain ⟨e0, e1⟩ := idx0_1 (pt0 t)
  show V c main_v0 (((cfg0.win 1).blk (pt0 t)).view.emb (ix2 p 0)) = V c main_v0 (ix2 (gp t p) 0)
  congr 1
  funext a
  apply Fin.ext
  match a with
  | ⟨0, _⟩ => show win0_1.index (pt0 t) (0 : Fin 2) * 80 + 1 * p.val = 80 * t.val + p.val; rw [e0]; show t.val * 80 + 1 * p.val = _; omega
  | ⟨1, _⟩ => show win0_1.index (pt0 t) (1 : Fin 2) * 1 + 1 * 0 = 0; omega
theorem iblk0_2_apply (c : Dev nD) (t : Fin 375) (p : Fin 80) (k : Fin 4) :
    (iblk0 V c 2 (pt0 t) : Vec F S80x4 .i32) (ix2 p k) = (V c main_arg2 : Vec F S30000x4 .i32) (ix2 (gp t p) k) := by
  obtain ⟨e0, e1⟩ := idx0_2 (pt0 t)
  show V c main_arg2 (((cfg0.win 2).blk (pt0 t)).view.emb (ix2 p k)) = V c main_arg2 (ix2 (gp t p) k)
  congr 1
  funext a
  apply Fin.ext
  match a with
  | ⟨0, _⟩ => show win0_2.index (pt0 t) (0 : Fin 2) * 80 + 1 * p.val = 80 * t.val + p.val; rw [e0]; show t.val * 80 + 1 * p.val = _; omega
  | ⟨1, _⟩ => show win0_2.index (pt0 t) (1 : Fin 2) * 4 + 1 * k.val = k.val; omega
theorem iblk0_3_eq (c : Dev nD) (t : Fin 375) :
    (iblk0 V c 3 (pt0 t) : Vec F S9x64 .f32) = (V c main_v1 : Vec F S9x64 .f32) := by
  obtain ⟨e0, e1⟩ := idx0_3 (pt0 t)
  funext j
  show V c main_v1 (((cfg0.win 3).blk (pt0 t)).view.emb j) = V c main_v1 j
  congr 1
  funext a
  apply Fin.ext
  match a with
  | ⟨0, _⟩ => show win0_3.index (pt0 t) (0 : Fin 2) * 9 + 1 * (j 0).val = (j 0).val; omega
  | ⟨1, _⟩ => show win0_3.index (pt0 t) (1 : Fin 2) * 64 + 1 * (j 1).val = (j 1).val; omega

/-! ## Region 1's input blocks -/

theorem iblk1_0_apply (c : Dev nD) (t : Fin 375) (p : Fin 80) (n : Fin 100) (k : Fin 4) :
    (iblk1 V c 0 (pt1 t) : Vec F S80x100x4 .f32) (ix3 p n k) = (V c main_arg0 : Vec F S30000x100x4 .f32) (ix3 (gp t p) n k) := by
  obtain ⟨e0, e1, e2⟩ := idx1_0 (pt1 t)
  show V c main_arg0 (((cfg1.win 0).blk (pt1 t)).view.emb (ix3 p n k)) = V c main_arg0 (ix3 (gp t p) n k)
  congr 1
  funext a
  apply Fin.ext
  match a with
  | ⟨0, _⟩ => show win1_0.index (pt1 t) (0 : Fin 3) * 80 + 1 * p.val = 80 * t.val + p.val; rw [e0]; show t.val * 80 + 1 * p.val = _; omega
  | ⟨1, _⟩ => show win1_0.index (pt1 t) (1 : Fin 3) * 100 + 1 * n.val = n.val; omega
  | ⟨2, _⟩ => show win1_0.index (pt1 t) (2 : Fin 3) * 4 + 1 * k.val = k.val; omega
theorem iblk1_1_apply (c : Dev nD) (t : Fin 375) (p : Fin 80) :
    (iblk1 V c 1 (pt1 t) : Vec F S80x1 .i32) (ix2 p 0) = (V c main_v0 : Vec F S30000x1 .i32) (ix2 (gp t p) 0) := by
  obtain ⟨e0, e1⟩ := idx1_1 (pt1 t)
  show V c main_v0 (((cfg1.win 1).blk (pt1 t)).view.emb (ix2 p 0)) = V c main_v0 (ix2 (gp t p) 0)
  congr 1
  funext a
  apply Fin.ext
  match a with
  | ⟨0, _⟩ => show win1_1.index (pt1 t) (0 : Fin 2) * 80 + 1 * p.val = 80 * t.val + p.val; rw [e0]; show t.val * 80 + 1 * p.val = _; omega
  | ⟨1, _⟩ => show win1_1.index (pt1 t) (1 : Fin 2) * 1 + 1 * 0 = 0; omega
theorem iblk1_2_apply (c : Dev nD) (t : Fin 375) (p : Fin 80) (k : Fin 4) :
    (iblk1 V c 2 (pt1 t) : Vec F S80x4 .i32) (ix2 p k) = (V c main_arg2 : Vec F S30000x4 .i32) (ix2 (gp t p) k) := by
  obtain ⟨e0, e1⟩ := idx1_2 (pt1 t)
  show V c main_arg2 (((cfg1.win 2).blk (pt1 t)).view.emb (ix2 p k)) = V c main_arg2 (ix2 (gp t p) k)
  congr 1
  funext a
  apply Fin.ext
  match a with
  | ⟨0, _⟩ => show win1_2.index (pt1 t) (0 : Fin 2) * 80 + 1 * p.val = 80 * t.val + p.val; rw [e0]; show t.val * 80 + 1 * p.val = _; omega
  | ⟨1, _⟩ => show win1_2.index (pt1 t) (1 : Fin 2) * 4 + 1 * k.val = k.val; omega
theorem iblk1_3_eq (c : Dev nD) (t : Fin 375) :
    (iblk1 V c 3 (pt1 t) : Vec F S9x64 .f32) = (V c main_v1 : Vec F S9x64 .f32) := by
  obtain ⟨e0, e1⟩ := idx1_3 (pt1 t)
  funext j
  show V c main_v1 (((cfg1.win 3).blk (pt1 t)).view.emb j) = V c main_v1 j
  congr 1
  funext a
  apply Fin.ext
  match a with
  | ⟨0, _⟩ => show win1_3.index (pt1 t) (0 : Fin 2) * 9 + 1 * (j 0).val = (j 0).val; omega
  | ⟨1, _⟩ => show win1_3.index (pt1 t) (1 : Fin 2) * 64 + 1 * (j 1).val = (j 1).val; omega
theorem iblk1_4_eq (c : Dev nD) (t : Fin 375) :
    (iblk1 V c 4 (pt1 t) : Vec F S1x64 .f32) = (V c main_v13 : Vec F S1x64 .f32) := by
  obtain ⟨e0, e1⟩ := idx1_4 (pt1 t)
  funext j
  show V c main_v13 (((cfg1.win 4).blk (pt1 t)).view.emb j) = V c main_v13 j
  congr 1
  funext a
  apply Fin.ext
  match a with
  | ⟨0, _⟩ => show win1_4.index (pt1 t) (0 : Fin 2) * 1 + 1 * (j 0).val = (j 0).val; omega
  | ⟨1, _⟩ => show win1_4.index (pt1 t) (1 : Fin 2) * 64 + 1 * (j 1).val = (j 1).val; omega
theorem iblk1_5_eq (c : Dev nD) (t : Fin 375) :
    (iblk1 V c 5 (pt1 t) : Vec F S1x64 .f32) = (V c main_v14 : Vec F S1x64 .f32) := by
  obtain ⟨e0, e1⟩ := idx1_5 (pt1 t)
  funext j
  show V c main_v14 (((cfg1.win 5).blk (pt1 t)).view.emb j) = V c main_v14 j
  congr 1
  funext a
  apply Fin.ext
  match a with
  | ⟨0, _⟩ => show win1_5.index (pt1 t) (0 : Fin 2) * 1 + 1 * (j 0).val = (j 0).val; omega
  | ⟨1, _⟩ => show win1_5.index (pt1 t) (1 : Fin 2) * 64 + 1 * (j 1).val = (j 1).val; omega
theorem iblk1_6_eq (c : Dev nD) (t : Fin 375) :
    (iblk1 V c 6 (pt1 t) : Vec F S1x64 .f32) = (V c main_v2 : Vec F S1x64 .f32) := by
  obtain ⟨e0, e1⟩ := idx1_6 (pt1 t)
  funext j
  show V c main_v2 (((cfg1.win 6).blk (pt1 t)).view.emb j) = V c main_v2 j
  congr 1
  funext a
  apply Fin.ext
  match a with
  | ⟨0, _⟩ => show win1_6.index (pt1 t) (0 : Fin 2) * 1 + 1 * (j 0).val = (j 0).val; omega
  | ⟨1, _⟩ => show win1_6.index (pt1 t) (1 : Fin 2) * 64 + 1 * (j 1).val = (j 1).val; omega
theorem iblk1_7_eq (c : Dev nD) (t : Fin 375) :
    (iblk1 V c 7 (pt1 t) : Vec F S1x64 .f32) = (V c main_v3 : Vec F S1x64 .f32) := by
  obtain ⟨e0, e1⟩ := idx1_7 (pt1 t)
  funext j
  show V c main_v3 (((cfg1.win 7).blk (pt1 t)).view.emb j) = V c main_v3 j
  congr 1
  funext a
  apply Fin.ext
  match a with
  | ⟨0, _⟩ => show win1_7.index (pt1 t) (0 : Fin 2) * 1 + 1 * (j 0).val = (j 0).val; omega
  | ⟨1, _⟩ => show win1_7.index (pt1 t) (1 : Fin 2) * 64 + 1 * (j 1).val = (j 1).val; omega

/-! ## The arrays after the regions -/

/-- An index of a [1,64] output of region 0 is in point `t`'s block iff each coordinate is in the block's range. -/
theorem mem_blk0_4 (t : Fin cfg0.N) (i : S1x64.Idx) :
    i ∈ ((cfg0.win 4).blk t).view.set ↔ ∀ a : Fin 2, win0_4.index t a * S1x64.size a ≤ (i a).val ∧ (i a).val < win0_4.index t a * S1x64.size a + S1x64.size a := by
  show i ∈ ((View.whole main_v4_0).slice (win0_4.rect t)).set ↔ _
  rw [View.set_slice_whole, Rect.mem_set_unit]
  exact Iff.rfl
theorem mem_blk0_5 (t : Fin cfg0.N) (i : S1x64.Idx) :
    i ∈ ((cfg0.win 5).blk t).view.set ↔ ∀ a : Fin 2, win0_5.index t a * S1x64.size a ≤ (i a).val ∧ (i a).val < win0_5.index t a * S1x64.size a + S1x64.size a := by
  show i ∈ ((View.whole main_v4_1).slice (win0_5.rect t)).set ↔ _
  rw [View.set_slice_whole, Rect.mem_set_unit]
  exact Iff.rfl
/-- An index of region 1's [30000,64] output is in point `t`'s block iff each coordinate is in the block's range. -/
theorem mem_blk1_8 (t : Fin cfg1.N) (i : S30000x64.Idx) :
    i ∈ ((cfg1.win 8).blk t).view.set ↔ ∀ a : Fin 2, win1_8.index t a * S80x64.size a ≤ (i a).val ∧ (i a).val < win1_8.index t a * S80x64.size a + S80x64.size a := by
  show i ∈ ((View.whole main_v15).slice (win1_8.rect t)).set ↔ _
  rw [View.set_slice_whole, Rect.mem_set_unit]
  exact Iff.rfl

/-- The last point of region 0. -/
def last0 : Fin cfg0.N := ⟨374, by have : cfg0.N = 375 := N_0; omega⟩

/-- What the one flushing point of region 0's first output writes back is the whole running row of sums. -/
theorem flushed0_4_eq (c : Dev nD) (t : Fin cfg0.N) (hf : (cfg0.win 4).flush t = true) :
    (dat0 V c).flushed 4 t = ((cfg0.win 4).blk t).view.read (Elt F) (sumAt V c 374 (by have : cfg0.N = 375 := N_0; omega)) := by
  have hN : cfg0.N = 375 := N_0
  have h1 : t.val = 374 := by have := (flush0_4 t).mp hf; have := t.isLt; omega
  obtain rfl : t = last0 := Fin.ext h1
  obtain ⟨e0, e1⟩ := idx0_4 last0
  show (cfg0.win 4).cut (grid0.coords last0) ((dat0 V c).after 4 last0) = _
  rw [after0_4]
  funext j
  show sumAt V c 374 _ ((cfg0.win 4).xinj (grid0.coords last0) j) = sumAt V c 374 _ (((cfg0.win 4).blk last0).view.emb j)
  congr 1
  funext a
  apply Fin.ext
  match a with
  | ⟨0, _⟩ => show (j 0).val = win0_4.index last0 (0 : Fin 2) * 1 + 1 * (j 0).val; omega
  | ⟨1, _⟩ => show (j 1).val = win0_4.index last0 (1 : Fin 2) * 64 + 1 * (j 1).val; omega
theorem flushed0_5_eq (c : Dev nD) (t : Fin cfg0.N) (hf : (cfg0.win 5).flush t = true) :
    (dat0 V c).flushed 5 t = ((cfg0.win 5).blk t).view.read (Elt F) (sqAt V c 374 (by have : cfg0.N = 375 := N_0; omega)) := by
  have hN : cfg0.N = 375 := N_0
  have h1 : t.val = 374 := by have := (flush0_5 t).mp hf; have := t.isLt; omega
  obtain rfl : t = last0 := Fin.ext h1
  obtain ⟨e0, e1⟩ := idx0_5 last0
  show (cfg0.win 5).cut (grid0.coords last0) ((dat0 V c).after 5 last0) = _
  rw [after0_5]
  funext j
  show sqAt V c 374 _ ((cfg0.win 5).xinj (grid0.coords last0) j) = sqAt V c 374 _ (((cfg0.win 5).blk last0).view.emb j)
  congr 1
  funext a
  apply Fin.ext
  match a with
  | ⟨0, _⟩ => show (j 0).val = win0_5.index last0 (0 : Fin 2) * 1 + 1 * (j 0).val; omega
  | ⟨1, _⟩ => show (j 1).val = win0_5.index last0 (1 : Fin 2) * 64 + 1 * (j 1).val; omega

/-- Region 0's first output after the run: the running row of sums after the last point. -/
theorem final0_4 (c : Dev nD) :
    ((dat0 V c).arrAt 4 cfg0.N : Vec F S1x64 .f32) = sumAt V c 374 (by have : cfg0.N = 375 := N_0; omega) := by
  refine (dat0 V c).arrAt_eq_of_cover 4 (sumAt V c 374 _) (fun t hf => flushed0_4_eq V c t hf) fun i => ?_
  obtain ⟨e0, e1⟩ := idx0_4 last0
  refine ⟨last0, (flush0_4 last0).mpr rfl, ?_⟩
  rw [mem_blk0_4]
  intro a
  have h0 : (i 0).val < 1 := (i 0).isLt
  have h1 : (i 1).val < 64 := (i 1).isLt
  match a with
  | ⟨0, _⟩ => show win0_4.index last0 (0 : Fin 2) * 1 ≤ (i 0).val ∧ (i 0).val < win0_4.index last0 (0 : Fin 2) * 1 + 1; omega
  | ⟨1, _⟩ => show win0_4.index last0 (1 : Fin 2) * 64 ≤ (i 1).val ∧ (i 1).val < win0_4.index last0 (1 : Fin 2) * 64 + 64; omega
/-- Region 0's second output after the run: the running row of sums of squares after the last point. -/
theorem final0_5 (c : Dev nD) :
    ((dat0 V c).arrAt 5 cfg0.N : Vec F S1x64 .f32) = sqAt V c 374 (by have : cfg0.N = 375 := N_0; omega) := by
  refine (dat0 V c).arrAt_eq_of_cover 5 (sqAt V c 374 _) (fun t hf => flushed0_5_eq V c t hf) fun i => ?_
  obtain ⟨e0, e1⟩ := idx0_5 last0
  refine ⟨last0, (flush0_5 last0).mpr rfl, ?_⟩
  rw [mem_blk0_5]
  intro a
  have h0 : (i 0).val < 1 := (i 0).isLt
  have h1 : (i 1).val < 64 := (i 1).isLt
  match a with
  | ⟨0, _⟩ => show win0_5.index last0 (0 : Fin 2) * 1 ≤ (i 0).val ∧ (i 0).val < win0_5.index last0 (0 : Fin 2) * 1 + 1; omega
  | ⟨1, _⟩ => show win0_5.index last0 (1 : Fin 2) * 64 ≤ (i 1).val ∧ (i 1).val < win0_5.index last0 (1 : Fin 2) * 64 + 64; omega

/-- What a point of region 1 leaves depends on the point and the index through their values only. -/
theorem outAt1_congr (c : Dev nD) {t t' : Fin cfg1.N} (ht : t.val = t'.val) {i i' : S80x64.Idx}
    (h0 : (i 0).val = (i' 0).val) (h1 : (i 1).val = (i' 1).val) : outAt1 V c t i = outAt1 V c t' i' := by
  obtain rfl : t = t' := Fin.ext ht
  obtain rfl : i = i' := by
    funext a
    apply Fin.ext
    match a with
    | ⟨0, _⟩ => exact h0
    | ⟨1, _⟩ => exact h1
  rfl

/-- Region 1's output as one function of the index: row `r` is row `r % 80` of what point `r / 80` left. -/
def G1 (c : Dev nD) : Vec F S30000x64 .f32 := fun j =>
  outAt1 V c ⟨(j 0).val / 80, by have : cfg1.N = 375 := N_1; have := idx2_lt0 j; omega⟩
    (ix2 (⟨(j 0).val % 80, Nat.mod_lt _ (by omega)⟩ : Fin 80) (j 1))

/-- Block `t` of any [30000,64] array, read at a local index, is the array at the global index. -/
theorem read_blk1_8 (G : Vec F S30000x64 .f32) (t : Fin cfg1.N) (y : S80x64.Idx) (i : S30000x64.Idx)
    (h0 : (i 0).val = t.val * 80 + (y 0).val) (h1 : (i 1).val = (y 1).val) :
    ((cfg1.win 8).blk t).view.read (Elt F) G y = G i := by
  obtain ⟨e0, e1⟩ := idx1_8 t
  show G (((cfg1.win 8).blk t).view.emb y) = G i
  congr 1
  funext a
  apply Fin.ext
  match a with
  | ⟨0, _⟩ => show win1_8.index t (0 : Fin 2) * 80 + 1 * (y 0).val = (i 0).val; rw [e0, h0]; omega
  | ⟨1, _⟩ => show win1_8.index t (1 : Fin 2) * 64 + 1 * (y 1).val = (i 1).val; rw [e1, h1]; omega

/-- What point `t` of region 1 writes back is block `t` of `G1`. -/
theorem flushed1_8_eq (c : Dev nD) (t : Fin cfg1.N) :
    (dat1 V c).flushed 8 t = ((cfg1.win 8).blk t).view.read (Elt F) (G1 V c) := by
  have hN : cfg1.N = 375 := N_1
  show (cfg1.win 8).cut (grid1.coords t) ((dat1 V c).after 8 t) = _
  rw [after1_8]
  funext y
  have hy0 : (y 0).val < 80 := (y 0).isLt
  have hy1 : (y 1).val < 64 := (y 1).isLt
  have ht := t.isLt
  refine Eq.trans ?_ (read_blk1_8 (G1 V c) t y (ix2 (⟨t.val * 80 + (y 0).val, by omega⟩ : Fin 30000) (⟨(y 1).val, hy1⟩ : Fin 64)) rfl rfl).symm
  show outAt1 V c t ((cfg1.win 8).xinj (grid1.coords t) y) = _
  unfold G1
  refine outAt1_congr V c ?_ ?_ ?_
  · show t.val = (t.val * 80 + (y 0).val) / 80
    omega
  · show (y 0).val = (t.val * 80 + (y 0).val) % 80
    omega
  · rfl

/-- Region 1's output after the run is `G1`: row `r` is covered by point `r / 80`. -/
theorem final1_8_whole (c : Dev nD) : ((dat1 V c).arrAt 8 cfg1.N : Vec F S30000x64 .f32) = G1 V c := by
  refine (dat1 V c).arrAt_eq_of_cover 8 (G1 V c) (fun t _ => flushed1_8_eq V c t) fun i => ?_
  have hN : cfg1.N = 375 := N_1
  have h0 : (i 0).val < 30000 := (i 0).isLt
  have h1 : (i 1).val < 64 := (i 1).isLt
  have ht : (i 0).val / 80 < cfg1.N := by omega
  obtain ⟨e0, e1⟩ := idx1_8 ⟨(i 0).val / 80, ht⟩
  refine ⟨⟨(i 0).val / 80, ht⟩, flush1_8 _, ?_⟩
  rw [mem_blk1_8]
  intro a
  match a with
  | ⟨0, _⟩ =>
    show win1_8.index ⟨(i 0).val / 80, ht⟩ (0 : Fin 2) * 80 ≤ (i 0).val ∧ (i 0).val < win1_8.index ⟨(i 0).val / 80, ht⟩ (0 : Fin 2) * 80 + 80
    rw [e0]; show (i 0).val / 80 * 80 ≤ (i 0).val ∧ (i 0).val < (i 0).val / 80 * 80 + 80; omega
  | ⟨1, _⟩ =>
    show win1_8.index ⟨(i 0).val / 80, ht⟩ (1 : Fin 2) * 64 ≤ (i 1).val ∧ (i 1).val < win1_8.index ⟨(i 0).val / 80, ht⟩ (1 : Fin 2) * 64 + 64
    omega

/-- Region 1's output after the run, row by row: row 80·t+p is row p of what point t left. -/
theorem final1_8 (c : Dev nD) (t : Fin 375) (p : Fin 80) (o : Fin 64) :
    ((dat1 V c).arrAt 8 cfg1.N : Vec F S30000x64 .f32) (ix2 (gp t p) o) = outAt1 V c (pt1 t) (ix2 p o) := by
  refine (congrFun (final1_8_whole V c) _).trans ?_
  unfold G1
  have ht := t.isLt
  have hp := p.isLt
  refine outAt1_congr V c ?_ ?_ ?_
  · show (80 * t.val + p.val) / 80 = t.val; omega
  · show (80 * t.val + p.val) % 80 = p.val; omega
  · rfl
/-- An input window's array is unchanged by its region. -/
theorem final0_in (c : Dev nD) (w : Fin cfg0.W) (hw : w.val < 4) : (dat0 V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, _ => rfl
  rw [(dat0 V c).arrAt_in w hin cfg0.N, A_eq0]
theorem final1_in (c : Dev nD) (w : Fin cfg1.W) (hw : w.val < 8) : (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, _ => rfl
  rw [(dat1 V c).arrAt_in w hin cfg1.N, A_eq1]

end Cert.Kernel.Hand

end
-- ==== Proof.K.Hosts.lean ====
/-
  What the host stretches and the regions leave in the buffers the proofs read, at any float instance: no item of
  @main writes an argument, so each is at its launch contents at every boundary; the first stretch's four results are
  a reshape of the counts to a column, the weight's transpose and gamma and beta as rows; the second stretch writes
  none of them, and region 0 only reads them.
-/
import proofs.«164556_j22273700397341_1_alg».proof.Proof.K.Bounds
import proofs.«164556_j22273700397341_1_alg».proof.Proof.K.Blocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.ValueIdx

variable {F : FTy → Type} [FloatOps F]

variable (m : (ℓ : Loc nD τ sig) → Buf (Elt F) ℓ)

/-! ## What each stretch and each region leaves alone -/

/-- The references the first stretch writes. -/
abbrev hostW0 : List (Ref sig .tc) := [main_v0, main_v1, main_v2, main_v3]
/-- The references the second stretch writes. -/
abbrev hostW1 : List (Ref sig .tc) :=
  [main_v5, main_cst, main_v6, main_v7, main_v8, main_cst_0, main_v9, main_v10, main_v11, main_v12, main_v13, main_v14]

private theorem writes0 :
    (hostOps0 : List (HloOp τ sig (Elt F))).Forall fun op => op.writes ⊆ (hostW0.map (Proc.devRef (τ := τ) .tc)).toFinset := by
  simp only [List.Forall]
  refine ⟨?_, ?_, ?_, ?_⟩ <;>
  · simp only [StableHlo.unary_writes, StableHlo.reshape_writes, Finset.singleton_subset_iff, List.mem_toFinset]
    exact List.mem_map_of_mem (by decide)

private theorem writes1 :
    (hostOps1 : List (HloOp τ sig (Elt F))).Forall fun op => op.writes ⊆ (hostW1.map (Proc.devRef (τ := τ) .tc)).toFinset := by
  simp only [List.Forall]
  refine ⟨?_, ?_, ?_, ?_, ?_, ?_, ?_, ?_, ?_, ?_, ?_, ?_⟩ <;>
  · simp only [StableHlo.nullary_writes, StableHlo.unary_writes, StableHlo.binary_writes, StableHlo.reshape_writes,
      Finset.singleton_subset_iff, List.mem_toFinset]
    exact List.mem_map_of_mem (by decide)

/-- A reference the first stretch does not write is at its launch contents when region 0 is entered. -/
theorem B1_of (c : Dev nD) (r : Ref sig .tc) (h : r ∉ hostW0) : B1 m c (Proc.devRef .tc r) = m ((c : Thread nD τ).loc r) :=
  StableHlo.after_of_writes_sub hostOps0 _ writes0 h
/-- A reference the second stretch does not write is, when region 1 is entered, as region 0 left it. -/
theorem B3_of (c : Dev nD) (r : Ref sig .tc) (h : r ∉ hostW1) : B3 m c (Proc.devRef .tc r) = B2 m c (Proc.devRef .tc r) :=
  StableHlo.after_of_writes_sub hostOps1 _ writes1 h
/-- An input window's array of region 0 is left as entered. -/
theorem B2_in (c : Dev nD) (w : Fin cfg0.W) (hw : w.val < 4) :
    B2 m c (Proc.devRef .tc (Pipeline.arrRef spec0 w)) = B1 m c (Proc.devRef .tc (Pipeline.arrRef spec0 w)) :=
  (B2_arr m c w).trans (final0_in (E1 m) c w hw)
/-- An input window's array of region 1 is left as entered. -/
theorem B4_in (c : Dev nD) (w : Fin cfg1.W) (hw : w.val < 8) :
    B4 m c (Proc.devRef .tc (Pipeline.arrRef spec1 w)) = B3 m c (Proc.devRef .tc (Pipeline.arrRef spec1 w)) :=
  (B4_arr m c w).trans (final1_in (E3 m) c w hw)

/-! ## The arguments at the end of the run -/

theorem B4_main_arg0 (c : Dev nD) : B4 m c (Proc.devRef .tc main_arg0) = m ((c : Thread nD τ).loc main_arg0) :=
  calc B4 m c (Proc.devRef .tc main_arg0)
    _ = B3 m c (Proc.devRef .tc main_arg0) := B4_in m c 0 (by decide)
    _ = B2 m c (Proc.devRef .tc main_arg0) := B3_of m c main_arg0 (by decide)
    _ = B1 m c (Proc.devRef .tc main_arg0) := B2_in m c 0 (by decide)
    _ = m ((c : Thread nD τ).loc main_arg0) := B1_of m c main_arg0 (by decide)
theorem B4_main_arg1 (c : Dev nD) : B4 m c (Proc.devRef .tc main_arg1) = m ((c : Thread nD τ).loc main_arg1) :=
  calc B4 m c (Proc.devRef .tc main_arg1)
    _ = B3 m c (Proc.devRef .tc main_arg1) := B4_of_ne m c main_arg1 (by decide)
    _ = B2 m c (Proc.devRef .tc main_arg1) := B3_of m c main_arg1 (by decide)
    _ = B1 m c (Proc.devRef .tc main_arg1) := B2_of_ne m c main_arg1 (by decide)
    _ = m ((c : Thread nD τ).loc main_arg1) := B1_of m c main_arg1 (by decide)
theorem B4_main_arg2 (c : Dev nD) : B4 m c (Proc.devRef .tc main_arg2) = m ((c : Thread nD τ).loc main_arg2) :=
  calc B4 m c (Proc.devRef .tc main_arg2)
    _ = B3 m c (Proc.devRef .tc main_arg2) := B4_in m c 2 (by decide)
    _ = B2 m c (Proc.devRef .tc main_arg2) := B3_of m c main_arg2 (by decide)
    _ = B1 m c (Proc.devRef .tc main_arg2) := B2_in m c 2 (by decide)
    _ = m ((c : Thread nD τ).loc main_arg2) := B1_of m c main_arg2 (by decide)
theorem B4_main_arg3 (c : Dev nD) : B4 m c (Proc.devRef .tc main_arg3) = m ((c : Thread nD τ).loc main_arg3) :=
  calc B4 m c (Proc.devRef .tc main_arg3)
    _ = B3 m c (Proc.devRef .tc main_arg3) := B4_of_ne m c main_arg3 (by decide)
    _ = B2 m c (Proc.devRef .tc main_arg3) := B3_of m c main_arg3 (by decide)
    _ = B1 m c (Proc.devRef .tc main_arg3) := B2_of_ne m c main_arg3 (by decide)
    _ = m ((c : Thread nD τ).loc main_arg3) := B1_of m c main_arg3 (by decide)
theorem B4_main_arg4 (c : Dev nD) : B4 m c (Proc.devRef .tc main_arg4) = m ((c : Thread nD τ).loc main_arg4) :=
  calc B4 m c (Proc.devRef .tc main_arg4)
    _ = B3 m c (Proc.devRef .tc main_arg4) := B4_of_ne m c main_arg4 (by decide)
    _ = B2 m c (Proc.devRef .tc main_arg4) := B3_of m c main_arg4 (by decide)
    _ = B1 m c (Proc.devRef .tc main_arg4) := B2_of_ne m c main_arg4 (by decide)
    _ = m ((c : Thread nD τ).loc main_arg4) := B1_of m c main_arg4 (by decide)
theorem B4_main_arg5 (c : Dev nD) : B4 m c (Proc.devRef .tc main_arg5) = m ((c : Thread nD τ).loc main_arg5) :=
  calc B4 m c (Proc.devRef .tc main_arg5)
    _ = B3 m c (Proc.devRef .tc main_arg5) := B4_of_ne m c main_arg5 (by decide)
    _ = B2 m c (Proc.devRef .tc main_arg5) := B3_of m c main_arg5 (by decide)
    _ = B1 m c (Proc.devRef .tc main_arg5) := B2_of_ne m c main_arg5 (by decide)
    _ = m ((c : Thread nD τ).loc main_arg5) := B1_of m c main_arg5 (by decide)

/-! ## What region 0 is entered from -/

theorem E1_arg0 (c : Dev nD) : E1 m c main_arg0 = m ((c : Thread nD τ).loc main_arg0) :=
  B1_of m c main_arg0 (by decide)
theorem E1_arg2 (c : Dev nD) : E1 m c main_arg2 = m ((c : Thread nD τ).loc main_arg2) :=
  B1_of m c main_arg2 (by decide)

/-- A vector cast to a column reads, at row `i`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The counts as a column. -/
theorem E1_v0_apply (c : Dev nD) (P : Fin 30000) :
    (E1 m c main_v0 : Vec F S30000x1 .i32) (ix2 P 0) = (m ((c : Thread nD τ).loc main_arg1) : Vec F S30000 .i32) (ix1 P) := by
  have e : (E1 m c main_v0 : S30000x1.Idx → _)
      = shapeCast S30000x1 (m ((c : Thread nD τ).loc main_arg1) : Vec F S30000 .i32) shapeCasts_S30000_S30000x1 := by
    show StableHlo.after hostOps0 (fun b => m (c, b)) (Proc.devRef .tc main_v0) = _
    after_results
    rfl
  rw [e]
  exact shapeCast_a_a1_apply _ _ P 0
/-- The weight transposed. -/
theorem E1_v1_apply (c : Dev nD) (i : Fin 9) (o : Fin 64) :
    (E1 m c main_v1 : Vec F S9x64 .f32) (ix2 i o) = (m ((c : Thread nD τ).loc main_arg3) : Vec F S64x9 .f32) (ix2 o i) := by
  have e : (E1 m c main_v1 : S9x64.Idx → _)
      = transpose S9x64 [1, 0] (m ((c : Thread nD τ).loc main_arg3) : Vec F S64x9 .f32) transposes_S64x9_S9x64_1_0 := by
    show StableHlo.after hostOps0 (fun b => m (c, b)) (Proc.devRef .tc main_v1) = _
    after_results
  rw [e]
  exact transpose_ix2_apply _ _ i o

/-! ## What region 1 is entered from -/

theorem E3_arg0 (c : Dev nD) : E3 m c main_arg0 = m ((c : Thread nD τ).loc main_arg0) :=
  calc B3 m c (Proc.devRef .tc main_arg0)
    _ = B2 m c (Proc.devRef .tc main_arg0) := B3_of m c main_arg0 (by decide)
    _ = B1 m c (Proc.devRef .tc main_arg0) := B2_in m c 0 (by decide)
    _ = m ((c : Thread nD τ).loc main_arg0) := B1_of m c main_arg0 (by decide)
theorem E3_arg2 (c : Dev nD) : E3 m c main_arg2 = m ((c : Thread nD τ).loc main_arg2) :=
  calc B3 m c (Proc.devRef .tc main_arg2)
    _ = B2 m c (Proc.devRef .tc main_arg2) := B3_of m c main_arg2 (by decide)
    _ = B1 m c (Proc.devRef .tc main_arg2) := B2_in m c 2 (by decide)
    _ = m ((c : Thread nD τ).loc main_arg2) := B1_of m c main_arg2 (by decide)
theorem E3_v0 (c : Dev nD) : E3 m c main_v0 = E1 m c main_v0 :=
  calc B3 m c (Proc.devRef .tc main_v0)
    _ = B2 m c (Proc.devRef .tc main_v0) := B3_of m c main_v0 (by decide)
    _ = B1 m c (Proc.devRef .tc main_v0) := B2_in m c 1 (by decide)
theorem E3_v1 (c : Dev nD) : E3 m c main_v1 = E1 m c main_v1 :=
  calc B3 m c (Proc.devRef .tc main_v1)
    _ = B2 m c (Proc.devRef .tc main_v1) := B3_of m c main_v1 (by decide)
    _ = B1 m c (Proc.devRef .tc main_v1) := B2_in m c 3 (by decide)
/-- Gamma and beta as rows. -/
theorem E3_v2_apply (c : Dev nD) (o : Fin 64) :
    (E3 m c main_v2 : Vec F S1x64 .f32) (ix2 0 o) = (m ((c : Thread nD τ).loc main_arg4) : Vec F S64 .f32) (ix1 o) := by
  have e0 : E3 m c main_v2 = E1 m c main_v2 :=
    calc B3 m c (Proc.devRef .tc main_v2)
      _ = B2 m c (Proc.devRef .tc main_v2) := B3_of m c main_v2 (by decide)
      _ = B1 m c (Proc.devRef .tc main_v2) := B2_of_ne m c main_v2 (by decide)
  have e : (E1 m c main_v2 : S1x64.Idx → _)
      = shapeCast S1x64 (m ((c : Thread nD τ).loc main_arg4) : Vec F S64 .f32) shapeCasts_S64_S1x64 := by
    show StableHlo.after hostOps0 (fun b => m (c, b)) (Proc.devRef .tc main_v2) = _
    after_results
    rfl
  rw [e0, e]
  exact shapeCast_a_1a_apply _ _ 0 o
theorem E3_v3_apply (c : Dev nD) (o : Fin 64) :
    (E3 m c main_v3 : Vec F S1x64 .f32) (ix2 0 o) = (m ((c : Thread nD τ).loc main_arg5) : Vec F S64 .f32) (ix1 o) := by
  have e0 : E3 m c main_v3 = E1 m c main_v3 :=
    calc B3 m c (Proc.devRef .tc main_v3)
      _ = B2 m c (Proc.devRef .tc main_v3) := B3_of m c main_v3 (by decide)
      _ = B1 m c (Proc.devRef .tc main_v3) := B2_of_ne m c main_v3 (by decide)
  have e : (E1 m c main_v3 : S1x64.Idx → _)
      = shapeCast S1x64 (m ((c : Thread nD τ).loc main_arg5) : Vec F S64 .f32) shapeCasts_S64_S1x64 := by
    show StableHlo.after hostOps0 (fun b => m (c, b)) (Proc.devRef .tc main_v3) = _
    after_results
    rfl
  rw [e0, e]
  exact shapeCast_a_1a_apply _ _ 0 o

end Cert.Kernel.Hand

end
-- ==== Proof.KI.Terms.lean ====
/-
  The values the two kernel bodies compute, as compositions of the bodies' named pure terms, at any float instance.
  A block of 80 pillars is (x1, x2, x3, x4) = (points [80,100,4], point counts [80,1], voxel coordinates [80,4], the
  transposed weight [9,64]). `lin` is the masked nine-feature vector of every point times the weight, [80,100,64];
  `accSum` / `accSq` add the block's column sums of `lin` and of its square to a running [1,64] row; `normMax` is the
  second body's result: `lin` shifted by a mean row, scaled by the reciprocal root of a variance row plus 1e-3 and by
  gamma, shifted by beta, clamped at zero, and maximised over the 100 points, [80,64].
-/
import proofs.«164556_j22273700397341_1_alg».proof.Proof.Gen.KernelIdeal.Skeleton

noncomputable section

namespace Cert.KernelIdeal.Hand

open Idealize.ShloMosaic Cert.KernelIdeal Cert.KernelIdeal.Gen

variable {F : FTy → Type} [FloatOps F]

/-- The nine masked features of each point of the block: the point's four values, its offset from the pillar's mean
    (sum over the 100 points divided by the point count), its offset from the voxel centre, all times the 0/1 mask
    "point index below the count". -/
def feats0 (x1 : Vec F S80x100x4 .f32) (x2 : Vec F S80x1 .i32) (x3 : Vec F S80x4 .i32) : FVec F S80x100x9 .f32 :=
  k0_pay6 (k0_pay4 x1 x2 x3) (k0_pay5 x2)

/-- The linear layer on the block in the first body: nine products accumulated from zero. -/
def lin0 (x1 : Vec F S80x100x4 .f32) (x2 : Vec F S80x1 .i32) (x3 : Vec F S80x4 .i32) (x4 : Vec F S9x64 .f32) : FVec F S80x100x64 .f32 :=
  k0_pay10 (feats0 x1 x2 x3) (k0_pay7 x4) (k0_pay8 (k0_pay4 x1 x2 x3) (k0_pay5 x2) x4) (k0_pay9 x4)

/-- The running row of sums `s` plus this block's sum of `lin0` over pillars and points. -/
def accSum (x1 : Vec F S80x100x4 .f32) (x2 : Vec F S80x1 .i32) (x3 : Vec F S80x4 .i32) (x4 : Vec F S9x64 .f32) (s : Vec F S1x64 .f32) : Vec F S1x64 .f32 :=
  k0_pay11 (feats0 x1 x2 x3) (k0_pay7 x4) (k0_pay8 (k0_pay4 x1 x2 x3) (k0_pay5 x2) x4) (k0_pay9 x4) s

/-- The running row of sums of squares `s` plus this block's sum of `lin0` squared over pillars and points. -/
def accSq (x1 : Vec F S80x100x4 .f32) (x2 : Vec F S80x1 .i32) (x3 : Vec F S80x4 .i32) (x4 : Vec F S9x64 .f32) (s : Vec F S1x64 .f32) : Vec F S1x64 .f32 :=
  k0_pay12 (feats0 x1 x2 x3) (k0_pay7 x4) (k0_pay8 (k0_pay4 x1 x2 x3) (k0_pay5 x2) x4) (k0_pay9 x4) s

/-- The zero row both accumulators start from at the first grid point. -/
def zeroSum : Vec F S1x64 .f32 := k0_pay1 (F := F)
def zeroSq : Vec F S1x64 .f32 := k0_pay2 (F := F)

/-- The second body's result on the block: x5 the mean row, x6 the variance row, x7 gamma, x8 beta. -/
def normMax (x1 : Vec F S80x100x4 .f32) (x2 : Vec F S80x1 .i32) (x3 : Vec F S80x4 .i32) (x4 : Vec F S9x64 .f32)
    (x5 x6 x7 x8 : Vec F S1x64 .f32) : Vec F S80x64 .f32 :=
  k1_pay1 (k1_pay2 x1 x2 x3) (k1_pay3 x4) (k1_pay4 (k1_pay2 x1 x2 x3) x4) (k1_pay5 x4) x5 x6 x7 x8

end Cert.KernelIdeal.Hand

end
-- ==== Proof.KI.Data.lean ====
/-
  The proof data of the two pipelines, at any float instance and at a PARAMETER `V`: the TensorCore's buffer contents
  when a region is entered. Region 0 walks the 375 blocks of 80 pillars keeping two [1,64] rows in scratch: after grid
  point n they hold the sums over blocks 0..n of the blocks' column sums of the linear layer's output and of its square
  (`sumAt`, `sqAt`: a recursion on the point), and the last point copies them to the two outputs. Region 1 is
  pointwise in the block: its output block is `normMax` of the point's eight input blocks.
-/
import proofs.«164556_j22273700397341_1_alg».proof.Proof.KI.Terms
import proofs.«164556_j22273700397341_1_alg».proof.Proof.Gen.KernelIdeal.Launch
import proofs.«164556_j22273700397341_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two scratch operands of region 0's kernel as whole memrefs. -/
abbrev scSum : Memref sig .tc .vmem S1x64 .f32 := Memref.whole cc0_scratch0
abbrev scSq : Memref sig .tc .vmem S1x64 .f32 := Memref.whole cc0_scratch1

/-- The running row of sums after grid point `n`: blocks 0..n accumulated from the zero row. -/
def sumAt (c : Dev nD) : (n : ℕ) → n < cfg0.N → Vec F S1x64 .f32
  | 0, h => accSum (iblk0 V c 0 ⟨0, h⟩) (iblk0 V c 1 ⟨0, h⟩) (iblk0 V c 2 ⟨0, h⟩) (iblk0 V c 3 ⟨0, h⟩) zeroSum
  | n + 1, h => accSum (iblk0 V c 0 ⟨n + 1, h⟩) (iblk0 V c 1 ⟨n + 1, h⟩) (iblk0 V c 2 ⟨n + 1, h⟩) (iblk0 V c 3 ⟨n + 1, h⟩)
      (sumAt c n (Nat.lt_of_succ_lt h))

/-- The running row of sums of squares after grid point `n`. -/
def sqAt (c : Dev nD) : (n : ℕ) → n < cfg0.N → Vec F S1x64 .f32
  | 0, h => accSq (iblk0 V c 0 ⟨0, h⟩) (iblk0 V c 1 ⟨0, h⟩) (iblk0 V c 2 ⟨0, h⟩) (iblk0 V c 3 ⟨0, h⟩) zeroSq
  | n + 1, h => accSq (iblk0 V c 0 ⟨n + 1, h⟩) (iblk0 V c 1 ⟨n + 1, h⟩) (iblk0 V c 2 ⟨n + 1, h⟩) (iblk0 V c 3 ⟨n + 1, h⟩)
      (sqAt c n (Nat.lt_of_succ_lt h))

/-- Region 0's invariant before position `n`: before the first point the scoped rest at anything and the generator
    register at some state; afterwards the two scratch rows at the running sums the point before left, every other
    scoped buffer that is no staging buffer at anything, and the generator register at some state. -/
def Phi0 (c : Dev nD) : (n : ℕ) → n ≤ cfg0.N → sProp 𝕄
  | 0, _ => Pipeline.ΦA spec0 c
  | n + 1, hn => iprop(owns (c : Thread nD τ) scSum fullShare (sumAt V c n hn) ∗ owns (c : Thread nD τ) scSq fullShare (sqAt V c n hn)
      ∗ Pipeline.scopedRestBut (Ix := Unit) (Name := ℕ) (U := UR sig nD τ) (Lvl := ℕ) (Val := Elt F) spec0 c [cc0_scratch0, cc0_scratch1]
      ∗ (∃ r, prngReg c r))

/-- Region 0's proof data on core `c`: the arrays as the region finds them; after the body each input's buffer at its
    block, the two outputs' at the running rows (they are live at the last point only, where the body copies the rows
    into them); the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => sumAt V c t.val t.isLt
    | ⟨5, _⟩ => sqAt V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = sumAt V c t.val t.isLt := by dsimp only [dat0]
theorem after0_5 (c : Dev nD) (t : Fin cfg0.N) : (dat0 V c).after 5 t = sqAt V c t.val t.isLt := by dsimp only [dat0]

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scSum fullShare (sumAt V c n hn) ∗ owns (c : Thread nD τ) scSq fullShare (sqAt V c n hn)
      ∗ Pipeline.scopedRestBut (Ix := Unit) (Name := ℕ) (U := UR sig nD τ) (Lvl := ℕ) (Val := Elt F) spec0 c [cc0_scratch0, cc0_scratch1]
      ∗ (∃ r, prngReg c r)) := rfl

theorem Phi0_pos (c : Dev nD) (n : ℕ) (h : n ≤ cfg0.N) (hz : n ≠ 0) :
    Phi0 V c n h = iprop(owns (c : Thread nD τ) scSum fullShare (sumAt V c (n - 1) (by omega)) ∗ owns (c : Thread nD τ) scSq fullShare (sqAt V c (n - 1) (by omega))
      ∗ Pipeline.scopedRestBut (Ix := Unit) (Name := ℕ) (U := UR sig nD τ) (Lvl := ℕ) (Val := Elt F) spec0 c [cc0_scratch0, cc0_scratch1]
      ∗ (∃ r, prngReg c r)) := by
  cases n with
  | zero => exact absurd rfl hz
  | succ n => rfl

theorem Phi0_castSucc (c : Dev nD) (t : Fin cfg0.N) :
    (dat0 V c).Φ t.castSucc = Phi0 V c t.val (Nat.le_of_lt t.isLt) := by
  dsimp only [dat0]; simp only [Fin.coe_castSucc]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What region 1's body leaves in its output's staging buffer at point `t`. -/
def outAt1 (c : Dev nD) (t : Fin cfg1.N) : Vec F S80x64 .f32 :=
  normMax (iblk1 V c 0 t) (iblk1 V c 1 t) (iblk1 V c 2 t) (iblk1 V c 3 t) (iblk1 V c 4 t) (iblk1 V c 5 t) (iblk1 V c 6 t) (iblk1 V c 7 t)

/-- Region 1's proof data on core `c`: the class invariant (scoped rest and generator register, untouched). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = outAt1 V c t := by dsimp only [dat1]

end Cert.KernelIdeal.Hand

end
-- ==== Proof.KI.Bounds.lean ====
/-
  The TensorCore's buffer contents at each boundary of @main, as a fold from the launch memory: after the first four
  host operations (a reshape of the counts, the weight's transpose, two reshapes), after region 0 (its two outputs at
  what its write-backs leave, every other buffer as entered), after the twelve host operations that turn the two rows
  of sums into the mean and variance rows, and after region 1 (its output at what its write-backs leave). And the
  family of the two pipelines' proof data, each at its region's entry contents.
-/
import proofs.«164556_j22273700397341_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev B0 : Dev nD → Valuation τ sig (Elt F) := fun c b => m ((c : Dev nD), b)
/-- After the first host stretch (region 0's entry). -/
abbrev B1 : Dev nD → Valuation τ sig (Elt F) := fun c => StableHlo.after hostOps0 (B0 m c)
/-- The same read at the TensorCore's references. -/
abbrev E1 : (c : Dev nD) → (b : Ref sig .tc) → Buf (Elt F) ((c : Thread nD τ).loc b) := fun c b => B1 m c b
/-- At region 0's exit. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second host stretch (region 1's entry). -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- At region 1's exit. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-- No pipeline has a prefetched table. -/
abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c

end Cert.KernelIdeal.Hand

end
-- ==== Proof.KI.Body0.lean ====
/-
  The first kernel body on whole memrefs, point by point. The body tests the grid coordinate twice: at coordinate 0 it
  first writes the zero row into each of the two carried [1,64] rows; at every point it adds to the first row the
  block's column sums of the linear layer's output and to the second row those of its square (`accSum`, `accSq` of
  the four input blocks and the row's previous contents); at coordinate 374 it then copies the two rows into the two
  outputs. Over the 375 points that is three cases: the first point (reset, then accumulate from the zero row), the
  middle points (accumulate onto what the point before left), the last point (accumulate, then copy out). For each
  case: the body, run on the inputs at contents x1..x4, leaves the inputs as they were and the two rows at the new
  sums; the outputs are untouched except at the last point, where they receive the new rows.
-/
import proofs.«164556_j22273700397341_1_alg».proof.Proof.KI.Terms
import proofs.«164556_j22273700397341_1_alg».proof.Proof.Gen.KernelIdeal.Launch
import proofs.«164556_j22273700397341_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-shape rectangle, at ranks 2 and 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## The two conditions over the grid, and where the outputs are idle -/

/-- The first conditional's test (the grid coordinate equals 0), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional's test (the grid coordinate equals 374). -/
abbrev cond0_1 (i : grid0.Coords) : Prop := k0_cond2 i = 1#1
/-- It holds at the last point only. -/
theorem hcond0_1 : ∀ t : Fin cfg0.N, cond0_1 (grid0.coords t) ↔ t.val = 374 :=
  (by decide +kernel : ∀ t : Fin grid0.N, cond0_1 (grid0.coords t) ↔ t.val = 374)

/-- The four inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

/-- Away from the last point the two outputs are idle and not written back; at the last point they are live. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The body's triple in each of the three cases -/

set_option maxHeartbeats 1000000 in
/-- The first point: whatever the two rows held, they end at this block's sums added to the zero row; the outputs
    are handed back as found. -/
theorem run_first (c : Dev nD) (E : Set ℕ) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : cond0_0 i) (hc1 : ¬cond0_1 i) (x1 : Vec F S80x100x4 .f32) (x2 : Vec F S80x1 .i32) (x3 : Vec F S80x4 .i32) (x4 : Vec F S9x64 .f32) (xi5 xi6 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ owns (c : Thread nD τ) arg5 fullShare xi5 ∗ owns (c : Thread nD τ) arg6 fullShare xi6
        ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare xi5 ∗ owns (c : Thread nD τ) arg6 fullShare xi6
            ∗ owns (c : Thread nD τ) arg7 fullShare (accSum x1 x2 x3 x4 zeroSum) ∗ owns (c : Thread nD τ) arg8 fullShare (accSq x1 x2 x3 x4 zeroSq)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [View.read_writes_eq_canon _ _ _ (fun y => ⟨_, List.mem_cons.mpr (Or.inl rfl), View.mem_set_unit_zero hz2 inb_S1x64_S1x64_0_0 y⟩)]
    rw [View.canon_cons_unit_zero (S := S1x64) hz2]
    sl_unfold_words
    rw [View.readCov_unit_zero (S := S1x64) _ hz2]
    simp only [View.readAt_eq_ld, harg1.read_unread, harg2.read_unread, harg3.read_unread, harg4.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2]
    unfold accSum feats0 zeroSum
    rfl
  iexists _; isplitr
  swap; · iexact H8
  ipureintro
  rw [View.read_writes_eq_canon _ _ _ (fun y => ⟨_, List.mem_cons.mpr (Or.inl rfl), View.mem_set_unit_zero hz2 inb_S1x64_S1x64_0_0 y⟩)]
  rw [View.canon_cons_unit_zero (S := S1x64) hz2]
  sl_unfold_words
  rw [View.readCov_unit_zero (S := S1x64) _ hz2]
  simp only [View.readAt_eq_ld, harg1.read_unread, harg2.read_unread, harg3.read_unread, harg4.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2]
  unfold accSq feats0 zeroSq
  rfl

set_option maxHeartbeats 1000000 in
/-- A middle point: the rows at `s7`, `s8` end at this block's sums added to them; the outputs are handed back as found. -/
theorem run_mid (c : Dev nD) (E : Set ℕ) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬cond0_0 i) (hc1 : ¬cond0_1 i) (x1 : Vec F S80x100x4 .f32) (x2 : Vec F S80x1 .i32) (x3 : Vec F S80x4 .i32) (x4 : Vec F S9x64 .f32) (xi5 xi6 s7 s8 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ owns (c : Thread nD τ) arg5 fullShare xi5 ∗ owns (c : Thread nD τ) arg6 fullShare xi6
        ∗ owns (c : Thread nD τ) arg7 fullShare s7 ∗ owns (c : Thread nD τ) arg8 fullShare s8
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare xi5 ∗ owns (c : Thread nD τ) arg6 fullShare xi6
            ∗ owns (c : Thread nD τ) arg7 fullShare (accSum x1 x2 x3 x4 s7) ∗ owns (c : Thread nD τ) arg8 fullShare (accSq x1 x2 x3 x4 s8)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_cons.mpr (Or.inl rfl), View.mem_set_unit_zero hz2 inb_S1x64_S1x64_0_0 y⟩)]
    rw [View.canon_cons_unit_zero (S := S1x64) hz2]
    simp only [View.readAt_eq_ld, harg1.read_unread, harg2.read_unread, harg3.read_unread, harg4.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2]
    unfold accSum feats0
    rfl
  · iexists _; isplitr
    swap; · iexact H8
    ipureintro
    sl_unfold_words
    rw [View.read_writes_eq_canon _ _ _ (fun y => ⟨_, List.mem_cons.mpr (Or.inl rfl), View.mem_set_unit_zero hz2 inb_S1x64_S1x64_0_0 y⟩)]
    rw [View.canon_cons_unit_zero (S := S1x64) hz2]
    simp only [View.readAt_eq_ld, harg1.read_unread, harg2.read_unread, harg3.read_unread, harg4.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2]
    unfold accSq feats0
    rfl

set_option maxHeartbeats 1000000 in
/-- The last point: the rows at `s7`, `s8` end at this block's sums added to them, and the two outputs, whatever
    they held, receive those same new rows. -/
theorem run_last (c : Dev nD) (E : Set ℕ) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole)
    (hc0 : ¬cond0_0 i) (hc1 : cond0_1 i) (x1 : Vec F S80x100x4 .f32) (x2 : Vec F S80x1 .i32) (x3 : Vec F S80x4 .i32) (x4 : Vec F S9x64 .f32) (s7 s8 : Vec F S1x64 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ owns (c : Thread nD τ) arg7 fullShare s7 ∗ owns (c : Thread nD τ) arg8 fullShare s8
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (accSum x1 x2 x3 x4 s7) ∗ owns (c : Thread nD τ) arg6 fullShare (accSq x1 x2 x3 x4 s8)
            ∗ owns (c : Thread nD τ) arg7 fullShare (accSum x1 x2 x3 x4 s7) ∗ owns (c : Thread nD τ) arg8 fullShare (accSq x1 x2 x3 x4 s8)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [View.read_writes_eq_canon _ _ _ (fun y => ⟨_, List.mem_cons.mpr (Or.inl rfl), View.mem_set_unit_zero hz2 inb_S1x64_S1x64_0_0 y⟩)]
    rw [View.canon_cons_unit_zero (S := S1x64) hz2]
    rw [View.readCov_unit_zero (S := S1x64) _ hz2]
    simp only [View.readAt_eq_ld, harg1.read_unread, harg2.read_unread, harg3.read_unread, harg4.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2]
    unfold accSum feats0
    rfl
  isplitl [H6]
  · iexists _; isplitr
    swap; · iexact H6
    ipureintro
    sl_unfold_words
    rw [View.read_writes_eq_canon _ _ _ (fun y => ⟨_, List.mem_cons.mpr (Or.inl rfl), View.mem_set_unit_zero hz2 inb_S1x64_S1x64_0_0 y⟩)]
    rw [View.canon_cons_unit_zero (S := S1x64) hz2]
    rw [View.readCov_unit_zero (S := S1x64) _ hz2]
    simp only [View.readAt_eq_ld, harg1.read_unread, harg2.read_unread, harg3.read_unread, harg4.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2]
    unfold accSq feats0
    rfl
  isplitl [H7]
  · iexists _; isplitr
    swap; · iexact H7
    ipureintro
    sl_unfold_words
    rw [View.read_writes_eq_canon _ _ _ (fun y => ⟨_, List.mem_cons.mpr (Or.inl rfl), View.mem_set_unit_zero hz2 inb_S1x64_S1x64_0_0 y⟩)]
    rw [View.canon_cons_unit_zero (S := S1x64) hz2]
    simp only [View.readAt_eq_ld, harg1.read_unread, harg2.read_unread, harg3.read_unread, harg4.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2]
    unfold accSum feats0
    rfl
  · iexists _; isplitr
    swap; · iexact H8
    ipureintro
    sl_unfold_words
    rw [View.read_writes_eq_canon _ _ _ (fun y => ⟨_, List.mem_cons.mpr (Or.inl rfl), View.mem_set_unit_zero hz2 inb_S1x64_S1x64_0_0 y⟩)]
    rw [View.canon_cons_unit_zero (S := S1x64) hz2]
    simp only [View.readAt_eq_ld, harg1.read_unread, harg2.read_unread, harg3.read_unread, harg4.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2]
    unfold accSq feats0
    rfl

end Cert.KernelIdeal.Hand

end
-- ==== Proof.KI.Oblig0.lean ====
/-
  Region 0's body obligation: at every grid point the first kernel body, run on the windows' staging buffers at their
  blocks and the two scratch rows at the running sums the point before left, leaves the rows at this point's running
  sums; the two outputs are touched at the last point only, where they receive the rows.
-/
import proofs.«164556_j22273700397341_1_alg».proof.Proof.KI.Data
import proofs.«164556_j22273700397341_1_alg».proof.Proof.KI.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the inputs' staging buffers -/

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The running sums at a point, by whether it is the first -/

theorem sumAt_first (c : Dev nD) (t : Fin cfg0.N) (h0 : t.val = 0) :
    sumAt V c t.val t.isLt = accSum (iblk0 V c 0 t) (iblk0 V c 1 t) (iblk0 V c 2 t) (iblk0 V c 3 t) zeroSum := by
  obtain ⟨n, hn⟩ := t
  cases n with
  | zero => rfl
  | succ n => exact absurd h0 (Nat.succ_ne_zero n)

theorem sqAt_first (c : Dev nD) (t : Fin cfg0.N) (h0 : t.val = 0) :
    sqAt V c t.val t.isLt = accSq (iblk0 V c 0 t) (iblk0 V c 1 t) (iblk0 V c 2 t) (iblk0 V c 3 t) zeroSq := by
  obtain ⟨n, hn⟩ := t
  cases n with
  | zero => rfl
  | succ n => exact absurd h0 (Nat.succ_ne_zero n)

theorem sumAt_pos (c : Dev nD) (t : Fin cfg0.N) (h0 : t.val ≠ 0) :
    sumAt V c t.val t.isLt = accSum (iblk0 V c 0 t) (iblk0 V c 1 t) (iblk0 V c 2 t) (iblk0 V c 3 t) (sumAt V c (t.val - 1) (Nat.lt_of_le_of_lt (Nat.sub_le _ _) t.isLt)) := by
  obtain ⟨n, hn⟩ := t
  cases n with
  | zero => exact absurd rfl h0
  | succ n => rfl

theorem sqAt_pos (c : Dev nD) (t : Fin cfg0.N) (h0 : t.val ≠ 0) :
    sqAt V c t.val t.isLt = accSq (iblk0 V c 0 t) (iblk0 V c 1 t) (iblk0 V c 2 t) (iblk0 V c 3 t) (sqAt V c (t.val - 1) (Nat.lt_of_le_of_lt (Nat.sub_le _ _) t.isLt)) := by
  obtain ⟨n, hn⟩ := t
  cases n with
  | zero => exact absurd rfl h0
  | succ n => rfl

/-! ## The class invariant with the two scratch rows taken out -/

/-- The scoped rest splits into the two scratch rows, each at some contents, and every other scoped buffer that is no
    staging buffer. -/
theorem PhiA0_eq (c : Dev nD) :
    (Pipeline.ΦA spec0 c : sProp 𝕄)
      = iprop((((∃ d, owns (c : Thread nD τ) scSum fullShare d) ∗ (∃ d, owns (c : Thread nD τ) scSq fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA
  rw [Pipeline.scopedRest_split_of_list spec0 c [cc0_scratch0, cc0_scratch1] (by decide) (by decide)]
  simp only [scSum, scSq, owns_whole, bigSepL_cons_cons, bigSepL_singleton]
  try rfl

/-! ## The body obligation, at a generic point -/

/-- Each window's current staging memref at point `t`. -/
abbrev ms0_0 (t : Fin cfg0.N) : Memref sig .tc .vmem S80x100x4 .f32 := win0_0.stage (cfg0.slots t 0)
abbrev ms0_1 (t : Fin cfg0.N) : Memref sig .tc .vmem S80x1 .i32 := win0_1.stage (cfg0.slots t 1)
abbrev ms0_2 (t : Fin cfg0.N) : Memref sig .tc .vmem S80x4 .i32 := win0_2.stage (cfg0.slots t 2)
abbrev ms0_3 (t : Fin cfg0.N) : Memref sig .tc .vmem S9x64 .f32 := win0_3.stage (cfg0.slots t 3)
abbrev ms0_4 (t : Fin cfg0.N) : Memref sig .tc .vmem S1x64 .f32 := win0_4.stage (cfg0.slots t 4)
abbrev ms0_5 (t : Fin cfg0.N) : Memref sig .tc .vmem S1x64 .f32 := win0_5.stage (cfg0.slots t 5)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' memrefs hold their blocks; the point is the first, the last, or neither. At the
    first point the invariant is the class's, and the two rows come out of the scoped rest at anything; afterwards it
    holds them at the running sums the point before left. In each case the body's triple leaves them at this point's
    running sums (the recursion's equation at the point), and the outputs idle (handed back as found) except at the
    last point, where they receive the rows. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 375 := lt_of_lt_of_eq t.isLt (show cfg0.N = 375 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 4 t (idleAt0_4 t hc1) (noFlush0_4 t hc1),
      Dat.leavesExact_idle (dat0 V c) 5 t (idleAt0_5 t hc1) (noFlush0_5 t hc1)]
    rw [sumAt_first V c t h0, sqAt_first V c t h0]
    rw [Phi0_castSucc V c t, Phi0_zero V c _ _ h0, PhiA0_eq]
    iintro ⟨⟨⟨⟨HS7, HS8⟩, HR⟩, Hg⟩, Ho, ⟨%d0, H0⟩, ⟨%d1, H1⟩, ⟨%d2, H2⟩, ⟨%d3, H3⟩, ⟨%d4, H4⟩, ⟨%d5, H5⟩⟩
    iapply (run_first c Set.univ (grid0.coords t) _ _ _ _ _ _ _ _ _ _ _ _ _ _ _ _ hc0 hc1 (iblk0 V c 0 t) (iblk0 V c 1 t) (iblk0 V c 2 t) (iblk0 V c 3 t) _ _ _)
    isplitl [H0]; · iexact H0
    isplitl [H1]; · iexact H1
    isplitl [H2]; · iexact H2
    isplitl [H3]; · iexact H3
    isplitl [H4]; · iexact H4
    isplitl [H5]; · iexact H5
    isplitl [HS7]; · iexact HS7
    isplitl [HS8]; · iexact HS8
    iintro ⟨H0, H1, H2, H3, H4, H5, HS7, HS8⟩
    isplitl [HS7 HS8 HR Hg]
    · isplitl [HS7]; · iexact HS7
      isplitl [HS8]; · iexact HS8
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hc0 : ¬cond0_0 (grid0.coords t) := fun h => h0 ((hcond0_0 t).mp h)
    rw [sumAt_pos V c t h0, sqAt_pos V c t h0]
    rw [Phi0_castSucc V c t, Phi0_pos V c _ _ h0]
    by_cases h1 : t.val = 374
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4, sumAt_pos V c t h0]
      rw [show (dat0 V c).leavesExact 5 t = owns (c : Thread nD τ) (ms0_5 t) fullShare ((dat0 V c).after 5 t) from by
        unfold Dat.leavesExact; rw [liveAt0_5 t hc1], after0_5, sqAt_pos V c t h0]
      iintro ⟨⟨HS7, HS8, HR, Hg⟩, Ho, ⟨%d0, H0⟩, ⟨%d1, H1⟩, ⟨%d2, H2⟩, ⟨%d3, H3⟩, ⟨%d4, H4⟩, ⟨%d5, H5⟩⟩
      iapply (run_last c Set.univ (grid0.coords t) _ _ _ _ _ _ _ _ _ _ _ _ _ _ _ _ hc0 hc1 (iblk0 V c 0 t) (iblk0 V c 1 t) (iblk0 V c 2 t) (iblk0 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [HS7]; · iexact HS7
      isplitl [HS8]; · iexact HS8
      iintro ⟨H0, H1, H2, H3, H4, H5, HS7, HS8⟩
      isplitl [HS7 HS8 HR Hg]
      · isplitl [HS7]; · iexact HS7
        isplitl [HS8]; · iexact HS8
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond0_1 (grid0.coords t) := fun h => h1 ((hcond0_1 t).mp h)
      rw [Dat.leavesExact_idle (dat0 V c) 4 t (idleAt0_4 t hc1) (noFlush0_4 t hc1),
        Dat.leavesExact_idle (dat0 V c) 5 t (idleAt0_5 t hc1) (noFlush0_5 t hc1)]
      iintro ⟨⟨HS7, HS8, HR, Hg⟩, Ho, ⟨%d0, H0⟩, ⟨%d1, H1⟩, ⟨%d2, H2⟩, ⟨%d3, H3⟩, ⟨%d4, H4⟩, ⟨%d5, H5⟩⟩
      iapply (run_mid c Set.univ (grid0.coords t) _ _ _ _ _ _ _ _ _ _ _ _ _ _ _ _ hc0 hc1 (iblk0 V c 0 t) (iblk0 V c 1 t) (iblk0 V c 2 t) (iblk0 V c 3 t) _ _ _ _ _)
      isplitl [H0]; · iexact H0
      isplitl [H1]; · iexact H1
      isplitl [H2]; · iexact H2
      isplitl [H3]; · iexact H3
      isplitl [H4]; · iexact H4
      isplitl [H5]; · iexact H5
      isplitl [HS7]; · iexact HS7
      isplitl [HS8]; · iexact HS8
      iintro ⟨H0, H1, H2, H3, H4, H5, HS7, HS8⟩
      isplitl [HS7 HS8 HR Hg]
      · isplitl [HS7]; · iexact HS7
        isplitl [HS8]; · iexact HS8
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation0 (c : Dev nD) : BodyObligation (dat0 (F := F) V c) (defs₀ (F := F)) Variants.none () Set.univ := by
  intro t
  rw [bigSep_W0, bigSep_W0]
  exact sound_body0 V c t

/-- What the launch hands region 0 is its invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class invariant back: the rows' contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 375 := N_0; omega), PhiA0_eq]
  iintro ⟨HS7, HS8, HR, Hg⟩
  isplitl [HS7 HS8 HR]
  · isplitl [HS7 HS8]
    · isplitl [HS7]
      · iexists _; iexact HS7
      iexists _; iexact HS8
    iexact HR
  iexact Hg

end Cert.KernelIdeal.Hand

end
-- ==== Proof.KI.Body1.lean ====
/-
  The second kernel body's triple. Run on nine whole memrefs, the eight inputs held at contents x1 … x8 and the output
  at anything, the body leaves the inputs as they were and the output at `normMax x1 … x8`: its one store goes through
  the whole output rectangle, so the buffer reads as the store's payload, and the payload's arguments are the eight
  loads, each through its memref's whole rectangle, which read the contents.
-/
import proofs.«164556_j22273700397341_1_alg».proof.Proof.KI.Terms
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 and of a rank-3 whole rectangle, as constant functions. -/
theorem k1_off2 : (![0, 0] : Fin 2 → ℕ) = fun _ => 0 := funext fun a => by fin_cases a <;> rfl
theorem k1_off3 : (![0, 0, 0] : Fin 3 → ℕ) = fun _ => 0 := funext fun a => by fin_cases a <;> rfl

set_option maxHeartbeats 4000000 in
/-- The body on whole memrefs: inputs at x1 … x8, output at anything, to the inputs unchanged and the output at
    `normMax x1 … x8`. -/
theorem sound_kernel1 (c : Dev nD) (E : Set ℕ) (i : grid1.Coords)
    (arg1 : Memref sig .tc .vmem S80x100x4 .f32) (harg1 : arg1.IsWhole) (arg2 : Memref sig .tc .vmem S80x1 .i32) (harg2 : arg2.IsWhole)
    (arg3 : Memref sig .tc .vmem S80x4 .i32) (harg3 : arg3.IsWhole) (arg4 : Memref sig .tc .vmem S9x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S80x64 .f32) (harg9 : arg9.IsWhole)
    (x1 : Vec F S80x100x4 .f32) (x2 : Vec F S80x1 .i32) (x3 : Vec F S80x4 .i32) (x4 : Vec F S9x64 .f32)
    (x5 x6 x7 x8 : Vec F S1x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare (normMax x1 x2 x3 x4 x5 x6 x7 x8)) -∗ K ⟨⟩))
      ⊢ wp frame (wpE (defs₀ (F := F)) Variants.none c none) E
          (cc1__pass2_kernel i arg1 harg1 arg2 harg2 arg3 harg3 arg4 harg4 arg5 harg5 arg6 harg6 arg7 harg7 arg8 harg8 arg9 harg9) K := by
  simp only [cc1__pass2_kernel_eq_skeleton]; unfold cc1__pass2_kernel_skel
  simp only [k1_part1_eq_skeleton]; unfold k1_part1_skel
  simp only [k1_part2_eq_skeleton]; unfold k1_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  -- the one store's rectangle is the whole output, so the buffer reads as the store's payload
  rw [View.read_writes_eq_canon _ _ _ (fun y => ⟨_, List.mem_singleton_self _,
      View.mem_set_unit_zero (S := S80x64) k1_off2 inb_S80x64_S80x64_0_0 y⟩),
    View.canon_unit_zero (S := S80x64) k1_off2]
  -- each load goes through its memref's whole rectangle, so it reads the contents
  unfold normMax
  simp only [View.readAt_eq_ld, View.ld_unit_zero (S := S80x100x4) k1_off3, View.ld_unit_zero (S := S80x1) k1_off2,
    View.ld_unit_zero (S := S80x4) k1_off2, View.ld_unit_zero (S := S9x64) k1_off2, View.ld_unit_zero (S := S1x64) k1_off2]

end Cert.KernelIdeal.Hand

end
-- ==== Proof.KI.Oblig1.lean ====
/-
  Region 1's body obligation: at every grid point the second kernel body, run on the eight input windows' staging
  buffers at their blocks, leaves the output's buffer at `normMax` of them.
-/
import proofs.«164556_j22273700397341_1_alg».proof.Proof.KI.Data
import proofs.«164556_j22273700397341_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer

An input window's current staging buffer holds the window's block at the point, whether the pipeline fetched it at
this point or at an earlier one: unfetched, the window's block index has not moved, and the body leaves every input
buffer as it found it. Windows 3 to 7 (weight, mean, variance, gamma, beta) are fetched at the first point only. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-! ## The body at a generic point -/

/-- What the body is called with at point `t`: the invariant, what the core owes, and the nine windows' current
    staging buffers, each at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- What it returns: the invariant and what the core owes at the next point, and each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the eight inputs' buffers hold their blocks, so the body's triple applies at those blocks;
    the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  unfold outAt1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point: the windows' conjunction written out one by one. -/
theorem body_obligation1 (c : Dev nD) : BodyObligation (dat1 (F := F) V c) (defs₀ (F := F)) Variants.none () Set.univ := by
  intro t
  rw [bigSep_W1, bigSep_W1]
  exact sound_body1 V c t

end Cert.KernelIdeal.Hand

end
-- ==== Proof.KI.Run.lean ====
/-
  The run of @main at any float instance: four segments — the first host stretch, region 0, the second host stretch,
  region 1 — each entered from the buffer contents the one before left (`B0` … `B4`), the generator register at some
  state and nothing owed riding along. Every weakly fair execution terminates, and in the final state every unscoped
  buffer of the TensorCore holds its `B4` contents: the arguments as launched, the result at what region 1's
  write-backs leave.
-/
import proofs.«164556_j22273700397341_1_alg».proof.Proof.KI.Bounds
import proofs.«164556_j22273700397341_1_alg».proof.Proof.KI.Oblig0
import proofs.«164556_j22273700397341_1_alg».proof.Proof.KI.Oblig1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tend (c : Dev nD) : sProp 𝕄 := iprop(StableHlo.held (c : Thread nD τ) (Pipeline.ucRefs τ sig) (B4 m c) ∗ ∃ r, prngReg c r)

set_option backward.isDefEq.respectTransparency.types false in
/-- Region 0 over the thread state: entered from every unscoped buffer at `B1`, left at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) : sProp 𝕄) ⊢ Pipeline.ΦA spec0 c := by
      unfold Pipeline.ΦA
      iintro ⟨Hp, -, Hr⟩
      isplitl [Hr]; · iexact Hr
      iexact Hp
    exact h.trans (hin0 (E1 m) c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (E1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order. -/
abbrev segs : List (Pipeline.Seg (pcfgs (F := F)) adm (pdats m) () defs₀ 𝒱₀ L lv) :=
  [ .host (hseg hostOps0 hostOps0_sub hostOps0_fresh' (B0 m)),
    .region (reg0 m),
    .host (hseg hostOps1 hostOps1_sub hostOps1_fresh' (B2 m)),
    .region (reg1 m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final state has every unscoped buffer at its `B4` contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

end Cert.KernelIdeal.Hand

end
-- ==== Proof.KI.Blocks.lean ====
/-
  Blocks and covers. Grid point `t` of either region works on pillars 80·t … 80·t+79: a window's block at `t` read at
  a local index is its array read at the global index; a window with a constant index map (the weight, the mean,
  variance, gamma and beta rows) is its whole array at every point. Region 0's two outputs are written back once, at
  the last point, and their one block is the whole array; region 1's output is written back at every point, block `t`
  covering rows 80·t … 80·t+79, so the array after the run is, row by row, what the row's point left.
-/
import proofs.«164556_j22273700397341_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

open Idealize.ShloMosaic.ValueIdx

/-- The global pillar index of pillar `p` of block `t`. -/
def gp (t : Fin 375) (p : Fin 80) : Fin 30000 := ⟨80 * t.val + p.val, by have := t.isLt; have := p.isLt; omega⟩

/-- Grid points of either region are the 375 blocks. -/
def pt0 (t : Fin 375) : Fin cfg0.N := ⟨t.val, by have : cfg0.N = 375 := N_0; omega⟩
def pt1 (t : Fin 375) : Fin cfg1.N := ⟨t.val, by have : cfg1.N = 375 := N_1; omega⟩

/-! ## The index maps, decided once over the grid -/

/-- Region 0: windows 0, 1, 2 move with the point on the pillar axis and sit at block 0 on the others. -/
theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
/-- Region 0: windows 3, 4, 5 sit at block (0, 0) at every point. -/
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
/-- Region 1: windows 0, 1, 2 and the output window 8 move with the point on the pillar axis. -/
theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_8 : ∀ t : Fin cfg1.N, win1_8.index t (0 : Fin 2) = t.val ∧ win1_8.index t (1 : Fin 2) = 0 :=
  (by decide +kernel : ∀ t : Fin grid1.N, _)
/-- Region 1: windows 3 … 7 sit at block (0, 0) at every point. -/
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)

/-! ## Region 0's input blocks -/

theorem iblk0_0_apply (c : Dev nD) (t : Fin 375) (p : Fin 80) (n : Fin 100) (k : Fin 4) :
    (iblk0 V c 0 (pt0 t) : Vec F S80x100x4 .f32) (ix3 p n k) = (V c main_arg0 : Vec F S30000x100x4 .f32) (ix3 (gp t p) n k) := by
  obtain ⟨e0, e1, e2⟩ := idx0_0 (pt0 t)
  show V c main_arg0 (((cfg0.win 0).blk (pt0 t)).view.emb (ix3 p n k)) = V c main_arg0 (ix3 (gp t p) n k)
  congr 1
  funext a
  apply Fin.ext
  match a with
  | ⟨0, _⟩ => show win0_0.index (pt0 t) (0 : Fin 3) * 80 + 1 * p.val = 80 * t.val + p.val; rw [e0]; show t.val * 80 + 1 * p.val = _; omega
  | ⟨1, _⟩ => show win0_0.index (pt0 t) (1 : Fin 3) * 100 + 1 * n.val = n.val; omega
  | ⟨2, _⟩ => show win0_0.index (pt0 t) (2 : Fin 3) * 4 + 1 * k.val = k.val; omega
theorem iblk0_1_apply (c : Dev nD) (t : Fin 375) (p : Fin 80) :
    (iblk0 V c 1 (pt0 t) : Vec F S80x1 .i32) (ix2 p 0) = (V c main_v0 : Vec F S30000x1 .i32) (ix2 (gp t p) 0) := by
  obtain ⟨e0, e1⟩ := idx0_1 (pt0 t)
  show V c main_v0 (((cfg0.win 1).blk (pt0 t)).view.emb (ix2 p 0)) = V c main_v0 (ix2 (gp t p) 0)
  congr 1
  funext a
  apply Fin.ext
  match a with
  | ⟨0, _⟩ => show win0_1.index (pt0 t) (0 : Fin 2) * 80 + 1 * p.val = 80 * t.val + p.val; rw [e0]; show t.val * 80 + 1 * p.val = _; omega
  | ⟨1, _⟩ => show win0_1.index (pt0 t) (1 : Fin 2) * 1 + 1 * 0 = 0; omega
theorem iblk0_2_apply (c : Dev nD) (t : Fin 375) (p : Fin 80) (k : Fin 4) :
    (iblk0 V c 2 (pt0 t) : Vec F S80x4 .i32) (ix2 p k) = (V c main_arg2 : Vec F S30000x4 .i32) (ix2 (gp t p) k) := by
  obtain ⟨e0, e1⟩ := idx0_2 (pt0 t)
  show V c main_arg2 (((cfg0.win 2).blk (pt0 t)).view.emb (ix2 p k)) = V c main_arg2 (ix2 (gp t p) k)
  congr 1
  funext a
  apply Fin.ext
  match a with
  | ⟨0, _⟩ => show win0_2.index (pt0 t) (0 : Fin 2) * 80 + 1 * p.val = 80 * t.val + p.val; rw [e0]; show t.val * 80 + 1 * p.val = _; omega
  | ⟨1, _⟩ => show win0_2.index (pt0 t) (1 : Fin 2) * 4 + 1 * k.val = k.val; omega
theorem iblk0_3_eq (c : Dev nD) (t : Fin 375) :
    (iblk0 V c 3 (pt0 t) : Vec F S9x64 .f32) = (V c main_v1 : Vec F S9x64 .f32) := by
  obtain ⟨e0, e1⟩ := idx0_3 (pt0 t)
  funext j
  show V c main_v1 (((cfg0.win 3).blk (pt0 t)).view.emb j) = V c main_v1 j
  congr 1
  funext a
  apply Fin.ext
  match a with
  | ⟨0, _⟩ => show win0_3.index (pt0 t) (0 : Fin 2) * 9 + 1 * (j 0).val = (j 0).val; omega
  | ⟨1, _⟩ => show win0_3.index (pt0 t) (1 : Fin 2) * 64 + 1 * (j 1).val = (j 1).val; omega

/-! ## Region 1's input blocks -/

theorem iblk1_0_apply (c : Dev nD) (t : Fin 375) (p : Fin 80) (n : Fin 100) (k : Fin 4) :
    (iblk1 V c 0 (pt1 t) : Vec F S80x100x4 .f32) (ix3 p n k) = (V c main_arg0 : Vec F S30000x100x4 .f32) (ix3 (gp t p) n k) := by
  obtain ⟨e0, e1, e2⟩ := idx1_0 (pt1 t)
  show V c main_arg0 (((cfg1.win 0).blk (pt1 t)).view.emb (ix3 p n k)) = V c main_arg0 (ix3 (gp t p) n k)
  congr 1
  funext a
  apply Fin.ext
  match a with
  | ⟨0, _⟩ => show win1_0.index (pt1 t) (0 : Fin 3) * 80 + 1 * p.val = 80 * t.val + p.val; rw [e0]; show t.val * 80 + 1 * p.val = _; omega
  | ⟨1, _⟩ => show win1_0.index (pt1 t) (1 : Fin 3) * 100 + 1 * n.val = n.val; omega
  | ⟨2, _⟩ => show win1_0.index (pt1 t) (2 : Fin 3) * 4 + 1 * k.val = k.val; omega
theorem iblk1_1_apply (c : Dev nD) (t : Fin 375) (p : Fin 80) :
    (iblk1 V c 1 (pt1 t) : Vec F S80x1 .i32) (ix2 p 0) = (V c main_v0 : Vec F S30000x1 .i32) (ix2 (gp t p) 0) := by
  obtain ⟨e0, e1⟩ := idx1_1 (pt1 t)
  show V c main_v0 (((cfg1.win 1).blk (pt1 t)).view.emb (ix2 p 0)) = V c main_v0 (ix2 (gp t p) 0)
  congr 1
  funext a
  apply Fin.ext
  match a with
  | ⟨0, _⟩ => show win1_1.index (pt1 t) (0 : Fin 2) * 80 + 1 * p.val = 80 * t.val + p.val; rw [e0]; show t.val * 80 + 1 * p.val = _; omega
  | ⟨1, _⟩ => show win1_1.index (pt1 t) (1 : Fin 2) * 1 + 1 * 0 = 0; omega
theorem iblk1_2_apply (c : Dev nD) (t : Fin 375) (p : Fin 80) (k : Fin 4) :
    (iblk1 V c 2 (pt1 t) : Vec F S80x4 .i32) (ix2 p k) = (V c main_arg2 : Vec F S30000x4 .i32) (ix2 (gp t p) k) := by
  obtain ⟨e0, e1⟩ := idx1_2 (pt1 t)
  show V c main_arg2 (((cfg1.win 2).blk (pt1 t)).view.emb (ix2 p k)) = V c main_arg2 (ix2 (gp t p) k)
  congr 1
  funext a
  apply Fin.ext
  match a with
  | ⟨0, _⟩ => show win1_2.index (pt1 t) (0 : Fin 2) * 80 + 1 * p.val = 80 * t.val + p.val; rw [e0]; show t.val * 80 + 1 * p.val = _; omega
  | ⟨1, _⟩ => show win1_2.index (pt1 t) (1 : Fin 2) * 4 + 1 * k.val = k.val; omega
theorem iblk1_3_eq (c : Dev nD) (t : Fin 375) :
    (iblk1 V c 3 (pt1 t) : Vec F S9x64 .f32) = (V c main_v1 : Vec F S9x64 .f32) := by
  obtain ⟨e0, e1⟩ := idx1_3 (pt1 t)
  funext j
  show V c main_v1 (((cfg1.win 3).blk (pt1 t)).view.emb j) = V c main_v1 j
  congr 1
  funext a
  apply Fin.ext
  match a with
  | ⟨0, _⟩ => show win1_3.index (pt1 t) (0 : Fin 2) * 9 + 1 * (j 0).val = (j 0).val; omega
  | ⟨1, _⟩ => show win1_3.index (pt1 t) (1 : Fin 2) * 64 + 1 * (j 1).val = (j 1).val; omega
theorem iblk1_4_eq (c : Dev nD) (t : Fin 375) :
    (iblk1 V c 4 (pt1 t) : Vec F S1x64 .f32) = (V c main_v13 : Vec F S1x64 .f32) := by
  obtain ⟨e0, e1⟩ := idx1_4 (pt1 t)
  funext j
  show V c main_v13 (((cfg1.win 4).blk (pt1 t)).view.emb j) = V c main_v13 j
  congr 1
  funext a
  apply Fin.ext
  match a with
  | ⟨0, _⟩ => show win1_4.index (pt1 t) (0 : Fin 2) * 1 + 1 * (j 0).val = (j 0).val; omega
  | ⟨1, _⟩ => show win1_4.index (pt1 t) (1 : Fin 2) * 64 + 1 * (j 1).val = (j 1).val; omega
theorem iblk1_5_eq (c : Dev nD) (t : Fin 375) :
    (iblk1 V c 5 (pt1 t) : Vec F S1x64 .f32) = (V c main_v14 : Vec F S1x64 .f32) := by
  obtain ⟨e0, e1⟩ := idx1_5 (pt1 t)
  funext j
  show V c main_v14 (((cfg1.win 5).blk (pt1 t)).view.emb j) = V c main_v14 j
  congr 1
  funext a
  apply Fin.ext
  match a with
  | ⟨0, _⟩ => show win1_5.index (pt1 t) (0 : Fin 2) * 1 + 1 * (j 0).val = (j 0).val; omega
  | ⟨1, _⟩ => show win1_5.index (pt1 t) (1 : Fin 2) * 64 + 1 * (j 1).val = (j 1).val; omega
theorem iblk1_6_eq (c : Dev nD) (t : Fin 375) :
    (iblk1 V c 6 (pt1 t) : Vec F S1x64 .f32) = (V c main_v2 : Vec F S1x64 .f32) := by
  obtain ⟨e0, e1⟩ := idx1_6 (pt1 t)
  funext j
  show V c main_v2 (((cfg1.win 6).blk (pt1 t)).view.emb j) = V c main_v2 j
  congr 1
  funext a
  apply Fin.ext
  match a with
  | ⟨0, _⟩ => show win1_6.index (pt1 t) (0 : Fin 2) * 1 + 1 * (j 0).val = (j 0).val; omega
  | ⟨1, _⟩ => show win1_6.index (pt1 t) (1 : Fin 2) * 64 + 1 * (j 1).val = (j 1).val; omega
theorem iblk1_7_eq (c : Dev nD) (t : Fin 375) :
    (iblk1 V c 7 (pt1 t) : Vec F S1x64 .f32) = (V c main_v3 : Vec F S1x64 .f32) := by
  obtain ⟨e0, e1⟩ := idx1_7 (pt1 t)
  funext j
  show V c main_v3 (((cfg1.win 7).blk (pt1 t)).view.emb j) = V c main_v3 j
  congr 1
  funext a
  apply Fin.ext
  match a with
  | ⟨0, _⟩ => show win1_7.index (pt1 t) (0 : Fin 2) * 1 + 1 * (j 0).val = (j 0).val; omega
  | ⟨1, _⟩ => show win1_7.index (pt1 t) (1 : Fin 2) * 64 + 1 * (j 1).val = (j 1).val; omega

/-! ## The arrays after the regions -/

/-- An index of a [1,64] output of region 0 is in point `t`'s block iff each coordinate is in the block's range. -/
theorem mem_blk0_4 (t : Fin cfg0.N) (i : S1x64.Idx) :
    i ∈ ((cfg0.win 4).blk t).view.set ↔ ∀ a : Fin 2, win0_4.index t a * S1x64.size a ≤ (i a).val ∧ (i a).val < win0_4.index t a * S1x64.size a + S1x64.size a := by
  show i ∈ ((View.whole main_v4_0).slice (win0_4.rect t)).set ↔ _
  rw [View.set_slice_whole, Rect.mem_set_unit]
  exact Iff.rfl
theorem mem_blk0_5 (t : Fin cfg0.N) (i : S1x64.Idx) :
    i ∈ ((cfg0.win 5).blk t).view.set ↔ ∀ a : Fin 2, win0_5.index t a * S1x64.size a ≤ (i a).val ∧ (i a).val < win0_5.index t a * S1x64.size a + S1x64.size a := by
  show i ∈ ((View.whole main_v4_1).slice (win0_5.rect t)).set ↔ _
  rw [View.set_slice_whole, Rect.mem_set_unit]
  exact Iff.rfl
/-- An index of region 1's [30000,64] output is in point `t`'s block iff each coordinate is in the block's range. -/
theorem mem_blk1_8 (t : Fin cfg1.N) (i : S30000x64.Idx) :
    i ∈ ((cfg1.win 8).blk t).view.set ↔ ∀ a : Fin 2, win1_8.index t a * S80x64.size a ≤ (i a).val ∧ (i a).val < win1_8.index t a * S80x64.size a + S80x64.size a := by
  show i ∈ ((View.whole main_v15).slice (win1_8.rect t)).set ↔ _
  rw [View.set_slice_whole, Rect.mem_set_unit]
  exact Iff.rfl

/-- The last point of region 0. -/
def last0 : Fin cfg0.N := ⟨374, by have : cfg0.N = 375 := N_0; omega⟩

/-- What the one flushing point of region 0's first output writes back is the whole running row of sums. -/
theorem flushed0_4_eq (c : Dev nD) (t : Fin cfg0.N) (hf : (cfg0.win 4).flush t = true) :
    (dat0 V c).flushed 4 t = ((cfg0.win 4).blk t).view.read (Elt F) (sumAt V c 374 (by have : cfg0.N = 375 := N_0; omega)) := by
  have hN : cfg0.N = 375 := N_0
  have h1 : t.val = 374 := by have := (flush0_4 t).mp hf; have := t.isLt; omega
  obtain rfl : t = last0 := Fin.ext h1
  obtain ⟨e0, e1⟩ := idx0_4 last0
  show (cfg0.win 4).cut (grid0.coords last0) ((dat0 V c).after 4 last0) = _
  rw [after0_4]
  funext j
  show sumAt V c 374 _ ((cfg0.win 4).xinj (grid0.coords last0) j) = sumAt V c 374 _ (((cfg0.win 4).blk last0).view.emb j)
  congr 1
  funext a
  apply Fin.ext
  match a with
  | ⟨0, _⟩ => show (j 0).val = win0_4.index last0 (0 : Fin 2) * 1 + 1 * (j 0).val; omega
  | ⟨1, _⟩ => show (j 1).val = win0_4.index last0 (1 : Fin 2) * 64 + 1 * (j 1).val; omega
theorem flushed0_5_eq (c : Dev nD) (t : Fin cfg0.N) (hf : (cfg0.win 5).flush t = true) :
    (dat0 V c).flushed 5 t = ((cfg0.win 5).blk t).view.read (Elt F) (sqAt V c 374 (by have : cfg0.N = 375 := N_0; omega)) := by
  have hN : cfg0.N = 375 := N_0
  have h1 : t.val = 374 := by have := (flush0_5 t).mp hf; have := t.isLt; omega
  obtain rfl : t = last0 := Fin.ext h1
  obtain ⟨e0, e1⟩ := idx0_5 last0
  show (cfg0.win 5).cut (grid0.coords last0) ((dat0 V c).after 5 last0) = _
  rw [after0_5]
  funext j
  show sqAt V c 374 _ ((cfg0.win 5).xinj (grid0.coords last0) j) = sqAt V c 374 _ (((cfg0.win 5).blk last0).view.emb j)
  congr 1
  funext a
  apply Fin.ext
  match a with
  | ⟨0, _⟩ => show (j 0).val = win0_5.index last0 (0 : Fin 2) * 1 + 1 * (j 0).val; omega
  | ⟨1, _⟩ => show (j 1).val = win0_5.index last0 (1 : Fin 2) * 64 + 1 * (j 1).val; omega

/-- Region 0's first output after the run: the running row of sums after the last point. -/
theorem final0_4 (c : Dev nD) :
    ((dat0 V c).arrAt 4 cfg0.N : Vec F S1x64 .f32) = sumAt V c 374 (by have : cfg0.N = 375 := N_0; omega) := by
  refine (dat0 V c).arrAt_eq_of_cover 4 (sumAt V c 374 _) (fun t hf => flushed0_4_eq V c t hf) fun i => ?_
  obtain ⟨e0, e1⟩ := idx0_4 last0
  refine ⟨last0, (flush0_4 last0).mpr rfl, ?_⟩
  rw [mem_blk0_4]
  intro a
  have h0 : (i 0).val < 1 := (i 0).isLt
  have h1 : (i 1).val < 64 := (i 1).isLt
  match a with
  | ⟨0, _⟩ => show win0_4.index last0 (0 : Fin 2) * 1 ≤ (i 0).val ∧ (i 0).val < win0_4.index last0 (0 : Fin 2) * 1 + 1; omega
  | ⟨1, _⟩ => show win0_4.index last0 (1 : Fin 2) * 64 ≤ (i 1).val ∧ (i 1).val < win0_4.index last0 (1 : Fin 2) * 64 + 64; omega
/-- Region 0's second output after the run: the running row of sums of squares after the last point. -/
theorem final0_5 (c : Dev nD) :
    ((dat0 V c).arrAt 5 cfg0.N : Vec F S1x64 .f32) = sqAt V c 374 (by have : cfg0.N = 375 := N_0; omega) := by
  refine (dat0 V c).arrAt_eq_of_cover 5 (sqAt V c 374 _) (fun t hf => flushed0_5_eq V c t hf) fun i => ?_
  obtain ⟨e0, e1⟩ := idx0_5 last0
  refine ⟨last0, (flush0_5 last0).mpr rfl, ?_⟩
  rw [mem_blk0_5]
  intro a
  have h0 : (i 0).val < 1 := (i 0).isLt
  have h1 : (i 1).val < 64 := (i 1).isLt
  match a with
  | ⟨0, _⟩ => show win0_5.index last0 (0 : Fin 2) * 1 ≤ (i 0).val ∧ (i 0).val < win0_5.index last0 (0 : Fin 2) * 1 + 1; omega
  | ⟨1, _⟩ => show win0_5.index last0 (1 : Fin 2) * 64 ≤ (i 1).val ∧ (i 1).val < win0_5.index last0 (1 : Fin 2) * 64 + 64; omega

/-- What a point of region 1 leaves depends on the point and the index through their values only. -/
theorem outAt1_congr (c : Dev nD) {t t' : Fin cfg1.N} (ht : t.val = t'.val) {i i' : S80x64.Idx}
    (h0 : (i 0).val = (i' 0).val) (h1 : (i 1).val = (i' 1).val) : outAt1 V c t i = outAt1 V c t' i' := by
  obtain rfl : t = t' := Fin.ext ht
  obtain rfl : i = i' := by
    funext a
    apply Fin.ext
    match a with
    | ⟨0, _⟩ => exact h0
    | ⟨1, _⟩ => exact h1
  rfl

/-- Region 1's output as one function of the index: row `r` is row `r % 80` of what point `r / 80` left. -/
def G1 (c : Dev nD) : Vec F S30000x64 .f32 := fun j =>
  outAt1 V c ⟨(j 0).val / 80, by have : cfg1.N = 375 := N_1; have := idx2_lt0 j; omega⟩
    (ix2 (⟨(j 0).val % 80, Nat.mod_lt _ (by omega)⟩ : Fin 80) (j 1))

/-- Block `t` of any [30000,64] array, read at a local index, is the array at the global index. -/
theorem read_blk1_8 (G : Vec F S30000x64 .f32) (t : Fin cfg1.N) (y : S80x64.Idx) (i : S30000x64.Idx)
    (h0 : (i 0).val = t.val * 80 + (y 0).val) (h1 : (i 1).val = (y 1).val) :
    ((cfg1.win 8).blk t).view.read (Elt F) G y = G i := by
  obtain ⟨e0, e1⟩ := idx1_8 t
  show G (((cfg1.win 8).blk t).view.emb y) = G i
  congr 1
  funext a
  apply Fin.ext
  match a with
  | ⟨0, _⟩ => show win1_8.index t (0 : Fin 2) * 80 + 1 * (y 0).val = (i 0).val; rw [e0, h0]; omega
  | ⟨1, _⟩ => show win1_8.index t (1 : Fin 2) * 64 + 1 * (y 1).val = (i 1).val; rw [e1, h1]; omega

/-- What point `t` of region 1 writes back is block `t` of `G1`. -/
theorem flushed1_8_eq (c : Dev nD) (t : Fin cfg1.N) :
    (dat1 V c).flushed 8 t = ((cfg1.win 8).blk t).view.read (Elt F) (G1 V c) := by
  have hN : cfg1.N = 375 := N_1
  show (cfg1.win 8).cut (grid1.coords t) ((dat1 V c).after 8 t) = _
  rw [after1_8]
  funext y
  have hy0 : (y 0).val < 80 := (y 0).isLt
  have hy1 : (y 1).val < 64 := (y 1).isLt
  have ht := t.isLt
  refine Eq.trans ?_ (read_blk1_8 (G1 V c) t y (ix2 (⟨t.val * 80 + (y 0).val, by omega⟩ : Fin 30000) (⟨(y 1).val, hy1⟩ : Fin 64)) rfl rfl).symm
  show outAt1 V c t ((cfg1.win 8).xinj (grid1.coords t) y) = _
  unfold G1
  refine outAt1_congr V c ?_ ?_ ?_
  · show t.val = (t.val * 80 + (y 0).val) / 80
    omega
  · show (y 0).val = (t.val * 80 + (y 0).val) % 80
    omega
  · rfl

/-- Region 1's output after the run is `G1`: row `r` is covered by point `r / 80`. -/
theorem final1_8_whole (c : Dev nD) : ((dat1 V c).arrAt 8 cfg1.N : Vec F S30000x64 .f32) = G1 V c := by
  refine (dat1 V c).arrAt_eq_of_cover 8 (G1 V c) (fun t _ => flushed1_8_eq V c t) fun i => ?_
  have hN : cfg1.N = 375 := N_1
  have h0 : (i 0).val < 30000 := (i 0).isLt
  have h1 : (i 1).val < 64 := (i 1).isLt
  have ht : (i 0).val / 80 < cfg1.N := by omega
  obtain ⟨e0, e1⟩ := idx1_8 ⟨(i 0).val / 80, ht⟩
  refine ⟨⟨(i 0).val / 80, ht⟩, flush1_8 _, ?_⟩
  rw [mem_blk1_8]
  intro a
  match a with
  | ⟨0, _⟩ =>
    show win1_8.index ⟨(i 0).val / 80, ht⟩ (0 : Fin 2) * 80 ≤ (i 0).val ∧ (i 0).val < win1_8.index ⟨(i 0).val / 80, ht⟩ (0 : Fin 2) * 80 + 80
    rw [e0]; show (i 0).val / 80 * 80 ≤ (i 0).val ∧ (i 0).val < (i 0).val / 80 * 80 + 80; omega
  | ⟨1, _⟩ =>
    show win1_8.index ⟨(i 0).val / 80, ht⟩ (1 : Fin 2) * 64 ≤ (i 1).val ∧ (i 1).val < win1_8.index ⟨(i 0).val / 80, ht⟩ (1 : Fin 2) * 64 + 64
    omega

/-- Region 1's output after the run, row by row: row 80·t+p is row p of what point t left. -/
theorem final1_8 (c : Dev nD) (t : Fin 375) (p : Fin 80) (o : Fin 64) :
    ((dat1 V c).arrAt 8 cfg1.N : Vec F S30000x64 .f32) (ix2 (gp t p) o) = outAt1 V c (pt1 t) (ix2 p o) := by
  refine (congrFun (final1_8_whole V c) _).trans ?_
  unfold G1
  have ht := t.isLt
  have hp := p.isLt
  refine outAt1_congr V c ?_ ?_ ?_
  · show (80 * t.val + p.val) / 80 = t.val; omega
  · show (80 * t.val + p.val) % 80 = p.val; omega
  · rfl
/-- An input window's array is unchanged by its region. -/
theorem final0_in (c : Dev nD) (w : Fin cfg0.W) (hw : w.val < 4) : (dat0 V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, _ => rfl
  rw [(dat0 V c).arrAt_in w hin cfg0.N, A_eq0]
theorem final1_in (c : Dev nD) (w : Fin cfg1.W) (hw : w.val < 8) : (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, _ => rfl
  rw [(dat1 V c).arrAt_in w hin cfg1.N, A_eq1]

end Cert.KernelIdeal.Hand

end
-- ==== Proof.KI.Hosts.lean ====
/-
  What the host stretches and the regions leave in the buffers the proofs read, at any float instance: no item of
  @main writes an argument, so each is at its launch contents at every boundary; the first stretch's four results are
  a reshape of the counts to a column, the weight's transpose and gamma and beta as rows; the second stretch writes
  none of them, and region 0 only reads them.
-/
import proofs.«164556_j22273700397341_1_alg».proof.Proof.KI.Bounds
import proofs.«164556_j22273700397341_1_alg».proof.Proof.KI.Blocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

variable (m : (ℓ : Loc nD τ sig) → Buf (Elt F) ℓ)

/-! ## What each stretch and each region leaves alone -/

/-- The references the first stretch writes. -/
abbrev hostW0 : List (Ref sig .tc) := [main_v0, main_v1, main_v2, main_v3]
/-- The references the second stretch writes. -/
abbrev hostW1 : List (Ref sig .tc) :=
  [main_v5, main_cst, main_v6, main_v7, main_v8, main_cst_0, main_v9, main_v10, main_v11, main_v12, main_v13, main_v14]

private theorem writes0 :
    (hostOps0 : List (HloOp τ sig (Elt F))).Forall fun op => op.writes ⊆ (hostW0.map (Proc.devRef (τ := τ) .tc)).toFinset := by
  simp only [List.Forall]
  refine ⟨?_, ?_, ?_, ?_⟩ <;>
  · simp only [StableHlo.unary_writes, StableHlo.reshape_writes, Finset.singleton_subset_iff, List.mem_toFinset]
    exact List.mem_map_of_mem (by decide)

private theorem writes1 :
    (hostOps1 : List (HloOp τ sig (Elt F))).Forall fun op => op.writes ⊆ (hostW1.map (Proc.devRef (τ := τ) .tc)).toFinset := by
  simp only [List.Forall]
  refine ⟨?_, ?_, ?_, ?_, ?_, ?_, ?_, ?_, ?_, ?_, ?_, ?_⟩ <;>
  · simp only [StableHlo.nullary_writes, StableHlo.unary_writes, StableHlo.binary_writes, StableHlo.reshape_writes,
      Finset.singleton_subset_iff, List.mem_toFinset]
    exact List.mem_map_of_mem (by decide)

/-- A reference the first stretch does not write is at its launch contents when region 0 is entered. -/
theorem B1_of (c : Dev nD) (r : Ref sig .tc) (h : r ∉ hostW0) : B1 m c (Proc.devRef .tc r) = m ((c : Thread nD τ).loc r) :=
  StableHlo.after_of_writes_sub hostOps0 _ writes0 h
/-- A reference the second stretch does not write is, when region 1 is entered, as region 0 left it. -/
theorem B3_of (c : Dev nD) (r : Ref sig .tc) (h : r ∉ hostW1) : B3 m c (Proc.devRef .tc r) = B2 m c (Proc.devRef .tc r) :=
  StableHlo.after_of_writes_sub hostOps1 _ writes1 h
/-- An input window's array of region 0 is left as entered. -/
theorem B2_in (c : Dev nD) (w : Fin cfg0.W) (hw : w.val < 4) :
    B2 m c (Proc.devRef .tc (Pipeline.arrRef spec0 w)) = B1 m c (Proc.devRef .tc (Pipeline.arrRef spec0 w)) :=
  (B2_arr m c w).trans (final0_in (E1 m) c w hw)
/-- An input window's array of region 1 is left as entered. -/
theorem B4_in (c : Dev nD) (w : Fin cfg1.W) (hw : w.val < 8) :
    B4 m c (Proc.devRef .tc (Pipeline.arrRef spec1 w)) = B3 m c (Proc.devRef .tc (Pipeline.arrRef spec1 w)) :=
  (B4_arr m c w).trans (final1_in (E3 m) c w hw)

/-! ## The arguments at the end of the run -/

theorem B4_main_arg0 (c : Dev nD) : B4 m c (Proc.devRef .tc main_arg0) = m ((c : Thread nD τ).loc main_arg0) :=
  calc B4 m c (Proc.devRef .tc main_arg0)
    _ = B3 m c (Proc.devRef .tc main_arg0) := B4_in m c 0 (by decide)
    _ = B2 m c (Proc.devRef .tc main_arg0) := B3_of m c main_arg0 (by decide)
    _ = B1 m c (Proc.devRef .tc main_arg0) := B2_in m c 0 (by decide)
    _ = m ((c : Thread nD τ).loc main_arg0) := B1_of m c main_arg0 (by decide)
theorem B4_main_arg1 (c : Dev nD) : B4 m c (Proc.devRef .tc main_arg1) = m ((c : Thread nD τ).loc main_arg1) :=
  calc B4 m c (Proc.devRef .tc main_arg1)
    _ = B3 m c (Proc.devRef .tc main_arg1) := B4_of_ne m c main_arg1 (by decide)
    _ = B2 m c (Proc.devRef .tc main_arg1) := B3_of m c main_arg1 (by decide)
    _ = B1 m c (Proc.devRef .tc main_arg1) := B2_of_ne m c main_arg1 (by decide)
    _ = m ((c : Thread nD τ).loc main_arg1) := B1_of m c main_arg1 (by decide)
theorem B4_main_arg2 (c : Dev nD) : B4 m c (Proc.devRef .tc main_arg2) = m ((c : Thread nD τ).loc main_arg2) :=
  calc B4 m c (Proc.devRef .tc main_arg2)
    _ = B3 m c (Proc.devRef .tc main_arg2) := B4_in m c 2 (by decide)
    _ = B2 m c (Proc.devRef .tc main_arg2) := B3_of m c main_arg2 (by decide)
    _ = B1 m c (Proc.devRef .tc main_arg2) := B2_in m c 2 (by decide)
    _ = m ((c : Thread nD τ).loc main_arg2) := B1_of m c main_arg2 (by decide)
theorem B4_main_arg3 (c : Dev nD) : B4 m c (Proc.devRef .tc main_arg3) = m ((c : Thread nD τ).loc main_arg3) :=
  calc B4 m c (Proc.devRef .tc main_arg3)
    _ = B3 m c (Proc.devRef .tc main_arg3) := B4_of_ne m c main_arg3 (by decide)
    _ = B2 m c (Proc.devRef .tc main_arg3) := B3_of m c main_arg3 (by decide)
    _ = B1 m c (Proc.devRef .tc main_arg3) := B2_of_ne m c main_arg3 (by decide)
    _ = m ((c : Thread nD τ).loc main_arg3) := B1_of m c main_arg3 (by decide)
theorem B4_main_arg4 (c : Dev nD) : B4 m c (Proc.devRef .tc main_arg4) = m ((c : Thread nD τ).loc main_arg4) :=
  calc B4 m c (Proc.devRef .tc main_arg4)
    _ = B3 m c (Proc.devRef .tc main_arg4) := B4_of_ne m c main_arg4 (by decide)
    _ = B2 m c (Proc.devRef .tc main_arg4) := B3_of m c main_arg4 (by decide)
    _ = B1 m c (Proc.devRef .tc main_arg4) := B2_of_ne m c main_arg4 (by decide)
    _ = m ((c : Thread nD τ).loc main_arg4) := B1_of m c main_arg4 (by decide)
theorem B4_main_arg5 (c : Dev nD) : B4 m c (Proc.devRef .tc main_arg5) = m ((c : Thread nD τ).loc main_arg5) :=
  calc B4 m c (Proc.devRef .tc main_arg5)
    _ = B3 m c (Proc.devRef .tc main_arg5) := B4_of_ne m c main_arg5 (by decide)
    _ = B2 m c (Proc.devRef .tc main_arg5) := B3_of m c main_arg5 (by decide)
    _ = B1 m c (Proc.devRef .tc main_arg5) := B2_of_ne m c main_arg5 (by decide)
    _ = m ((c : Thread nD τ).loc main_arg5) := B1_of m c main_arg5 (by decide)

/-! ## What region 0 is entered from -/

theorem E1_arg0 (c : Dev nD) : E1 m c main_arg0 = m ((c : Thread nD τ).loc main_arg0) :=
  B1_of m c main_arg0 (by decide)
theorem E1_arg2 (c : Dev nD) : E1 m c main_arg2 = m ((c : Thread nD τ).loc main_arg2) :=
  B1_of m c main_arg2 (by decide)

/-- A vector cast to a column reads, at row `i`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The counts as a column. -/
theorem E1_v0_apply (c : Dev nD) (P : Fin 30000) :
    (E1 m c main_v0 : Vec F S30000x1 .i32) (ix2 P 0) = (m ((c : Thread nD τ).loc main_arg1) : Vec F S30000 .i32) (ix1 P) := by
  have e : (E1 m c main_v0 : S30000x1.Idx → _)
      = shapeCast S30000x1 (m ((c : Thread nD τ).loc main_arg1) : Vec F S30000 .i32) shapeCasts_S30000_S30000x1 := by
    show StableHlo.after hostOps0 (fun b => m (c, b)) (Proc.devRef .tc main_v0) = _
    after_results
    rfl
  rw [e]
  exact shapeCast_a_a1_apply _ _ P 0
/-- The weight transposed. -/
theorem E1_v1_apply (c : Dev nD) (i : Fin 9) (o : Fin 64) :
    (E1 m c main_v1 : Vec F S9x64 .f32) (ix2 i o) = (m ((c : Thread nD τ).loc main_arg3) : Vec F S64x9 .f32) (ix2 o i) := by
  have e : (E1 m c main_v1 : S9x64.Idx → _)
      = transpose S9x64 [1, 0] (m ((c : Thread nD τ).loc main_arg3) : Vec F S64x9 .f32) transposes_S64x9_S9x64_1_0 := by
    show StableHlo.after hostOps0 (fun b => m (c, b)) (Proc.devRef .tc main_v1) = _
    after_results
  rw [e]
  exact transpose_ix2_apply _ _ i o

/-! ## What region 1 is entered from -/

theorem E3_arg0 (c : Dev nD) : E3 m c main_arg0 = m ((c : Thread nD τ).loc main_arg0) :=
  calc B3 m c (Proc.devRef .tc main_arg0)
    _ = B2 m c (Proc.devRef .tc main_arg0) := B3_of m c main_arg0 (by decide)
    _ = B1 m c (Proc.devRef .tc main_arg0) := B2_in m c 0 (by decide)
    _ = m ((c : Thread nD τ).loc main_arg0) := B1_of m c main_arg0 (by decide)
theorem E3_arg2 (c : Dev nD) : E3 m c main_arg2 = m ((c : Thread nD τ).loc main_arg2) :=
  calc B3 m c (Proc.devRef .tc main_arg2)
    _ = B2 m c (Proc.devRef .tc main_arg2) := B3_of m c main_arg2 (by decide)
    _ = B1 m c (Proc.devRef .tc main_arg2) := B2_in m c 2 (by decide)
    _ = m ((c : Thread nD τ).loc main_arg2) := B1_of m c main_arg2 (by decide)
theorem E3_v0 (c : Dev nD) : E3 m c main_v0 = E1 m c main_v0 :=
  calc B3 m c (Proc.devRef .tc main_v0)
    _ = B2 m c (Proc.devRef .tc main_v0) := B3_of m c main_v0 (by decide)
    _ = B1 m c (Proc.devRef .tc main_v0) := B2_in m c 1 (by decide)
theorem E3_v1 (c : Dev nD) : E3 m c main_v1 = E1 m c main_v1 :=
  calc B3 m c (Proc.devRef .tc main_v1)
    _ = B2 m c (Proc.devRef .tc main_v1) := B3_of m c main_v1 (by decide)
    _ = B1 m c (Proc.devRef .tc main_v1) := B2_in m c 3 (by decide)
/-- Gamma and beta as rows. -/
theorem E3_v2_apply (c : Dev nD) (o : Fin 64) :
    (E3 m c main_v2 : Vec F S1x64 .f32) (ix2 0 o) = (m ((c : Thread nD τ).loc main_arg4) : Vec F S64 .f32) (ix1 o) := by
  have e0 : E3 m c main_v2 = E1 m c main_v2 :=
    calc B3 m c (Proc.devRef .tc main_v2)
      _ = B2 m c (Proc.devRef .tc main_v2) := B3_of m c main_v2 (by decide)
      _ = B1 m c (Proc.devRef .tc main_v2) := B2_of_ne m c main_v2 (by decide)
  have e : (E1 m c main_v2 : S1x64.Idx → _)
      = shapeCast S1x64 (m ((c : Thread nD τ).loc main_arg4) : Vec F S64 .f32) shapeCasts_S64_S1x64 := by
    show StableHlo.after hostOps0 (fun b => m (c, b)) (Proc.devRef .tc main_v2) = _
    after_results
    rfl
  rw [e0, e]
  exact shapeCast_a_1a_apply _ _ 0 o
theorem E3_v3_apply (c : Dev nD) (o : Fin 64) :
    (E3 m c main_v3 : Vec F S1x64 .f32) (ix2 0 o) = (m ((c : Thread nD τ).loc main_arg5) : Vec F S64 .f32) (ix1 o) := by
  have e0 : E3 m c main_v3 = E1 m c main_v3 :=
    calc B3 m c (Proc.devRef .tc main_v3)
      _ = B2 m c (Proc.devRef .tc main_v3) := B3_of m c main_v3 (by decide)
      _ = B1 m c (Proc.devRef .tc main_v3) := B2_of_ne m c main_v3 (by decide)
  have e : (E1 m c main_v3 : S1x64.Idx → _)
      = shapeCast S1x64 (m ((c : Thread nD τ).loc main_arg5) : Vec F S64 .f32) shapeCasts_S64_S1x64 := by
    show StableHlo.after hostOps0 (fun b => m (c, b)) (Proc.devRef .tc main_v3) = _
    after_results
    rfl
  rw [e0, e]
  exact shapeCast_a_1a_apply _ _ 0 o

end Cert.KernelIdeal.Hand

end
-- ==== Proof.Spec.lean ====
/-
  The mathematics both programs compute, pillar by pillar, over the extended reals.
  A pillar is 100 points of 4 values `f n k`, a point count `np` and four voxel coordinates `co` (both 32-bit integers).
  Each point gets nine features: its four values; its first three values less the pillar's mean (the sum over all
  100 points divided by the count); its first two values less the voxel centre (coordinate × 0.16 + offset) —
  all multiplied by the 0/1 mask "point index below the count" (`featP`). The linear layer is the product with
  the 64×9 weight (`linP`). Over all 30000 × 100 points, per output channel: the sum, the sum of squares, the mean
  (sum / 3·10⁶), the variance in its two spellings — mean of squares less the squared mean (`varK`), mean of squared
  deviations (`varR`) — which agree when every entry is a real number (`varR_eq_varK`); and the normalised, scaled,
  shifted, clamped value maximised over the pillar's points (`normP`).
-/
import Idealize.ShloMosaic.PureOps.Ideal
import Idealize.ShloMosaic.PureOps.Ideal.Laws
import Idealize.ShloMosaic.Lib.ValueIdx

noncomputable section

namespace Cert.Spec

open Idealize.ShloMosaic

/-! ## The literals, as the extended reals their words denote -/

def zero : EReal := Ideal.ofBits .f32 0x00000000#32
def c016 : EReal := Ideal.ofBits .f32 0x3E23D70A#32
def c008 : EReal := Ideal.ofBits .f32 0x3DA3D70A#32
def cm396 : EReal := Ideal.ofBits .f32 0xC21E6666#32
def ceps : EReal := Ideal.ofBits .f32 0x3A83126F#32
def cN : EReal := Ideal.ofBits .f32 0x4A371B00#32
def ninf : EReal := Ideal.ofBits .f32 0xFF800000#32

/-- A 32-bit integer read as a signed number. -/
def ofInt (b : BitVec 32) : EReal := FloatOps.sitofp (F := Ideal) .f32 b

/-! ## One pillar -/

/-- The pillar's sum of value `k` over its 100 points, divided by the point count. -/
def pmean (f : Fin 100 → Fin 4 → EReal) (np : BitVec 32) (k : Fin 4) : EReal :=
  Ideal.div (∑ n : Fin 100, f n k) (ofInt np)

/-- The nine features of point `n` before masking. -/
def rawP (f : Fin 100 → Fin 4 → EReal) (np : BitVec 32) (co : Fin 4 → BitVec 32) (n : Fin 100) (i : Fin 9) : EReal :=
  if h4 : i.val < 4 then f n ⟨i.val, h4⟩
  else if h7 : i.val < 7 then f n ⟨i.val - 4, by omega⟩ - pmean f np ⟨i.val - 4, by omega⟩
  else if i.val = 7 then f n 0 - (ofInt (co 3) * c016 + c008)
  else f n 1 - (ofInt (co 2) * c016 + cm396)

/-- The mask of point `n`: 1 when its index is below the count (signed comparison of 32-bit words), else 0. -/
def maskP (np : BitVec 32) (n : Fin 100) : EReal :=
  if (BitVec.ofNat 32 n.val).slt np then 1 else 0

def featP (f : Fin 100 → Fin 4 → EReal) (np : BitVec 32) (co : Fin 4 → BitVec 32) (n : Fin 100) (i : Fin 9) : EReal :=
  rawP f np co n i * maskP np n

/-- The linear layer at point `n`, channel `o`: `w o i` the 64×9 weight. -/
def linP (f : Fin 100 → Fin 4 → EReal) (np : BitVec 32) (co : Fin 4 → BitVec 32) (w : Fin 64 → Fin 9 → EReal)
    (n : Fin 100) (o : Fin 64) : EReal :=
  ∑ i : Fin 9, featP f np co n i * w o i

/-- The normalised value of the pillar at one channel: X the channel's 100 linear outputs, maximised from -∞. -/
def normP (X : Fin 100 → EReal) (mean var g b : EReal) : EReal :=
  (Finset.univ : Finset (Fin 100)).fold max ninf
    (fun n => max ((X n - mean) * Ideal.rsqrt (var + ceps) * g + b) zero)

/-! ## All pillars -/

section All

variable (X : Fin 30000 → Fin 100 → Fin 64 → EReal)

def sumX (o : Fin 64) : EReal := ∑ p : Fin 30000, ∑ n : Fin 100, X p n o
def sumSq (o : Fin 64) : EReal := ∑ p : Fin 30000, ∑ n : Fin 100, X p n o * X p n o
def meanX (o : Fin 64) : EReal := Ideal.div (sumX X o) cN
/-- The variance as the first program computes it. -/
def varK (o : Fin 64) : EReal := Ideal.div (sumSq X o) cN - meanX X o * meanX X o
/-- The variance as the second program computes it. -/
def varR (o : Fin 64) : EReal :=
  Ideal.div (∑ p : Fin 30000, ∑ n : Fin 100, (X p n o - meanX X o) * (X p n o - meanX X o)) cN

end All

end Cert.Spec

end
-- ==== Proof.HostsIdeal.lean ====
/-
  The second host stretch at the extended reals: from the two rows region 0 leaves (per channel the sum S and the sum
  of squares Q over all points) it writes the mean row S / 3·10⁶ and the variance row Q / 3·10⁶ − mean².
-/
import proofs.«164556_j22273700397341_1_alg».proof.Proof.KI.Bounds
import proofs.«164556_j22273700397341_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.ValueIdx Cert.KernelIdeal Cert.KernelIdeal.Gen Cert.KernelIdeal.Hand Cert.Spec

variable (m : (ℓ : Loc nD τ sig) → Buf (Elt Ideal) ℓ)

/-- The host's quotient at an index is the quotient of the elements. -/
private theorem hostDivf_at {s : Shape} {φ : FTy} (a b : FVec Ideal s φ) (i : s.Idx) :
    Host.divf a b i = Ideal.div (a i) (b i) := rfl

/-- The number of points as a vector of 64 copies, read at a channel. -/
private theorem cN_at (o : Fin 64) :
    broadcastInDim S64 ![] bcast_S_S64 (constant (F := Ideal) S_ .f32 0x4A371B00#32) (ix1 o) = cN := rfl

/-- The mean row: the row of sums as a vector, divided by the number of points, as a row again. -/
theorem E3_v13_apply (c : Dev nD) (o : Fin 64) :
    (E3 m c main_v13 : Vec Ideal S1x64 .f32) (ix2 0 o) = Ideal.div ((E2 m c main_v4_0 : Vec Ideal S1x64 .f32) (ix2 0 o)) cN := by
  have e : (E3 m c main_v13 : S1x64.Idx → _)
      = shapeCast S1x64 (Host.divf (shapeCast S64 (E2 m c main_v4_0 : Vec Ideal S1x64 .f32) shapeCasts_S1x64_S64)
          (broadcastInDim S64 ![] bcast_S_S64 (constant (F := Ideal) S_ .f32 0x4A371B00#32))) shapeCasts_S64_S1x64 := by
    show StableHlo.after hostOps1 (B2 m c) (Proc.devRef .tc main_v13) = _
    after_results
    rfl
  rw [e, shapeCast_a_1a_apply, hostDivf_at, shapeCast_1a_a_apply, cN_at]

/-- The variance row: the row of sums of squares divided by the number of points, less the mean's square. -/
theorem E3_v14_apply (c : Dev nD) (o : Fin 64) :
    (E3 m c main_v14 : Vec Ideal S1x64 .f32) (ix2 0 o)
      = Ideal.div ((E2 m c main_v4_1 : Vec Ideal S1x64 .f32) (ix2 0 o)) cN
        - Ideal.div ((E2 m c main_v4_0 : Vec Ideal S1x64 .f32) (ix2 0 o)) cN * Ideal.div ((E2 m c main_v4_0 : Vec Ideal S1x64 .f32) (ix2 0 o)) cN := by
  have e : (E3 m c main_v14 : S1x64.Idx → _)
      = shapeCast S1x64
          (subf
            (Host.divf (shapeCast S64 (E2 m c main_v4_1 : Vec Ideal S1x64 .f32) shapeCasts_S1x64_S64)
              (broadcastInDim S64 ![] bcast_S_S64 (constant (F := Ideal) S_ .f32 0x4A371B00#32)))
            (mulf
              (Host.divf (shapeCast S64 (E2 m c main_v4_0 : Vec Ideal S1x64 .f32) shapeCasts_S1x64_S64)
                (broadcastInDim S64 ![] bcast_S_S64 (constant (F := Ideal) S_ .f32 0x4A371B00#32)))
              (Host.divf (shapeCast S64 (E2 m c main_v4_0 : Vec Ideal S1x64 .f32) shapeCasts_S1x64_S64)
                (broadcastInDim S64 ![] bcast_S_S64 (constant (F := Ideal) S_ .f32 0x4A371B00#32)))))
          shapeCasts_S64_S1x64 := by
    show StableHlo.after hostOps1 (B2 m c) (Proc.devRef .tc main_v14) = _
    after_results
    rfl
  rw [e, shapeCast_a_1a_apply, subf_apply, mulf_apply, hostDivf_at, hostDivf_at, shapeCast_1a_a_apply, shapeCast_1a_a_apply, cN_at]

end Cert.KernelIdeal.HandValue

end
-- ==== Proof.KArgs.lean ====
/-
  The kernel program's argument arrays at launch, read at the extended reals, and the linear layer's output `XK` over
  all 30000 pillars computed from them by the pillar mathematics.
-/
import proofs.«164556_j22273700397341_1_alg».proof.Proof.KI.Bounds
import proofs.«164556_j22273700397341_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.ShloMosaic.ValueIdx Cert.KernelIdeal Cert.KernelIdeal.Gen Cert.KernelIdeal.Hand Cert.Spec

variable (m : (ℓ : Loc nD τ sig) → Buf (Elt Ideal) ℓ)

/-- The six arguments at launch on core `c`. -/
abbrev a0 (c : Dev nD) : Vec Ideal S30000x100x4 .f32 := m ((c : Thread nD τ).loc main_arg0)
abbrev a1 (c : Dev nD) : Vec Ideal S30000 .i32 := m ((c : Thread nD τ).loc main_arg1)
abbrev a2 (c : Dev nD) : Vec Ideal S30000x4 .i32 := m ((c : Thread nD τ).loc main_arg2)
abbrev a3 (c : Dev nD) : Vec Ideal S64x9 .f32 := m ((c : Thread nD τ).loc main_arg3)
abbrev a4 (c : Dev nD) : Vec Ideal S64 .f32 := m ((c : Thread nD τ).loc main_arg4)
abbrev a5 (c : Dev nD) : Vec Ideal S64 .f32 := m ((c : Thread nD τ).loc main_arg5)

/-- The linear layer's output over all pillars, from the launch arguments. -/
def XK (c : Dev nD) (P : Fin 30000) (n : Fin 100) (o : Fin 64) : EReal :=
  linP (fun n k => a0 m c (ix3 P n k)) (a1 m c (ix1 P)) (fun k => a2 m c (ix2 P k)) (fun o i => a3 m c (ix2 o i)) n o

end Cert.KernelIdeal.HandValue

end
-- ==== Proof.KFeat.lean ====
/-
  A block of 80 pillars read pillar by pillar at the extended reals: pillar `p` of the block is its 100 points' four
  values, its count and its four voxel coordinates; the block's weight operand is the transposed [9,64] weight. Both
  kernel bodies build the same nine masked features of every point from these, and they are the pillar mathematics'
  `featP`.
-/
import proofs.«164556_j22273700397341_1_alg».proof.Proof.KI.Terms
import proofs.«164556_j22273700397341_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.ValueIdx Cert.KernelIdeal Cert.KernelIdeal.Gen Cert.KernelIdeal.Hand Cert.Spec

/-- Pillar `p` of a block: its points' values, -/
def pillarF (x1 : Vec Ideal S80x100x4 .f32) (p : Fin 80) : Fin 100 → Fin 4 → EReal := fun n k => x1 (ix3 p n k)
/-- its point count, -/
def pillarN (x2 : Vec Ideal S80x1 .i32) (p : Fin 80) : BitVec 32 := x2 (ix2 p 0)
/-- its voxel coordinates; -/
def pillarC (x3 : Vec Ideal S80x4 .i32) (p : Fin 80) : Fin 4 → BitVec 32 := fun k => x3 (ix2 p k)
/-- and the weight as the 64×9 matrix the [9,64] operand transposes. -/
def weightT (x4 : Vec Ideal S9x64 .f32) : Fin 64 → Fin 9 → EReal := fun o i => x4 (ix2 i o)

/-- The linear layer's output at pillar `p` of the block, point `n`, channel `o`. -/
def linB (x1 : Vec Ideal S80x100x4 .f32) (x2 : Vec Ideal S80x1 .i32) (x3 : Vec Ideal S80x4 .i32) (x4 : Vec Ideal S9x64 .f32)
    (p : Fin 80) (n : Fin 100) (o : Fin 64) : EReal :=
  linP (pillarF x1 p) (pillarN x2 p) (pillarC x3 p) (weightT x4) n o

end Cert.KernelIdeal.HandValue

end
-- ==== Proof.KBlockX.lean ====
/-
  A block's linear layer is the whole-array one on the block's pillars: block `t` of either region holds pillars
  80·t … 80·t+79 of the arguments (the counts through their column reshape, the weight through its transpose).
-/
import proofs.«164556_j22273700397341_1_alg».proof.Proof.KArgs
import proofs.«164556_j22273700397341_1_alg».proof.Proof.KFeat
import proofs.«164556_j22273700397341_1_alg».proof.Proof.KI.Blocks
import proofs.«164556_j22273700397341_1_alg».proof.Proof.KI.Hosts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.ShloMosaic.ValueIdx Cert.KernelIdeal Cert.KernelIdeal.Gen Cert.KernelIdeal.Hand Cert.Spec

variable (m : (ℓ : Loc nD τ sig) → Buf (Elt Ideal) ℓ)

/-- Block `t` of region 0, pillar `p`: the points' values are the first argument's at pillar 80·t+p. -/
theorem pillarF_block0 (c : Dev nD) (t : Fin 375) (p : Fin 80) :
    pillarF (iblk0 (E1 m) c 0 (pt0 t)) p = fun n k => a0 m c (ix3 (gp t p) n k) := by
  funext n k
  exact (iblk0_0_apply (E1 m) c t p n k).trans (congrFun (E1_arg0 m c) _)

/-- The count is the second argument's at pillar 80·t+p, through the column reshape. -/
theorem pillarN_block0 (c : Dev nD) (t : Fin 375) (p : Fin 80) :
    pillarN (iblk0 (E1 m) c 1 (pt0 t)) p = a1 m c (ix1 (gp t p)) :=
  (iblk0_1_apply (E1 m) c t p).trans (E1_v0_apply m c (gp t p))

/-- The voxel coordinates are the third argument's at pillar 80·t+p. -/
theorem pillarC_block0 (c : Dev nD) (t : Fin 375) (p : Fin 80) :
    pillarC (iblk0 (E1 m) c 2 (pt0 t)) p = fun k => a2 m c (ix2 (gp t p) k) := by
  funext k
  exact (iblk0_2_apply (E1 m) c t p k).trans (congrFun (E1_arg2 m c) _)

/-- The weight operand is the fourth argument transposed, so its transpose is the fourth argument. -/
theorem weightT_block0 (c : Dev nD) (t : Fin 375) :
    weightT (iblk0 (E1 m) c 3 (pt0 t)) = fun o i => a3 m c (ix2 o i) := by
  funext o i
  unfold weightT
  rw [iblk0_3_eq (E1 m) c t]
  exact E1_v1_apply m c i o

theorem linB_block0 (c : Dev nD) (t : Fin 375) (p : Fin 80) (n : Fin 100) (o : Fin 64) :
    linB (iblk0 (E1 m) c 0 (pt0 t)) (iblk0 (E1 m) c 1 (pt0 t)) (iblk0 (E1 m) c 2 (pt0 t)) (iblk0 (E1 m) c 3 (pt0 t)) p n o
      = XK m c (gp t p) n o := by
  unfold linB XK
  rw [pillarF_block0 m c t p, pillarN_block0 m c t p, pillarC_block0 m c t p, weightT_block0 m c t]

/-- Block `t` of region 1, pillar `p`: the same four reads, the column of counts and the transposed weight being
    the ones region 0 was entered from. -/
theorem pillarF_block1 (c : Dev nD) (t : Fin 375) (p : Fin 80) :
    pillarF (iblk1 (E3 m) c 0 (pt1 t)) p = fun n k => a0 m c (ix3 (gp t p) n k) := by
  funext n k
  exact (iblk1_0_apply (E3 m) c t p n k).trans (congrFun (E3_arg0 m c) _)

theorem pillarN_block1 (c : Dev nD) (t : Fin 375) (p : Fin 80) :
    pillarN (iblk1 (E3 m) c 1 (pt1 t)) p = a1 m c (ix1 (gp t p)) :=
  ((iblk1_1_apply (E3 m) c t p).trans (congrFun (E3_v0 m c) _)).trans (E1_v0_apply m c (gp t p))

theorem pillarC_block1 (c : Dev nD) (t : Fin 375) (p : Fin 80) :
    pillarC (iblk1 (E3 m) c 2 (pt1 t)) p = fun k => a2 m c (ix2 (gp t p) k) := by
  funext k
  exact (iblk1_2_apply (E3 m) c t p k).trans (congrFun (E3_arg2 m c) _)

theorem weightT_block1 (c : Dev nD) (t : Fin 375) :
    weightT (iblk1 (E3 m) c 3 (pt1 t)) = fun o i => a3 m c (ix2 o i) := by
  funext o i
  unfold weightT
  rw [iblk1_3_eq (E3 m) c t, E3_v1 m c]
  exact E1_v1_apply m c i o

theorem linB_block1 (c : Dev nD) (t : Fin 375) (p : Fin 80) (n : Fin 100) (o : Fin 64) :
    linB (iblk1 (E3 m) c 0 (pt1 t)) (iblk1 (E3 m) c 1 (pt1 t)) (iblk1 (E3 m) c 2 (pt1 t)) (iblk1 (E3 m) c 3 (pt1 t)) p n o
      = XK m c (gp t p) n o := by
  unfold linB XK
  rw [pillarF_block1 m c t p, pillarN_block1 m c t p, pillarC_block1 m c t p, weightT_block1 m c t]

end Cert.KernelIdeal.HandValue

end
-- ==== Proof.KFeatLib.lean ====
/-
  One block of a pillar program read at an index: the layout operations (slices, casts between [a,b] and [a,1,b] or
  [a,b,1], broadcasts of a unit axis, a sum over the middle axis, a concatenation along the last axis) and the 0/1 mask
  "point index below the count", each as the operand at the index it reads; then the three stages of the nine
  features — a value less the pillar's mean, a value less the voxel centre, the mask — and the nine features together.
-/
import proofs.«164556_j22273700397341_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.FeatLib

open Idealize.ShloMosaic Idealize.ShloMosaic.ValueIdx Cert.Spec

section Layout
variable {α : Type}

/-- A rank-3 array cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- An `[a, b, 1]` array cast to `[a, b]` reads, at `(p, n)`, the operand at `(p, n, 0)`. -/
theorem shapeCast_ab1_ab_apply {a b : ℕ} (x : (⟨3, ![a, b, 1]⟩ : Shape).Idx → α)
    (h : (⟨3, ![a, b, 1]⟩ : Shape).ShapeCasts ⟨2, ![a, b]⟩) (p : Fin a) (n : Fin b) :
    shapeCast ⟨2, ![a, b]⟩ x h (ix2 p n) = x (ix3 p n (0 : Fin 1)) :=
  shapeCast_apply x h _ _ (by
    rw [Shape.rowMajor_val_three, Shape.rowMajor_val_two]
    show (p.val * b + n.val) * 1 + 0 = p.val * b + n.val
    rw [Nat.mul_one, Nat.add_zero])

/-- An `[a, b]` array cast to `[a, b, 1]` reads, at `(p, n, u)`, the operand at `(p, n)`. -/
theorem shapeCast_ab_ab1_apply {a b : ℕ} (x : (⟨2, ![a, b]⟩ : Shape).Idx → α)
    (h : (⟨2, ![a, b]⟩ : Shape).ShapeCasts ⟨3, ![a, b, 1]⟩) (p : Fin a) (n : Fin b) (u : Fin 1) :
    shapeCast ⟨3, ![a, b, 1]⟩ x h (ix3 p n u) = x (ix2 p n) :=
  shapeCast_apply x h _ _ (by
    have hu : u.val = 0 := by omega
    rw [Shape.rowMajor_val_three, Shape.rowMajor_val_two]
    show p.val * b + n.val = (p.val * b + n.val) * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, c]` array broadcast to `[a, b, c]` reads, at `(p, n, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (k : Fin c) :
    broadcastTo ⟨3, ![a, b, c]⟩ v h (ix3 p n k) = v (ix3 p (0 : Fin 1) k) := by
  refine broadcastTo_apply v h (ix3 p n k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, n, k)`, the operand at `(p, n, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (n : Fin b) (k : Fin c) :
    broadcastTo ⟨3, ![a, b, c]⟩ v h (ix3 p n k) = v (ix3 p n (0 : Fin 1)) := by
  refine broadcastTo_apply v h (ix3 p n k) (ix3 p n (0 : Fin 1)) fun ax => ?_
  match ax with
  | ⟨0, _⟩ =>
    show p.val = if a = 1 then 0 else p.val
    split
    · have := p.isLt; omega
    · rfl
  | ⟨1, _⟩ =>
    show n.val = if b = 1 then 0 else n.val
    split
    · have := n.isLt; omega
    · rfl
  | ⟨2, _⟩ => rfl

end Layout

section Ops
variable {α : Type}

/-- A sum over the middle axis of an `[a, b, c]` array reads, at `(p, k)`, the sum over `n` of the array at `(p, n, k)`. -/
theorem sum_axis1_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (k : Fin c) :
    multiReduction .add [1] ⟨2, ![a, c]⟩ src acc h hφ hacc (ix2 p k) = ∑ n : Fin b, src (ix3 p n k) := by
  refine (Ideal.multiReduction_add_single src acc h hφ hacc (ix2 p k)).trans ?_
  refine Finset.sum_congr rfl fun n _ => congrArg src ?_
  funext d
  match d with
  | ⟨0, _⟩ => exact Fin.ext rfl
  | ⟨1, _⟩ => exact Fin.ext rfl
  | ⟨2, _⟩ => exact Fin.ext rfl

/-- The point index along axis 1 of an `[a, b]` array of 32-bit words reads, at `(p, n)`, the word of `n`. -/
theorem iota_axis1_apply {a b : ℕ} (κ : Kind) (h : (⟨2, ![a, b]⟩ : Shape).Iotas κ 32 [1]) (p : Fin a) (n : Fin b) :
    iota κ ⟨2, ![a, b]⟩ 32 [1] h (ix2 p n) = BitVec.ofNat 32 n.val := by
  show BitVec.ofNat 32 (0 * b + n.val) = _
  rw [Nat.zero_mul, Nat.zero_add]

/-- The signed comparison "x below y", widened to 32 bits and read as a number, is 1 or 0. -/
theorem mask_word (x y : BitVec 32) :
    FloatOps.sitofp (F := Ideal) .f32 ((IntOp.cmpi .slt x y).setWidth 32) = if x.slt y then (1 : EReal) else 0 := by
  show (((((IntOp.cmpi .slt x y).setWidth 32).toInt : ℤ) : ℝ) : EReal) = _
  unfold IntOp.cmpi
  cases hxy : x.slt y
  · simp
  · simp

end Ops

section Cat
variable {α : Type}

/-- Two arrays joined along the last axis, read in the first: `(p, n, i)` with `i` below the first extent. -/
theorem cat2_fst {a b c1 c2 c : ℕ} (x1 : (⟨3, ![a, b, c1]⟩ : Shape).Idx → α) (x2 : (⟨3, ![a, b, c2]⟩ : Shape).Idx → α)
    (h : Shape.Concatenates [(⟨3, ![a, b, c1]⟩ : Shape), ⟨3, ![a, b, c2]⟩] ⟨3, ![a, b, c]⟩ 2)
    (p : Fin a) (n : Fin b) (i : Fin c) (k : Fin c1) (hk : k.val = i.val) :
    concatenate ⟨3, ![a, b, c]⟩ 2 [⟨⟨3, ![a, b, c1]⟩, x1⟩, ⟨⟨3, ![a, b, c2]⟩, x2⟩] h (ix3 p n i) = x1 (ix3 p n k) := by
  refine concatenate_apply_piece 2 [⟨⟨3, ![a, b, c1]⟩, x1⟩, ⟨⟨3, ![a, b, c2]⟩, x2⟩] h (ix3 p n i) 0 (Nat.zero_lt_succ _) ⟨3, ![a, b, c1]⟩ x1 rfl rfl 0 rfl (ix3 p n k) ?_ ?_
  · intro d hd
    match d with
    | ⟨0, _⟩ => rfl
    | ⟨1, _⟩ => rfl
    | ⟨2, _⟩ => exact absurd rfl hd
  · show 0 + k.val = i.val
    omega

/-- … and in the second: `i` is the first extent plus `k`. -/
theorem cat2_snd {a b c1 c2 c : ℕ} (x1 : (⟨3, ![a, b, c1]⟩ : Shape).Idx → α) (x2 : (⟨3, ![a, b, c2]⟩ : Shape).Idx → α)
    (h : Shape.Concatenates [(⟨3, ![a, b, c1]⟩ : Shape), ⟨3, ![a, b, c2]⟩] ⟨3, ![a, b, c]⟩ 2)
    (p : Fin a) (n : Fin b) (i : Fin c) (k : Fin c2) (hk : c1 + k.val = i.val) :
    concatenate ⟨3, ![a, b, c]⟩ 2 [⟨⟨3, ![a, b, c1]⟩, x1⟩, ⟨⟨3, ![a, b, c2]⟩, x2⟩] h (ix3 p n i) = x2 (ix3 p n k) := by
  refine concatenate_apply_piece 2 [⟨⟨3, ![a, b, c1]⟩, x1⟩, ⟨⟨3, ![a, b, c2]⟩, x2⟩] h (ix3 p n i) 1 (Nat.succ_lt_succ (Nat.zero_lt_succ _)) ⟨3, ![a, b, c2]⟩ x2 rfl rfl c1 ?_ (ix3 p n k) ?_ ?_
  · show (if h : (3 : ℕ) = 3 then c1 else 0) + 0 = c1
    rw [dif_pos rfl, Nat.add_zero]
  · intro d hd
    match d with
    | ⟨0, _⟩ => rfl
    | ⟨1, _⟩ => rfl
    | ⟨2, _⟩ => exact absurd rfl hd
  · exact hk

/-- Three arrays joined along the last axis, read in the first, -/
theorem cat3_fst {a b c1 c2 c3 c : ℕ} (x1 : (⟨3, ![a, b, c1]⟩ : Shape).Idx → α) (x2 : (⟨3, ![a, b, c2]⟩ : Shape).Idx → α)
    (x3 : (⟨3, ![a, b, c3]⟩ : Shape).Idx → α)
    (h : Shape.Concatenates [(⟨3, ![a, b, c1]⟩ : Shape), ⟨3, ![a, b, c2]⟩, ⟨3, ![a, b, c3]⟩] ⟨3, ![a, b, c]⟩ 2)
    (p : Fin a) (n : Fin b) (i : Fin c) (k : Fin c1) (hk : k.val = i.val) :
    concatenate ⟨3, ![a, b, c]⟩ 2 [⟨⟨3, ![a, b, c1]⟩, x1⟩, ⟨⟨3, ![a, b, c2]⟩, x2⟩, ⟨⟨3, ![a, b, c3]⟩, x3⟩] h (ix3 p n i)
      = x1 (ix3 p n k) := by
  refine concatenate_apply_piece 2 [⟨⟨3, ![a, b, c1]⟩, x1⟩, ⟨⟨3, ![a, b, c2]⟩, x2⟩, ⟨⟨3, ![a, b, c3]⟩, x3⟩] h (ix3 p n i) 0 (Nat.zero_lt_succ _) ⟨3, ![a, b, c1]⟩ x1 rfl rfl 0 rfl (ix3 p n k) ?_ ?_
  · intro d hd
    match d with
    | ⟨0, _⟩ => rfl
    | ⟨1, _⟩ => rfl
    | ⟨2, _⟩ => exact absurd rfl hd
  · show 0 + k.val = i.val
    omega

/-- the second, -/
theorem cat3_snd {a b c1 c2 c3 c : ℕ} (x1 : (⟨3, ![a, b, c1]⟩ : Shape).Idx → α) (x2 : (⟨3, ![a, b, c2]⟩ : Shape).Idx → α)
    (x3 : (⟨3, ![a, b, c3]⟩ : Shape).Idx → α)
    (h : Shape.Concatenates [(⟨3, ![a, b, c1]⟩ : Shape), ⟨3, ![a, b, c2]⟩, ⟨3, ![a, b, c3]⟩] ⟨3, ![a, b, c]⟩ 2)
    (p : Fin a) (n : Fin b) (i : Fin c) (k : Fin c2) (hk : c1 + k.val = i.val) :
    concatenate ⟨3, ![a, b, c]⟩ 2 [⟨⟨3, ![a, b, c1]⟩, x1⟩, ⟨⟨3, ![a, b, c2]⟩, x2⟩, ⟨⟨3, ![a, b, c3]⟩, x3⟩] h (ix3 p n i)
      = x2 (ix3 p n k) := by
  refine concatenate_apply_piece 2 [⟨⟨3, ![a, b, c1]⟩, x1⟩, ⟨⟨3, ![a, b, c2]⟩, x2⟩, ⟨⟨3, ![a, b, c3]⟩, x3⟩] h (ix3 p n i) 1 (Nat.succ_lt_succ (Nat.zero_lt_succ _)) ⟨3, ![a, b, c2]⟩ x2 rfl rfl c1 ?_ (ix3 p n k) ?_ ?_
  · show (if h : (3 : ℕ) = 3 then c1 else 0) + 0 = c1
    rw [dif_pos rfl, Nat.add_zero]
  · intro d hd
    match d with
    | ⟨0, _⟩ => rfl
    | ⟨1, _⟩ => rfl
    | ⟨2, _⟩ => exact absurd rfl hd
  · exact hk

/-- and the third. -/
theorem cat3_trd {a b c1 c2 c3 c : ℕ} (x1 : (⟨3, ![a, b, c1]⟩ : Shape).Idx → α) (x2 : (⟨3, ![a, b, c2]⟩ : Shape).Idx → α)
    (x3 : (⟨3, ![a, b, c3]⟩ : Shape).Idx → α)
    (h : Shape.Concatenates [(⟨3, ![a, b, c1]⟩ : Shape), ⟨3, ![a, b, c2]⟩, ⟨3, ![a, b, c3]⟩] ⟨3, ![a, b, c]⟩ 2)
    (p : Fin a) (n : Fin b) (i : Fin c) (k : Fin c3) (hk : c1 + c2 + k.val = i.val) :
    concatenate ⟨3, ![a, b, c]⟩ 2 [⟨⟨3, ![a, b, c1]⟩, x1⟩, ⟨⟨3, ![a, b, c2]⟩, x2⟩, ⟨⟨3, ![a, b, c3]⟩, x3⟩] h (ix3 p n i)
      = x3 (ix3 p n k) := by
  refine concatenate_apply_piece 2 [⟨⟨3, ![a, b, c1]⟩, x1⟩, ⟨⟨3, ![a, b, c2]⟩, x2⟩, ⟨⟨3, ![a, b, c3]⟩, x3⟩] h (ix3 p n i) 2 (Nat.succ_lt_succ (Nat.succ_lt_succ (Nat.zero_lt_succ _))) ⟨3, ![a, b, c3]⟩ x3 rfl rfl (c1 + c2) ?_ (ix3 p n k) ?_ ?_
  · show (if h : (3 : ℕ) = 3 then c1 else 0) + ((if h : (3 : ℕ) = 3 then c2 else 0) + 0) = c1 + c2
    rw [dif_pos rfl, dif_pos rfl, Nat.add_zero]
  · intro d hd
    match d with
    | ⟨0, _⟩ => rfl
    | ⟨1, _⟩ => rfl
    | ⟨2, _⟩ => exact absurd rfl hd
  · exact hk

end Cat

/-! ## The three stages of a pillar's features, and the nine features together -/

section Stages

/-- A point's value `k` (one of the first three) less the pillar's mean of it: the sum over the 100 points divided by
    the count read as a number. -/
theorem mean_stage (v : FVec Ideal ⟨3, ![80, 100, 4]⟩ .f32) (cnt : IVec ⟨2, ![80, 1]⟩ 32)
    (hs : (⟨3, ![80, 100, 4]⟩ : Shape).Slices ![0, 0, 0] ⟨3, ![80, 100, 3]⟩)
    (hr : (⟨3, ![80, 100, 3]⟩ : Shape).Reduces [1] ⟨2, ![80, 3]⟩) (hφ : FKind.Formats .f32)
    (hacc : (0x00000000#32 : BitVec FTy.f32.bits) = FKind.add.neutral .f32 hφ)
    (hb : (⟨2, ![80, 1]⟩ : Shape).Broadcasts ⟨2, ![80, 3]⟩)
    (hc : (⟨2, ![80, 3]⟩ : Shape).ShapeCasts ⟨3, ![80, 1, 3]⟩)
    (hb' : (⟨3, ![80, 1, 3]⟩ : Shape).Broadcasts ⟨3, ![80, 100, 3]⟩)
    (p : Fin 80) (n : Fin 100) (k : Fin 3) (k' : Fin 4) (hk : k'.val = k.val) :
    subf (extractStridedSlice ⟨3, ![80, 100, 3]⟩ ![0, 0, 0] v hs)
      (broadcastTo ⟨3, ![80, 100, 3]⟩
        (shapeCast ⟨3, ![80, 1, 3]⟩
          (divf (multiReduction .add [1] ⟨2, ![80, 3]⟩ (extractStridedSlice ⟨3, ![80, 100, 3]⟩ ![0, 0, 0] v hs)
              0x00000000#32 hr hφ hacc)
            (broadcastTo ⟨2, ![80, 3]⟩ (sitofp .f32 cnt) hb)) hc) hb') (ix3 p n k)
      = v (ix3 p n k') - Ideal.div (∑ m : Fin 100, v (ix3 p m k')) (FloatOps.sitofp (F := Ideal) .f32 (cnt (ix2 p 0))) := by
  have e : ∀ m : Fin 100, extractStridedSlice ⟨3, ![80, 100, 3]⟩ ![0, 0, 0] v hs (ix3 p m k) = v (ix3 p m k') :=
    fun m => slice3_axis2_apply 0 v hs p m k k' (by omega)
  rw [subf_apply, broadcastTo_a1c_abc_apply, shapeCast_ac_a1c_apply, divf_apply, sum_axis1_apply, broadcastTo_a1_ab_apply,
    sitofp_apply, e n]
  simp only [e]

/-- A point's value `k` (the first or the second) less the voxel centre: the coordinate `kc` read as a number, times
    the voxel size `wA`, plus the offset `wB`. -/
theorem centre_stage (v : FVec Ideal ⟨3, ![80, 100, 4]⟩ .f32) (co : IVec ⟨2, ![80, 4]⟩ 32) (o oc : ℕ) (wA wB : BitVec 32)
    (hs : (⟨3, ![80, 100, 4]⟩ : Shape).Slices ![0, 0, o] ⟨3, ![80, 100, 1]⟩)
    (hc : (⟨3, ![80, 100, 1]⟩ : Shape).ShapeCasts ⟨2, ![80, 100]⟩)
    (hs' : (⟨2, ![80, 4]⟩ : Shape).Slices ![0, oc] ⟨2, ![80, 1]⟩)
    (hb : (⟨2, ![80, 1]⟩ : Shape).Broadcasts ⟨2, ![80, 100]⟩)
    (p : Fin 80) (n : Fin 100) (k : Fin 4) (hk : k.val = o) (kc : Fin 4) (hkc : kc.val = oc) :
    subf (shapeCast ⟨2, ![80, 100]⟩ (extractStridedSlice ⟨3, ![80, 100, 1]⟩ ![0, 0, o] v hs) hc)
      (broadcastTo ⟨2, ![80, 100]⟩
        (addf (mulf (sitofp .f32 (extractStridedSlice ⟨2, ![80, 1]⟩ ![0, oc] co hs'))
            (broadcast ⟨2, ![80, 1]⟩ (Scalar.ofBits (F := Ideal) .f32 wA)))
          (broadcast ⟨2, ![80, 1]⟩ (Scalar.ofBits (F := Ideal) .f32 wB))) hb) (ix2 p n)
      = v (ix3 p n k) - (FloatOps.sitofp (F := Ideal) .f32 (co (ix2 p kc)) * Ideal.ofBits .f32 wA + Ideal.ofBits .f32 wB) := by
  rw [subf_apply, shapeCast_ab1_ab_apply, broadcastTo_a1_ab_apply, addf_apply, mulf_apply, sitofp_apply, broadcast_apply,
    broadcast_apply, slice3_axis2_apply o v hs p n 0 k (by rw [hk]; rfl), slice2_axis1_apply oc co hs' p 0 kc (by rw [hkc]; rfl)]
  rfl

/-- The 0/1 mask of a point: its index, as a 32-bit word, below the pillar's count. -/
theorem mask_stage (cnt : IVec ⟨2, ![80, 1]⟩ 32) (hi : (⟨2, ![80, 100]⟩ : Shape).Iotas .tc 32 [1])
    (hb : (⟨2, ![80, 1]⟩ : Shape).Broadcasts ⟨2, ![80, 100]⟩) (hlt : 1 < 32) (p : Fin 80) (n : Fin 100) :
    (sitofp .f32 (extui 32 (cmpi .slt (iota .tc ⟨2, ![80, 100]⟩ 32 [1] hi) (broadcastTo ⟨2, ![80, 100]⟩ cnt hb)) hlt)
        : FVec Ideal ⟨2, ![80, 100]⟩ .f32) (ix2 p n)
      = maskP (cnt (ix2 p 0)) n := by
  rw [sitofp_apply, extui_apply]
  show FloatOps.sitofp (F := Ideal) .f32
      ((IntOp.cmpi .slt (iota .tc ⟨2, ![80, 100]⟩ 32 [1] hi (ix2 p n)) (broadcastTo ⟨2, ![80, 100]⟩ cnt hb (ix2 p n))).setWidth 32) = _
  rw [iota_axis1_apply, broadcastTo_a1_ab_apply, mask_word]
  rfl

/-- The nine masked features at `(p, n, i)` from the block's parts read at pillar `p`, point `n`: the values `V`, the
    offsets from the mean `M`, the two offsets from the voxel centre `C7`, `C8`, and the mask `K`. -/
theorem feat_assemble (f : Fin 100 → Fin 4 → EReal) (np : BitVec 32) (co : Fin 4 → BitVec 32)
    (V : FVec Ideal ⟨3, ![80, 100, 4]⟩ .f32) (M : FVec Ideal ⟨3, ![80, 100, 3]⟩ .f32)
    (C7 C8 K : FVec Ideal ⟨2, ![80, 100]⟩ .f32)
    (hc1 hc2 hc3 : (⟨2, ![80, 100]⟩ : Shape).ShapeCasts ⟨3, ![80, 100, 1]⟩)
    (hcat2 : Shape.Concatenates [(⟨3, ![80, 100, 1]⟩ : Shape), ⟨3, ![80, 100, 1]⟩] ⟨3, ![80, 100, 2]⟩ 2)
    (hcat3 : Shape.Concatenates [(⟨3, ![80, 100, 4]⟩ : Shape), ⟨3, ![80, 100, 3]⟩, ⟨3, ![80, 100, 2]⟩] ⟨3, ![80, 100, 9]⟩ 2)
    (hb9 : (⟨3, ![80, 100, 1]⟩ : Shape).Broadcasts ⟨3, ![80, 100, 9]⟩)
    (p : Fin 80) (n : Fin 100) (i : Fin 9)
    (hV : ∀ k : Fin 4, V (ix3 p n k) = f n k)
    (hM : ∀ k : Fin 3, M (ix3 p n k) = f n ⟨k.val, by omega⟩ - pmean f np ⟨k.val, by omega⟩)
    (h7 : C7 (ix2 p n) = f n 0 - (ofInt (co 3) * c016 + c008))
    (h8 : C8 (ix2 p n) = f n 1 - (ofInt (co 2) * c016 + cm396))
    (hK : K (ix2 p n) = maskP np n) :
    mulf (concatenate ⟨3, ![80, 100, 9]⟩ 2
        [⟨⟨3, ![80, 100, 4]⟩, V⟩, ⟨⟨3, ![80, 100, 3]⟩, M⟩,
          ⟨⟨3, ![80, 100, 2]⟩, concatenate ⟨3, ![80, 100, 2]⟩ 2
            [⟨⟨3, ![80, 100, 1]⟩, shapeCast ⟨3, ![80, 100, 1]⟩ C7 hc1⟩, ⟨⟨3, ![80, 100, 1]⟩, shapeCast ⟨3, ![80, 100, 1]⟩ C8 hc2⟩] hcat2⟩] hcat3)
      (broadcastTo ⟨3, ![80, 100, 9]⟩ (shapeCast ⟨3, ![80, 100, 1]⟩ K hc3) hb9) (ix3 p n i) = featP f np co n i := by
  rw [mulf_apply, broadcastTo_ab1_abc_apply, shapeCast_ab_ab1_apply, hK]
  unfold featP
  refine congrArg (· * maskP np n) ?_
  unfold rawP
  by_cases h4 : i.val < 4
  · rw [dif_pos h4]
    exact (cat3_fst V M _ hcat3 p n i ⟨i.val, h4⟩ rfl).trans (hV _)
  · rw [dif_neg h4]
    by_cases h7' : i.val < 7
    · rw [dif_pos h7']
      exact (cat3_snd V M _ hcat3 p n i ⟨i.val - 4, by omega⟩ (by show 4 + (i.val - 4) = i.val; omega)).trans (hM _)
    · rw [dif_neg h7']
      by_cases h7e : i.val = 7
      · rw [if_pos h7e]
        refine (cat3_trd V M _ hcat3 p n i (0 : Fin 2) (by show 4 + 3 + 0 = i.val; omega)).trans ?_
        refine (cat2_fst _ _ hcat2 p n (0 : Fin 2) (0 : Fin 1) rfl).trans ?_
        rw [shapeCast_ab_ab1_apply]
        exact h7
      · rw [if_neg h7e]
        refine (cat3_trd V M _ hcat3 p n i (1 : Fin 2) (by show 4 + 3 + 1 = i.val; omega)).trans ?_
        refine (cat2_snd _ _ hcat2 p n (1 : Fin 2) (0 : Fin 1) rfl).trans ?_
        rw [shapeCast_ab_ab1_apply]
        exact h8

end Stages

end Cert.FeatLib

end
-- ==== Proof.KFeat0.lean ====
/-
  The first kernel body's nine masked features of every point of a block, read at an index.
-/
import proofs.«164556_j22273700397341_1_alg».proof.Proof.KFeat
import proofs.«164556_j22273700397341_1_alg».proof.Proof.KFeatLib
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.ValueIdx Cert.KernelIdeal Cert.KernelIdeal.Gen Cert.KernelIdeal.Hand Cert.Spec

/-- The first body's masked features are the pillar mathematics' features. -/
theorem feats0_apply (x1 : Vec Ideal S80x100x4 .f32) (x2 : Vec Ideal S80x1 .i32) (x3 : Vec Ideal S80x4 .i32)
    (p : Fin 80) (n : Fin 100) (i : Fin 9) :
    feats0 (F := Ideal) x1 x2 x3 (ix3 p n i) = featP (pillarF x1 p) (pillarN x2 p) (pillarC x3 p) n i := by
  -- the count column passes through a cast to its own shape
  have e3 : k0_pay3 (F := Ideal) x2 = x2 := shapeCast_self x2 _
  unfold feats0 k0_pay6 k0_pay4 k0_pay5
  rw [e3]
  refine Cert.FeatLib.feat_assemble (pillarF x1 p) (pillarN x2 p) (pillarC x3 p) _ _ _ _ _ _ _ _ _ _ _ p n i ?_ ?_ ?_ ?_ ?_
  · intro k; rfl
  · intro k; exact Cert.FeatLib.mean_stage x1 x2 _ _ _ _ _ _ _ p n k ⟨k.val, by omega⟩ rfl
  · exact Cert.FeatLib.centre_stage x1 x3 0 3 _ _ _ _ _ _ p n 0 rfl 3 rfl
  · exact Cert.FeatLib.centre_stage x1 x3 1 2 _ _ _ _ _ _ p n 1 rfl 2 rfl
  · exact Cert.FeatLib.mask_stage x2 _ _ _ p n

end Cert.KernelIdeal.HandValue

end
-- ==== Proof.KVal0.lean ====
/-
  The first kernel body's values at an index: the linear layer as nine products accumulated from zero is the sum over
  the nine features; the two accumulators add to a running row the block's sums over its 80 pillars and 100 points.
-/
import proofs.«164556_j22273700397341_1_alg».proof.Proof.KFeat0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.ValueIdx Cert.KernelIdeal Cert.KernelIdeal.Gen Cert.KernelIdeal.Hand Cert.Spec

namespace Val0

/-! ## The layout chains of one product term, read at an index -/

/-- A vector of 64 cast to [1,1,64] reads, at (u, v, o), the vector at o. -/
theorem shapeCast_a_11a_apply {α : Type} (x : S64.Idx → α) (h : S64.ShapeCasts S1x1x64) (u v : Fin 1) (o : Fin 64) :
    shapeCast S1x1x64 x h (ix3 u v o) = x (ix1 o) :=
  shapeCast_apply x h _ _ (by
    have hu : u.val = 0 := by omega
    have hv : v.val = 0 := by omega
    rw [Shape.rowMajor_val_three, Shape.rowMajor_val_one]
    show o.val = (u.val * 1 + v.val) * 64 + o.val
    omega)

/-- Row j of a [9,64] matrix, as a [1,1,64] array spread over [80,100,64]: at (p, n, o) it is the matrix at (j, o). -/
theorem rowB_apply (w : FVec Ideal S9x64 .f32) (j : Nat) (h : S9x64.Slices ![j, 0] S1x64) (k : Fin 9) (hk : k.val = j)
    (p : Fin 80) (n : Fin 100) (o : Fin 64) :
    broadcastTo S80x100x64
        (shapeCast S1x1x64 (shapeCast S64 (extractStridedSlice S1x64 ![j, 0] w h) shapeCasts_S1x64_S64) shapeCasts_S64_S1x1x64)
        broadcasts_S1x1x64_S80x100x64 (ix3 p n o) = w (ix2 k o) := by
  refine (broadcastTo_apply _ _ (ix3 p n o) (ix3 (0 : Fin 1) (0 : Fin 1) o) fun a => ?_).trans ?_
  · match a with
    | ⟨0, _⟩ => rfl
    | ⟨1, _⟩ => rfl
    | ⟨2, _⟩ => rfl
  refine (shapeCast_a_11a_apply _ _ 0 0 o).trans ?_
  refine (shapeCast_1a_a_apply _ _ o).trans ?_
  exact slice2_axis0_apply j w h (0 : Fin 1) o k (by rw [hk]; rfl)

/-- Column j of the last axis of a [80,100,9] array, spread over [80,100,64]: at (p, n, o) it is the array at (p, n, j). -/
theorem colB_apply (v : FVec Ideal S80x100x9 .f32) (j : Nat) (h : S80x100x9.Slices ![0, 0, j] S80x100x1) (k : Fin 9) (hk : k.val = j)
    (p : Fin 80) (n : Fin 100) (o : Fin 64) :
    broadcastTo S80x100x64 (extractStridedSlice S80x100x1 ![0, 0, j] v h) broadcasts_S80x100x1_S80x100x64 (ix3 p n o)
      = v (ix3 p n k) := by
  refine (broadcastTo_apply _ _ (ix3 p n o) (ix3 p n (0 : Fin 1)) fun a => ?_).trans ?_
  · match a with
    | ⟨0, _⟩ => rfl
    | ⟨1, _⟩ => rfl
    | ⟨2, _⟩ => rfl
  refine extractStridedSlice_apply _ v h _ _ fun a => ?_
  match a with
  | ⟨0, _⟩ => exact (Nat.zero_add _).symm
  | ⟨1, _⟩ => exact (Nat.zero_add _).symm
  | ⟨2, _⟩ => exact hk

/-! ## The linear layer -/

/-- The same-shape cast of the weight is the weight. -/
theorem pay7_eq (x4 : Vec Ideal S9x64 .f32) : k0_pay7 (F := Ideal) x4 = x4 := shapeCast_self _ _

/-- A [1,1,64] array spread over [80,100,64] reads its one row. -/
theorem bcast11_apply (r : FVec Ideal S1x1x64 .f32) (p : Fin 80) (n : Fin 100) (o : Fin 64) :
    broadcastTo S80x100x64 r broadcasts_S1x1x64_S80x100x64 (ix3 p n o) = r (ix3 (0 : Fin 1) (0 : Fin 1) o) := by
  refine broadcastTo_apply _ _ (ix3 p n o) (ix3 (0 : Fin 1) (0 : Fin 1) o) fun a => ?_
  match a with
  | ⟨0, _⟩ => rfl
  | ⟨1, _⟩ => rfl
  | ⟨2, _⟩ => rfl

/-- The seventh weight row as a [1,1,64] array. -/
theorem pay9_apply (x4 : Vec Ideal S9x64 .f32) (u v : Fin 1) (o : Fin 64) :
    k0_pay9 (F := Ideal) x4 (ix3 u v o) = x4 (ix2 (6 : Fin 9) o) := by
  unfold k0_pay9
  rw [pay7_eq]
  refine (shapeCast_a_11a_apply _ _ u v o).trans ?_
  refine (shapeCast_1a_a_apply _ _ o).trans ?_
  exact slice2_axis0_apply 6 x4 _ (0 : Fin 1) o (6 : Fin 9) rfl

/-- The first six products accumulated from zero, over any features. -/
theorem pay8_apply (v38 : FVec Ideal S80x100x9 .f32) (v43 : FVec Ideal S80x100 .f32) (x4 : Vec Ideal S9x64 .f32)
    (p : Fin 80) (n : Fin 100) (o : Fin 64) :
    k0_pay8 v38 v43 x4 (ix3 p n o)
      = 0 + k0_pay6 v38 v43 (ix3 p n (0 : Fin 9)) * x4 (ix2 (0 : Fin 9) o)
          + k0_pay6 v38 v43 (ix3 p n (1 : Fin 9)) * x4 (ix2 (1 : Fin 9) o)
          + k0_pay6 v38 v43 (ix3 p n (2 : Fin 9)) * x4 (ix2 (2 : Fin 9) o)
          + k0_pay6 v38 v43 (ix3 p n (3 : Fin 9)) * x4 (ix2 (3 : Fin 9) o)
          + k0_pay6 v38 v43 (ix3 p n (4 : Fin 9)) * x4 (ix2 (4 : Fin 9) o)
          + k0_pay6 v38 v43 (ix3 p n (5 : Fin 9)) * x4 (ix2 (5 : Fin 9) o) := by
  unfold k0_pay8
  rw [pay7_eq]
  simp only [addf_apply, mulf_apply, broadcast_apply]
  rw [colB_apply _ 0 _ (0 : Fin 9) rfl, rowB_apply _ 0 _ (0 : Fin 9) rfl,
    colB_apply _ 1 _ (1 : Fin 9) rfl, rowB_apply _ 1 _ (1 : Fin 9) rfl,
    colB_apply _ 2 _ (2 : Fin 9) rfl, rowB_apply _ 2 _ (2 : Fin 9) rfl,
    colB_apply _ 3 _ (3 : Fin 9) rfl, rowB_apply _ 3 _ (3 : Fin 9) rfl,
    colB_apply _ 4 _ (4 : Fin 9) rfl, rowB_apply _ 4 _ (4 : Fin 9) rfl,
    colB_apply _ 5 _ (5 : Fin 9) rfl, rowB_apply _ 5 _ (5 : Fin 9) rfl]
  rw [show (Scalar.ofBits .f32 0x00000000#32 : Ideal .f32) = 0 from Ideal.ofBits_zero_f32]

/-- The last three products added to a running value. -/
theorem pay10_apply (v46 : FVec Ideal S80x100x9 .f32) (v48 : FVec Ideal S9x64 .f32) (v97 : FVec Ideal S80x100x64 .f32)
    (v100 : FVec Ideal S1x1x64 .f32) (p : Fin 80) (n : Fin 100) (o : Fin 64) :
    k0_pay10 v46 v48 v97 v100 (ix3 p n o)
      = v97 (ix3 p n o) + v46 (ix3 p n (6 : Fin 9)) * v100 (ix3 (0 : Fin 1) (0 : Fin 1) o)
          + v46 (ix3 p n (7 : Fin 9)) * v48 (ix2 (7 : Fin 9) o)
          + v46 (ix3 p n (8 : Fin 9)) * v48 (ix2 (8 : Fin 9) o) := by
  unfold k0_pay10
  simp only [addf_apply, mulf_apply]
  rw [colB_apply _ 6 _ (6 : Fin 9) rfl, bcast11_apply,
    colB_apply _ 7 _ (7 : Fin 9) rfl, rowB_apply _ 7 _ (7 : Fin 9) rfl,
    colB_apply _ 8 _ (8 : Fin 9) rfl, rowB_apply _ 8 _ (8 : Fin 9) rfl]

/-- A sum over nine indices, written out from zero. -/
theorem sum_nine {M : Type*} [AddCommMonoid M] (f : Fin 9 → M) :
    ∑ i, f i = 0 + f 0 + f 1 + f 2 + f 3 + f 4 + f 5 + f 6 + f 7 + f 8 := by
  rw [Fin.sum_univ_castSucc, Fin.sum_univ_eight, zero_add]
  rfl

/-! ## A block's sum over pillars and points -/

/-- The sum over axis 1 then axis 0 of a [80,100,64] array, at channel `o`: the double sum over pillars and points. -/
theorem colsum_apply (X : FVec Ideal S80x100x64 .f32) (o : Fin 64) :
    multiReduction (F := Ideal) .add [0] S64
        (multiReduction .add [1] S80x64 X 0x00000000#32 reduces_S80x100x64_S80x64 (.inl rfl) rfl)
        0x00000000#32 reduces_S80x64_S64 (.inl rfl) rfl (ix1 o)
      = ∑ p : Fin 80, ∑ n : Fin 100, X (ix3 p n o) := by
  refine (Ideal.multiReduction_add_single _ 0x00000000#32 reduces_S80x64_S64 (.inl rfl) rfl (ix1 o)).trans ?_
  refine Finset.sum_congr rfl fun p _ => ?_
  refine (Ideal.multiReduction_add_single X 0x00000000#32 reduces_S80x100x64_S80x64 (.inl rfl) rfl _).trans ?_
  refine Finset.sum_congr rfl fun n _ => ?_
  refine congrArg X (funext fun a => Fin.ext ?_)
  match a with
  | ⟨0, _⟩ => rfl
  | ⟨1, _⟩ => rfl
  | ⟨2, _⟩ => rfl

end Val0

/-! ## The linear layer, the two accumulators and their starting row -/

/-- The first body's linear layer at pillar `p`, point `n`, channel `o`. -/
theorem lin0_apply (x1 : Vec Ideal S80x100x4 .f32) (x2 : Vec Ideal S80x1 .i32) (x3 : Vec Ideal S80x4 .i32) (x4 : Vec Ideal S9x64 .f32)
    (p : Fin 80) (n : Fin 100) (o : Fin 64) :
    lin0 (F := Ideal) x1 x2 x3 x4 (ix3 p n o) = linB x1 x2 x3 x4 p n o := by
  unfold lin0
  rw [Val0.pay10_apply, Val0.pay8_apply, Val0.pay9_apply, Val0.pay7_eq]
  show 0 + feats0 x1 x2 x3 (ix3 p n (0 : Fin 9)) * x4 (ix2 (0 : Fin 9) o)
      + feats0 x1 x2 x3 (ix3 p n (1 : Fin 9)) * x4 (ix2 (1 : Fin 9) o)
      + feats0 x1 x2 x3 (ix3 p n (2 : Fin 9)) * x4 (ix2 (2 : Fin 9) o)
      + feats0 x1 x2 x3 (ix3 p n (3 : Fin 9)) * x4 (ix2 (3 : Fin 9) o)
      + feats0 x1 x2 x3 (ix3 p n (4 : Fin 9)) * x4 (ix2 (4 : Fin 9) o)
      + feats0 x1 x2 x3 (ix3 p n (5 : Fin 9)) * x4 (ix2 (5 : Fin 9) o)
      + feats0 x1 x2 x3 (ix3 p n (6 : Fin 9)) * x4 (ix2 (6 : Fin 9) o)
      + feats0 x1 x2 x3 (ix3 p n (7 : Fin 9)) * x4 (ix2 (7 : Fin 9) o)
      + feats0 x1 x2 x3 (ix3 p n (8 : Fin 9)) * x4 (ix2 (8 : Fin 9) o) = _
  simp only [feats0_apply]
  unfold linB linP
  rw [Val0.sum_nine]
  rfl

/-- The sum accumulator: the running row plus the block's sum of the linear layer over pillars and points. -/
theorem accSum_apply (x1 : Vec Ideal S80x100x4 .f32) (x2 : Vec Ideal S80x1 .i32) (x3 : Vec Ideal S80x4 .i32) (x4 : Vec Ideal S9x64 .f32)
    (s : Vec Ideal S1x64 .f32) (o : Fin 64) :
    accSum (F := Ideal) x1 x2 x3 x4 s (ix2 0 o) = s (ix2 0 o) + ∑ p : Fin 80, ∑ n : Fin 100, linB x1 x2 x3 x4 p n o := by
  unfold accSum k0_pay11
  rw [shapeCast_self]
  refine (addf_apply _ _ _).trans ?_
  refine congrArg (s (ix2 0 o) + ·) ?_
  refine (shapeCast_a_1a_apply _ _ 0 o).trans ?_
  refine (Val0.colsum_apply _ o).trans ?_
  exact Finset.sum_congr rfl fun p _ => Finset.sum_congr rfl fun n _ => lin0_apply x1 x2 x3 x4 p n o

/-- The sum-of-squares accumulator. -/
theorem accSq_apply (x1 : Vec Ideal S80x100x4 .f32) (x2 : Vec Ideal S80x1 .i32) (x3 : Vec Ideal S80x4 .i32) (x4 : Vec Ideal S9x64 .f32)
    (s : Vec Ideal S1x64 .f32) (o : Fin 64) :
    accSq (F := Ideal) x1 x2 x3 x4 s (ix2 0 o) = s (ix2 0 o) + ∑ p : Fin 80, ∑ n : Fin 100, linB x1 x2 x3 x4 p n o * linB x1 x2 x3 x4 p n o := by
  unfold accSq k0_pay12
  rw [shapeCast_self]
  refine (addf_apply _ _ _).trans ?_
  refine congrArg (s (ix2 0 o) + ·) ?_
  refine (shapeCast_a_1a_apply _ _ 0 o).trans ?_
  refine (Val0.colsum_apply _ o).trans ?_
  refine Finset.sum_congr rfl fun p _ => Finset.sum_congr rfl fun n _ => ?_
  refine (mulf_apply _ _ _).trans ?_
  rw [show k0_pay10 (feats0 x1 x2 x3) (k0_pay7 x4) (k0_pay8 (k0_pay4 x1 x2 x3) (k0_pay5 x2) x4) (k0_pay9 x4) (ix3 p n o)
      = linB x1 x2 x3 x4 p n o from lin0_apply x1 x2 x3 x4 p n o]

/-- Both accumulators start from the zero row. -/
theorem zeroSum_apply (o : Fin 64) : zeroSum (F := Ideal) (ix2 0 o) = 0 := by
  unfold zeroSum k0_pay1
  rw [shapeCast_self]
  exact Ideal.ofBits_zero_f32
theorem zeroSq_apply (o : Fin 64) : zeroSq (F := Ideal) (ix2 0 o) = 0 := by
  unfold zeroSq k0_pay2
  rw [shapeCast_self]
  exact Ideal.ofBits_zero_f32

end Cert.KernelIdeal.HandValue

end
-- ==== Proof.Totals.lean ====
/-
  The grand totals: after the last of the 375 grid points region 0's two running rows hold, per channel, the sum of the
  linear layer's output over all 30000 × 100 points and the sum of its squares — the 375 blocks of 80 pillars
  regrouped as the 30000 pillars.
-/
import proofs.«164556_j22273700397341_1_alg».proof.Proof.KBlockX
import proofs.«164556_j22273700397341_1_alg».proof.Proof.KVal0
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Data.Fintype.BigOperators
import Mathlib.Logic.Equiv.Fin.Basic

set_option maxRecDepth 16384

noncomputable section

namespace Cert.KernelIdeal.HandValue

open Idealize.ShloMosaic Idealize.ShloMosaic.TcCoe Idealize.ShloMosaic.ValueIdx Cert.KernelIdeal Cert.KernelIdeal.Gen Cert.KernelIdeal.Hand Cert.Spec

/-- Regrouping: summing, over the 375 blocks, each block's sum over its 80 pillars is summing over all 30000 pillars
    (pillar p of block t is pillar 80·t + p, and (t, p) ↦ 80·t + p is a bijection onto the 30000 pillars). -/
theorem sum_blocks {M : Type*} [AddCommMonoid M] (f : Fin 30000 → M) :
    ∑ t : Fin 375, ∑ p : Fin 80, f (gp t p) = ∑ P : Fin 30000, f P := by
  rw [← Fintype.sum_prod_type']
  refine Fintype.sum_equiv (finProdFinEquiv.trans (finCongr (by norm_num : 375 * 80 = 30000))) _ _ fun x => ?_
  refine congrArg f (Fin.ext ?_)
  show 80 * x.1.val + x.2.val = x.2.val + 80 * x.1.val
  exact Nat.add_comm _ _

variable (m : (ℓ : Loc nD τ sig) → Buf (Elt Ideal) ℓ)

/-- Block t's sum of the linear layer's output over its 80 pillars and 100 points, at channel o (zero past the last
    block, so that the running sums range over plain naturals). -/
def blockSum (c : Dev nD) (o : Fin 64) (t : ℕ) : EReal :=
  if h : t < 375 then ∑ p : Fin 80, ∑ n : Fin 100, XK m c (gp ⟨t, h⟩ p) n o else 0

/-- Block t's sum of squares of the linear layer's output. -/
def blockSq (c : Dev nD) (o : Fin 64) (t : ℕ) : EReal :=
  if h : t < 375 then ∑ p : Fin 80, ∑ n : Fin 100, XK m c (gp ⟨t, h⟩ p) n o * XK m c (gp ⟨t, h⟩ p) n o else 0

/-- The running row of sums after grid point n is the sum of the block sums of blocks 0..n. -/
theorem sumAt_eq (c : Dev nD) (o : Fin 64) : ∀ (n : ℕ) (h : n < cfg0.N),
    sumAt (E1 m) c n h (ix2 0 o) = ∑ t ∈ Finset.range (n + 1), blockSum m c o t := by
  intro n
  induction n with
  | zero =>
    intro h
    have h0 : (0 : ℕ) < 375 := by norm_num
    refine (accSum_apply _ _ _ _ zeroSum o).trans ?_
    rw [zeroSum_apply, zero_add, Finset.sum_range_one, blockSum, dif_pos h0]
    exact Finset.sum_congr rfl fun p _ => Finset.sum_congr rfl fun n' _ => linB_block0 m c ⟨0, h0⟩ p n' o
  | succ n ih =>
    intro h
    have hN : cfg0.N = 375 := N_0
    have h1 : n + 1 < 375 := by omega
    refine (accSum_apply _ _ _ _ (sumAt (E1 m) c n (Nat.lt_of_succ_lt h)) o).trans ?_
    rw [ih, Finset.sum_range_succ _ (n + 1)]
    congr 1
    rw [blockSum, dif_pos h1]
    exact Finset.sum_congr rfl fun p _ => Finset.sum_congr rfl fun n' _ => linB_block0 m c ⟨n + 1, h1⟩ p n' o

/-- The running row of sums of squares after grid point n is the sum of the block sums of squares of blocks 0..n. -/
theorem sqAt_eq (c : Dev nD) (o : Fin 64) : ∀ (n : ℕ) (h : n < cfg0.N),
    sqAt (E1 m) c n h (ix2 0 o) = ∑ t ∈ Finset.range (n + 1), blockSq m c o t := by
  intro n
  induction n with
  | zero =>
    intro h
    have h0 : (0 : ℕ) < 375 := by norm_num
    refine (accSq_apply _ _ _ _ zeroSq o).trans ?_
    rw [zeroSq_apply, zero_add, Finset.sum_range_one, blockSq, dif_pos h0]
    refine Finset.sum_congr rfl fun p _ => Finset.sum_congr rfl fun n' _ => ?_
    have e := linB_block0 m c ⟨0, h0⟩ p n' o
    exact congrArg₂ (· * ·) e e
  | succ n ih =>
    intro h
    have hN : cfg0.N = 375 := N_0
    have h1 : n + 1 < 375 := by omega
    refine (accSq_apply _ _ _ _ (sqAt (E1 m) c n (Nat.lt_of_succ_lt h)) o).trans ?_
    rw [ih, Finset.sum_range_succ _ (n + 1)]
    congr 1
    rw [blockSq, dif_pos h1]
    refine Finset.sum_congr rfl fun p _ => Finset.sum_congr rfl fun n' _ => ?_
    have e := linB_block0 m c ⟨n + 1, h1⟩ p n' o
    exact congrArg₂ (· * ·) e e

theorem sum_total (c : Dev nD) (o : Fin 64) :
    sumAt (E1 m) c 374 (by have : cfg0.N = 375 := N_0; omega) (ix2 0 o) = sumX (XK m c) o := by
  refine (sumAt_eq m c o 374 _).trans ?_
  show ∑ t ∈ Finset.range 375, blockSum m c o t = ∑ P : Fin 30000, ∑ n : Fin 100, XK m c P n o
  rw [← sum_blocks (fun P => ∑ n : Fin 100, XK m c P n o), Finset.sum_range]
  refine Finset.sum_congr rfl fun t _ => ?_
  rw [blockSum, dif_pos t.isLt]

theorem sq_total (c : Dev nD) (o : Fin 64) :
    sqAt (E1 m) c 374 (by have : cfg0.N = 375 := N_0; omega) (ix2 0 o) = sumSq (XK m c) o := by
  refine (sqAt_eq m c o 374 _).trans ?_
  show ∑ t ∈ Finset.range 375, blockSq m c o t = ∑ P : Fin 30000, ∑ n : Fin 100, XK m c P n o * XK m c P n o
  rw [← sum_blocks (fun P => ∑ n : Fin 100, XK m c P n o * XK m c P n o), Finset.sum_range]
  refine Finset.sum_congr rfl fun t _ => ?_
  rw [blockSq, dif_pos t.isLt]

end Cert.KernelIdeal.HandValue

end
-- ==== Proof.KFeat1.lean ====
/-
  The second kernel body's nine masked features of every point of a block, read at an index.
-/
import proofs.«164556_j22273700397341_1_alg».proof.Proof.KFeat
import proofs.«164556_j22273700397341_1_alg».proof.Proof.KFeatLib
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.ValueIdx Cert.KernelIdeal Cert.KernelIdeal.Gen Cert.KernelIdeal.Hand Cert.Spec

/-- The second body's masked features are the same. -/
theorem feats1_apply (x1 : Vec Ideal S80x100x4 .f32) (x2 : Vec Ideal S80x1 .i32) (x3 : Vec Ideal S80x4 .i32)
    (p : Fin 80) (n : Fin 100) (i : Fin 9) :
    k1_pay2 (F := Ideal) x1 x2 x3 (ix3 p n i) = featP (pillarF x1 p) (pillarN x2 p) (pillarC x3 p) n i := by
  unfold k1_pay2
  -- the count column passes through a cast to its own shape
  rw [shapeCast_self x2 shapeCasts_S80x1_S80x1]
  refine Cert.FeatLib.feat_assemble (pillarF x1 p) (pillarN x2 p) (pillarC x3 p) _ _ _ _ _ _ _ _ _ _ _ p n i ?_ ?_ ?_ ?_ ?_
  · intro k; rfl
  · intro k; exact Cert.FeatLib.mean_stage x1 x2 _ _ _ _ _ _ _ p n k ⟨k.val, by omega⟩ rfl
  · exact Cert.FeatLib.centre_stage x1 x3 0 3 _ _ _ _ _ _ p n 0 rfl 3 rfl
  · exact Cert.FeatLib.centre_stage x1 x3 1 2 _ _ _ _ _ _ p n 1 rfl 2 rfl
  · exact Cert.FeatLib.mask_stage x2 _ _ _ p n

end Cert.KernelIdeal.HandValue

end
-- ==== Proof.KVal1.lean ====
/-
  The second kernel body's value at an index: at pillar `p` of the block and channel `o`, the pillar's 100 linear
  outputs normalised by the mean and variance rows, scaled by gamma, shifted by beta, clamped at zero and maximised.
-/
import proofs.«164556_j22273700397341_1_alg».proof.Proof.KFeat1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.ValueIdx Cert.KernelIdeal Cert.KernelIdeal.Gen Cert.KernelIdeal.Hand Cert.Spec

/-! ## Layout operations of the two bodies read at an index given by coordinates -/

section Layout
variable {α : Type}

/-- An `[a, b, 1]` array broadcast to `[a, b, c]` reads, at `(p, n, o)`, the operand at `(p, n, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (n : Fin b) (o : Fin c) :
    broadcastTo ⟨3, ![a, b, c]⟩ v h (ix3 p n o) = v (ix3 p n (0 : Fin 1)) := by
  refine broadcastTo_apply v h (ix3 p n o) (ix3 p n (0 : Fin 1)) fun ax => ?_
  match ax with
  | ⟨0, _⟩ =>
    show p.val = if a = 1 then 0 else p.val
    split
    · have := p.isLt; omega
    · rfl
  | ⟨1, _⟩ =>
    show n.val = if b = 1 then 0 else n.val
    split
    · have := n.isLt; omega
    · rfl
  | ⟨2, _⟩ => rfl

/-- A `[1, 1, c]` array broadcast to `[a, b, c]` reads, at `(p, n, o)`, the operand at `(0, 0, o)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (n : Fin b) (o : Fin c) :
    broadcastTo ⟨3, ![a, b, c]⟩ v h (ix3 p n o) = v (ix3 (0 : Fin 1) (0 : Fin 1) o) := by
  refine broadcastTo_apply v h (ix3 p n o) (ix3 (0 : Fin 1) (0 : Fin 1) o) fun ax => ?_
  match ax with
  | ⟨0, _⟩ => rfl
  | ⟨1, _⟩ => rfl
  | ⟨2, _⟩ =>
    show o.val = if c = 1 then 0 else o.val
    split
    · have := o.isLt; omega
    · rfl

/-- A rank-3 array cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- A `[c]` array cast to `[1, 1, c]` reads, at `(u, v, i)`, the operand at `i`. -/
theorem shapeCast_a_11a_apply {c : ℕ} (x : (⟨1, ![c]⟩ : Shape).Idx → α) (h : (⟨1, ![c]⟩ : Shape).ShapeCasts ⟨3, ![1, 1, c]⟩)
    (u v : Fin 1) (i : Fin c) : shapeCast ⟨3, ![1, 1, c]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * c + i.val
    rw [hu, hv]; omega)

/-- A `[1, c]` row cast to `[c]`, then to `[1, 1, c]`, then broadcast to `[a, b, c]` reads, at `(p, n, o)`, the row at `o`. -/
theorem row_cast_bc_apply {a b c : ℕ} (w : (⟨2, ![1, c]⟩ : Shape).Idx → α)
    (h1 : (⟨2, ![1, c]⟩ : Shape).ShapeCasts ⟨1, ![c]⟩) (h2 : (⟨1, ![c]⟩ : Shape).ShapeCasts ⟨3, ![1, 1, c]⟩)
    (h3 : (⟨3, ![1, 1, c]⟩ : Shape).Broadcasts ⟨3, ![a, b, c]⟩) (p : Fin a) (n : Fin b) (o : Fin c) :
    broadcastTo ⟨3, ![a, b, c]⟩ (shapeCast ⟨3, ![1, 1, c]⟩ (shapeCast ⟨1, ![c]⟩ w h1) h2) h3 (ix3 p n o) = w (ix2 (0 : Fin 1) o) :=
  (broadcastTo_11c_abc_apply _ h3 p n o).trans ((shapeCast_a_11a_apply _ h2 0 0 o).trans (shapeCast_1a_a_apply w h1 o))

/-- A `[1, c]` row cast to `[1, 1, c]` reads, at `(0, 0, o)`, the row at `o`. -/
theorem row_cast_apply {c : ℕ} (w : (⟨2, ![1, c]⟩ : Shape).Idx → α)
    (h : (⟨2, ![1, c]⟩ : Shape).ShapeCasts ⟨3, ![1, 1, c]⟩) (o : Fin c) :
    shapeCast ⟨3, ![1, 1, c]⟩ w h (ix3 (0 : Fin 1) (0 : Fin 1) o) = w (ix2 (0 : Fin 1) o) :=
  shapeCast_ab_1ab_apply w h 0 0 o

end Layout

/-! ## The linear layer -/

/-- Row `k` of the weight operand, cut out as a `[1, 64]` row, read at channel `o`. -/
theorem wrow_apply (v44 : Vec Ideal S9x64 .f32) (j : Nat) (hs : S9x64.Slices ![j, 0] S1x64) (k : Fin 9) (hk : k.val = j)
    (o : Fin 64) : extractStridedSlice S1x64 ![j, 0] (k1_pay3 v44) hs (ix2 0 o) = v44 (ix2 k o) :=
  (slice2_axis0_apply j (k1_pay3 v44) hs 0 o k (by rw [hk]; rfl)).trans (congrFun (shapeCast_self v44 _) (ix2 k o))

/-- One product of the linear layer: feature `k` of the point, broadcast over the channels, times a weight row, broadcast
    over the pillars and points. -/
theorem term_apply (v43 : FVec Ideal S80x100x9 .f32) (w : FVec Ideal S1x64 .f32) (j : Nat)
    (hs : S80x100x9.Slices ![0, 0, j] S80x100x1) (hb : S80x100x1.Broadcasts S80x100x64)
    (h1 : S1x64.ShapeCasts S64) (h2 : S64.ShapeCasts S1x1x64) (h3 : S1x1x64.Broadcasts S80x100x64)
    (k : Fin 9) (hk : k.val = j) (p : Fin 80) (n : Fin 100) (o : Fin 64) :
    mulf (broadcastTo S80x100x64 (extractStridedSlice S80x100x1 ![0, 0, j] v43 hs) hb)
        (broadcastTo S80x100x64 (shapeCast S1x1x64 (shapeCast S64 w h1) h2) h3) (ix3 p n o)
      = v43 (ix3 p n k) * w (ix2 0 o) :=
  congrArg₂ (· * ·)
    ((broadcastTo_ab1_abc_apply _ hb p n o).trans (slice3_axis2_apply j v43 hs p n 0 k (by rw [hk]; rfl)))
    (row_cast_bc_apply w h1 h2 h3 p n o)

/-- The first seven products, accumulated from the zero literal. -/
theorem lin7_apply (v43 : FVec Ideal S80x100x9 .f32) (v44 : Vec Ideal S9x64 .f32) (p : Fin 80) (n : Fin 100) (o : Fin 64) :
    k1_pay4 v43 v44 (ix3 p n o)
      = v43 (ix3 p n 0) * v44 (ix2 0 o) + v43 (ix3 p n 1) * v44 (ix2 1 o) + v43 (ix3 p n 2) * v44 (ix2 2 o)
        + v43 (ix3 p n 3) * v44 (ix2 3 o) + v43 (ix3 p n 4) * v44 (ix2 4 o) + v43 (ix3 p n 5) * v44 (ix2 5 o)
        + v43 (ix3 p n 6) * v44 (ix2 6 o) := by
  unfold k1_pay4
  simp only [addf_apply, broadcast_apply]
  rw [term_apply v43 _ 0 _ _ _ _ _ 0 rfl, term_apply v43 _ 1 _ _ _ _ _ 1 rfl, term_apply v43 _ 2 _ _ _ _ _ 2 rfl,
    term_apply v43 _ 3 _ _ _ _ _ 3 rfl, term_apply v43 _ 4 _ _ _ _ _ 4 rfl, term_apply v43 _ 5 _ _ _ _ _ 5 rfl,
    term_apply v43 _ 6 _ _ _ _ _ 6 rfl]
  rw [wrow_apply v44 0 _ 0 rfl, wrow_apply v44 1 _ 1 rfl, wrow_apply v44 2 _ 2 rfl, wrow_apply v44 3 _ 3 rfl,
    wrow_apply v44 4 _ 4 rfl, wrow_apply v44 5 _ 5 rfl, wrow_apply v44 6 _ 6 rfl]
  show Ideal.ofBits .f32 0x00000000#32 + _ + _ + _ + _ + _ + _ + _ = _
  rw [Ideal.ofBits_zero_f32, zero_add]

/-! ## The second body's result -/

/-- The source index of the maximum over the points: pillar `p`, channel `o`, with point `n` inserted. -/
theorem lift_ix (h : S80x100x64.Reduces [1] S80x64) (p : Fin 80) (o : Fin 64) (n : Fin 100) :
    h.lift (ix2 p o) n = ix3 p n o := by
  funext c
  apply Fin.ext
  match c with
  | ⟨0, _⟩ => rfl
  | ⟨1, _⟩ => rfl
  | ⟨2, _⟩ => rfl

/-- A reciprocal square root at an index is the extended reals' one of the element. -/
theorem rsqrt_apply {s : Shape} {φ : FTy} (v : FVec Ideal s φ) (i : s.Idx) : rsqrt v i = Ideal.rsqrt (v i) := rfl

/-- The maximum over the 100 points of a `[80, 100, 64]` block from the word of -∞, read at pillar `p` and channel `o`:
    the fold of `max` over the points. -/
theorem max_points_apply (src : FVec Ideal S80x100x64 .f32) (h : S80x100x64.Reduces [1] S80x64) (hφ : FKind.Formats .f32)
    (hacc : (0xFF800000#32 : BitVec 32) = 0xFF800000#32) (p : Fin 80) (o : Fin 64) :
    multiReduction .maximumf [1] S80x64 src 0xFF800000#32 h hφ hacc (ix2 p o)
      = (Finset.univ : Finset (Fin 100)).fold max ninf (fun n => src (ix3 p n o)) := by
  refine (Ideal.multiReduction_maximumf_single src 0xFF800000#32 h hφ hacc (ix2 p o)).trans ?_
  refine Finset.fold_congr (fun n _ => ?_)
  exact congrArg src (lift_ix h p o n)

/-- The second body's result over any feature block `v43`, weight `v45`, partial sum `v102` and weight row `v103`: at
    pillar `p` and channel `o`, the maximum over the points of the partial sum plus the last two products, normalised,
    scaled, shifted and clamped. -/
theorem pay1_apply (v43 : FVec Ideal S80x100x9 .f32) (v45 : FVec Ideal S9x64 .f32) (v102 : FVec Ideal S80x100x64 .f32)
    (v103 : FVec Ideal S1x64 .f32) (x5 x6 x7 x8 : Vec Ideal S1x64 .f32) (p : Fin 80) (o : Fin 64) :
    k1_pay1 v43 v45 v102 v103 x5 x6 x7 x8 (ix2 p o)
      = normP (fun n => v102 (ix3 p n o) + v43 (ix3 p n 7) * v103 (ix2 0 o) + v43 (ix3 p n 8) * v45 (ix2 8 o))
          (x5 (ix2 0 o)) (x6 (ix2 0 o)) (x7 (ix2 0 o)) (x8 (ix2 0 o)) := by
  unfold k1_pay1
  refine (max_points_apply _ _ _ _ p o).trans ?_
  unfold normP
  refine Finset.fold_congr (fun n _ => ?_)
  simp only [maximumf_apply, addf_apply, mulf_apply, subf_apply, broadcast_apply, rsqrt_apply,
    broadcastTo_11c_abc_apply, broadcastTo_ab1_abc_apply, shapeCast_a_11a_apply, shapeCast_1a_a_apply,
    shapeCast_ab_1ab_apply, shapeCast_self]
  rw [slice3_axis2_apply 7 v43 _ p n 0 7 rfl, slice3_axis2_apply 8 v43 _ p n 0 8 rfl,
    slice2_axis0_apply 8 v45 _ 0 o 8 rfl]
  rfl

theorem normMax_apply (x1 : Vec Ideal S80x100x4 .f32) (x2 : Vec Ideal S80x1 .i32) (x3 : Vec Ideal S80x4 .i32) (x4 : Vec Ideal S9x64 .f32)
    (x5 x6 x7 x8 : Vec Ideal S1x64 .f32) (p : Fin 80) (o : Fin 64) :
    normMax (F := Ideal) x1 x2 x3 x4 x5 x6 x7 x8 (ix2 p o)
      = normP (fun n => linB x1 x2 x3 x4 p n o) (x5 (ix2 0 o)) (x6 (ix2 0 o)) (x7 (ix2 0 o)) (x8 (ix2 0 o)) := by
  unfold normMax
  rw [pay1_apply]
  refine congrArg (fun X => normP X (x5 (ix2 0 o)) (x6 (ix2 0 o)) (x7 (ix2 0 o)) (x8 (ix2 0 o))) (funext fun n => ?_)
  show k1_pay4 (k1_pay2 x1 x2 x3) x4 (ix3 p n o) + k1_pay2 x1 x2 x3 (ix3 p n 7) * k1_pay5 x4 (ix2 0 o)
      + k1_pay2 x1 x2 x3 (ix3 p n 8) * k1_pay3 x4 (ix2 8 o) = linB x1 x2 x3 x4 p n o
  rw [lin7_apply, show k1_pay5 x4 (ix2 0 o) = x4 (ix2 7 o) from wrow_apply x4 7 Facts₀.slices_S9x64_o7_0_S1x64 7 rfl o,
    show k1_pay3 x4 (ix2 8 o) = x4 (ix2 8 o) from congrFun (shapeCast_self x4 _) (ix2 8 o)]
  simp only [feats1_apply]
  unfold linB linP weightT
  rw [Fin.sum_univ_castSucc, Fin.sum_univ_eight]
  rfl

end Cert.KernelIdeal.HandValue

end
-- ==== Proof.Finite.lean ====
/-
  From the precondition "every float input is finite" to: every entry of the points array and of the weight is a real
  number.
-/
import proofs.«164556_j22273700397341_1_alg».proof.Defs
import proofs.«164556_j22273700397341_1_alg».proof.Proof.Gen.Pre_finite_inputs
import proofs.«164556_j22273700397341_1_alg».proof.Proof.KArgs
import Idealize.ShloMosaic.Lib.ReduceAll
import Idealize.ShloMosaic.Lib.ValueIdx

set_option maxRecDepth 16384

noncomputable section

namespace Cert.KernelIdeal.HandValue

open Idealize.ShloMosaic Idealize.ShloMosaic.TcCoe Idealize.ShloMosaic.ValueIdx Cert.KernelIdeal Cert.KernelIdeal.Hand Cert.Spec

/-- The bit pattern `0x7F800000` denotes `+∞`. -/
theorem inf_pattern : Ideal.ofBits .f32 0x7F800000#32 = (⊤ : EReal) := by
  simp [Ideal.ofBits, Ideal.ieee]

/-- An extended real whose absolute value `max x (-x)` lies strictly below `+∞` is a real number: at `⊥` and at `⊤`
    the absolute value is `⊤`. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  change Ideal.cmp .olt (max x (-x)) (Ideal.ofBits .f32 0x7F800000#32) = 1#1 at h
  rw [inf_pattern] at h
  induction x using EReal.rec with
  | bot => exfalso; revert h; simp [Ideal.cmp]
  | coe r => exact ⟨r, rfl⟩
  | top => exfalso; revert h; simp [Ideal.cmp]

/-- The rank-zero shape has one index. -/
instance : Subsingleton Cert.Pre_finite_inputs.S_.Idx := ⟨fun a b => funext fun d => d.elim0⟩

theorem finite_of_pre [hPre : Cert.Pre_finite_inputs.Facts] (m : (ℓ : Loc nD τ sig) → Buf (Elt Ideal) ℓ)
    (h : Cert.Pre_KernelIdeal m) (c : Dev nD) :
    (∀ i : S30000x100x4.Idx, ∃ r : ℝ, a0 m c i = (r : EReal)) ∧ (∀ i : S64x9.Idx, ∃ r : ℝ, a3 m c i = (r : EReal)) := by
  have h0 := congrFun (h c) ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_⟩
  · exact real_of_abs_lt_inf _ (Host.reduce_andi_all _ _ _ _ _ h1 i)
  · exact real_of_abs_lt_inf _ (Host.reduce_andi_all _ _ _ _ _ h2 i)

end Cert.KernelIdeal.HandValue

end
-- ==== Proof.SpecLaws.lean ====
/-
  Two facts about the pillar mathematics: the linear layer's output is a real number when the pillar's values and the
  weights are, whatever the integer inputs; and the two spellings of the variance agree on real entries.
-/
import proofs.«164556_j22273700397341_1_alg».proof.Proof.Spec
import Mathlib.Tactic.Ring
import Mathlib.Tactic.FieldSimp
import Mathlib.Tactic.Linarith
import Mathlib.Tactic.NormNum

noncomputable section

namespace Cert.Spec

open Idealize.ShloMosaic

/-! ## Extended reals that are real numbers -/

/-- `x` is (the coercion of) a real number. -/
def IsR (x : EReal) : Prop := ∃ r : ℝ, x = (r : EReal)

theorem IsR.zero : IsR 0 := ⟨0, rfl⟩
theorem IsR.one : IsR 1 := ⟨1, rfl⟩
theorem IsR.coe (r : ℝ) : IsR (r : EReal) := ⟨r, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The coercion of a finite sum of reals is the sum of the coercions. -/
theorem sum_coe {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsR.sum {ι : Type*} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))

/-- A quotient of a real by a nonzero real is a real. -/
theorem IsR.div {x : EReal} (hx : IsR x) {y : ℝ} (hy : y ≠ 0) : IsR (Ideal.div x (y : EReal)) := by
  rw [Ideal.div_coe hy]; exact hx.mul (IsR.coe _)

/-! ## The literals -/

/-- A pattern whose exponent field is not all ones denotes a real number. -/
theorem ieee_isR (e m : Nat) {w : Nat} (b : BitVec w) (h : (b.extractLsb' m e).toNat ≠ 2 ^ e - 1) :
    IsR (Ideal.ieee e m b) := by
  unfold Ideal.ieee
  dsimp only
  rw [if_neg h]
  split_ifs <;> exact ⟨_, rfl⟩

theorem c016_isR : IsR c016 := ieee_isR 8 23 (0x3E23D70A#32) (by decide)
theorem c008_isR : IsR c008 := ieee_isR 8 23 (0x3DA3D70A#32) (by decide)
theorem cm396_isR : IsR cm396 := ieee_isR 8 23 (0xC21E6666#32) (by decide)

/-- The literal `cN` is 3·10⁶: exponent field 148, significand 2²³ + 3611392 = 12·10⁶, scaled by 2⁻². -/
theorem cN_eq : cN = ((3000000 : ℝ) : EReal) := by
  unfold cN
  simp [Ideal.ofBits, Ideal.ieee, -EReal.coe_mul]; norm_num

theorem ofInt_eq (b : BitVec 32) : ofInt b = ((b.toInt : ℝ) : EReal) := rfl

section All

variable (X : Fin 30000 → Fin 100 → Fin 64 → EReal)

/-- Over the reals, on a doubly indexed family with N entries: the mean of squared deviations is the mean of
    squares less the squared mean. Σ(x−μ)² = Σx² − 2μΣx + Nμ² with μ = Σx/N. -/
theorem real_var {α β : Type*} [Fintype α] [Fintype β] (x : α → β → ℝ) (N : ℝ) (hN : N ≠ 0)
    (hcard : (Fintype.card α : ℝ) * (Fintype.card β : ℝ) = N) :
    (∑ a, ∑ b, (x a b - (∑ a, ∑ b, x a b) * (1 / N)) * (x a b - (∑ a, ∑ b, x a b) * (1 / N))) * (1 / N)
      = (∑ a, ∑ b, x a b * x a b) * (1 / N)
        - (∑ a, ∑ b, x a b) * (1 / N) * ((∑ a, ∑ b, x a b) * (1 / N)) := by
  generalize hS : (∑ a, ∑ b, x a b) = S
  generalize hμ : S * (1 / N) = μ
  have h1 : ∑ a, ∑ b, (x a b - μ) * (x a b - μ)
      = (∑ a, ∑ b, x a b * x a b) - 2 * μ * S + N * (μ * μ) := by
    have e : ∀ a b, (x a b - μ) * (x a b - μ) = x a b * x a b - 2 * μ * x a b + μ * μ := fun a b => by ring
    simp only [e, Finset.sum_add_distrib, Finset.sum_sub_distrib, ← Finset.mul_sum, Finset.sum_const,
      Finset.card_univ, nsmul_eq_mul, hS]
    rw [← hcard]; ring
  rw [h1, ← hμ]; field_simp; ring

/-- With every entry a real number the two variances agree: Σ(x−μ)² = Σx² − 2μΣx + Nμ² with μ = Σx/N and
    N = 30000·100 = 3·10⁶, the value of the literal `cN`. -/
theorem varR_eq_varK (hX : ∀ p n o, ∃ r : ℝ, X p n o = (r : EReal)) (o : Fin 64) : varR X o = varK X o := by
  choose x hx using fun p n => hX p n o
  have hN : (3000000 : ℝ) ≠ 0 := by norm_num
  have hmean : meanX X o = (((∑ p, ∑ n, x p n) * (1 / 3000000) : ℝ) : EReal) := by
    unfold meanX sumX
    simp only [hx, sum_coe]
    rw [cN_eq, Ideal.div_coe hN, ← EReal.coe_mul]
  unfold varR varK sumSq
  rw [hmean]
  simp only [hx, ← EReal.coe_sub, ← EReal.coe_mul, sum_coe]
  rw [cN_eq, Ideal.div_coe hN, Ideal.div_coe hN, ← EReal.coe_mul, ← EReal.coe_mul, ← EReal.coe_sub]
  congr 1
  exact real_var x 3000000 hN (by rw [Fintype.card_fin, Fintype.card_fin]; norm_num)

end All

/-! ## Finiteness -/

/-- A point whose mask is on has its index below the count, so the count is at least one. -/
theorem toInt_pos_of_slt (np : BitVec 32) (n : Fin 100) (h : (BitVec.ofNat 32 n.val).slt np = true) :
    (np.toInt : ℝ) ≠ 0 := by
  have h1 : (BitVec.ofNat 32 n.val).toInt < np.toInt := by
    simpa [BitVec.slt] using h
  have h2 : (BitVec.ofNat 32 n.val).toInt = (n.val : Int) := by
    rw [BitVec.toInt_eq_toNat_of_lt] <;> simp [BitVec.toNat_ofNat] <;> omega
  have h3 : (0 : Int) < np.toInt := by omega
  exact_mod_cast h3.ne'

/-- With the pillar's values and the weights real numbers, the linear layer's output is a real number whatever the
    integers are: where the mask is 1 the count is at least 1 (the index is nonnegative), so the mean is a quotient of
    reals by a nonzero real; where the mask is 0 every feature is multiplied by 0, and 0 times anything is 0 on the
    extended reals. -/
theorem linP_real (f : Fin 100 → Fin 4 → EReal) (np : BitVec 32) (co : Fin 4 → BitVec 32) (w : Fin 64 → Fin 9 → EReal)
    (hf : ∀ n k, ∃ r : ℝ, f n k = (r : EReal)) (hw : ∀ o i, ∃ r : ℝ, w o i = (r : EReal)) (n : Fin 100) (o : Fin 64) :
    ∃ r : ℝ, linP f np co w n o = (r : EReal) := by
  show IsR (linP f np co w n o)
  have hf : ∀ n k, IsR (f n k) := hf
  unfold linP
  refine IsR.sum _ _ fun i _ => IsR.mul ?_ (hw o i)
  unfold featP
  by_cases hm : (BitVec.ofNat 32 n.val).slt np = true
  · have hmask : maskP np n = 1 := by unfold maskP; rw [if_pos hm]
    rw [hmask, mul_one]
    have hnp : (np.toInt : ℝ) ≠ 0 := toInt_pos_of_slt np n hm
    have hpm : ∀ k, IsR (pmean f np k) := fun k => by
      unfold pmean
      rw [ofInt_eq]
      exact (IsR.sum _ _ fun j _ => hf j k).div hnp
    have hco : ∀ b : BitVec 32, IsR (ofInt b) := fun b => ⟨_, ofInt_eq b⟩
    unfold rawP
    split_ifs
    · exact hf _ _
    · exact (hf _ _).sub (hpm _)
    · exact (hf _ _).sub (((hco _).mul c016_isR).add c008_isR)
    · exact (hf _ _).sub (((hco _).mul c016_isR).add cm396_isR)
  · have hmask : maskP np n = 0 := by unfold maskP; rw [if_neg hm]
    rw [hmask, mul_zero]; exact IsR.zero

end Cert.Spec

end
-- ==== Proof.RefDefs.lean ====
/-
  The reference's argument arrays read pillar by pillar: pillar `p` of the 30000 is its 100 points' four values, its
  count, its four voxel coordinates; `X` is the linear layer's output over all pillars.
-/
import proofs.«164556_j22273700397341_1_alg».proof.Proof.Gen.ReferenceIdeal.Read
import proofs.«164556_j22273700397341_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.ValueIdx Cert.ReferenceIdeal Cert.ReferenceIdeal.Read Cert.Spec

def pillarF (x0 : (⟨S30000x100x4, .f32⟩ : BufTy).Contents (Elt Ideal)) (p : Fin 30000) : Fin 100 → Fin 4 → EReal := fun n k => x0 (ix3 p n k)
def pillarN (x1 : (⟨S30000, .i32⟩ : BufTy).Contents (Elt Ideal)) (p : Fin 30000) : BitVec 32 := x1 (ix1 p)
def pillarC (x2 : (⟨S30000x4, .i32⟩ : BufTy).Contents (Elt Ideal)) (p : Fin 30000) : Fin 4 → BitVec 32 := fun k => x2 (ix2 p k)
def weight (x3 : (⟨S64x9, .f32⟩ : BufTy).Contents (Elt Ideal)) : Fin 64 → Fin 9 → EReal := fun o i => x3 (ix2 o i)

/-- The linear layer's output over all pillars. -/
def X (x0 : (⟨S30000x100x4, .f32⟩ : BufTy).Contents (Elt Ideal)) (x1 : (⟨S30000, .i32⟩ : BufTy).Contents (Elt Ideal))
    (x2 : (⟨S30000x4, .i32⟩ : BufTy).Contents (Elt Ideal)) (x3 : (⟨S64x9, .f32⟩ : BufTy).Contents (Elt Ideal))
    (p : Fin 30000) (n : Fin 100) (o : Fin 64) : EReal :=
  linP (pillarF x0 p) (pillarN x1 p) (pillarC x2 p) (weight x3) n o

end Cert.ReferenceIdeal.RefValue

end
-- ==== Proof.RefLin.lean ====
/-
  The reference's linear layer (its forty-eighth value: a contraction of the masked nine features with the weight)
  read at an index is the pillar mathematics' `linP`.
-/
import proofs.«164556_j22273700397341_1_alg».proof.Proof.RefDefs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.ValueIdx Cert.ReferenceIdeal Cert.ReferenceIdeal.Read Cert.Spec

/-- The broadcast mask at a point: 1 when the point's index is below the pillar's count, else 0. -/
theorem ref_mask (x1 : (⟨S30000, .i32⟩ : BufTy).Contents (Elt Ideal)) (p : Fin 30000) (n : Fin 100) (i : Fin 9) :
    val_main_v46 (F := Ideal) x1 (ix3 p n i) = maskP (pillarN x1 p) n := by
  rw [val_main_v46_apply, val_main_v45_apply, val_main_v44_apply, val_main_v43_apply, val_main_v41_apply,
    val_main_v39_apply, val_main_v38_apply, val_main_v42_apply, val_main_v40_apply]
  have e1 : idx_main_v40 (idx_main_v42 (idx_main_v45 (idx_main_v46 (ix3 p n i)))) = ix1 p :=
    funext fun a => Fin.ext (by match a with | ⟨0, _⟩ => rfl)
  rw [e1]
  show FloatOps.uitofp (F := Ideal) .f32 (IntOp.cmpi .slt (BitVec.ofNat 32 n.val) (x1 (ix1 p))) = _
  unfold maskP pillarN IntOp.cmpi
  cases (BitVec.ofNat 32 n.val).slt (x1 (ix1 p))
  · show ((((BitVec.ofBool false).toNat : ℕ) : ℝ) : EReal) = _
    simp
  · show ((((BitVec.ofBool true).toNat : ℕ) : ℝ) : EReal) = _
    simp

/-- The nine features' first piece (feature index below 4): the point's own four values. -/
theorem v37_lo (x0 : (⟨S30000x100x4, .f32⟩ : BufTy).Contents (Elt Ideal)) (x1 : (⟨S30000, .i32⟩ : BufTy).Contents (Elt Ideal)) (x2 : (⟨S30000x4, .i32⟩ : BufTy).Contents (Elt Ideal)) (p : Fin 30000) (n : Fin 100) (i : Fin 9) (h : i.val < 4) :
    val_main_v37 (F := Ideal) x0 x1 x2 (ix3 p n i) = x0 (ix3 p n ⟨i.val, h⟩) := by
  unfold val_main_v37
  exact concatenate_apply_piece 2 _ _ (ix3 p n i) 0 (by show 0 < 3; omega) S30000x100x4 x0 rfl rfl 0 rfl
    (ix3 p n ⟨i.val, h⟩)
    (fun b hb => by match b with | ⟨0, _⟩ => rfl | ⟨1, _⟩ => rfl | ⟨2, _⟩ => exact absurd rfl hb)
    (by show 0 + i.val = i.val; omega)

/-- The second piece (feature index 4, 5, 6): the first three values less the pillar's mean. -/
theorem v37_mid (x0 : (⟨S30000x100x4, .f32⟩ : BufTy).Contents (Elt Ideal)) (x1 : (⟨S30000, .i32⟩ : BufTy).Contents (Elt Ideal)) (x2 : (⟨S30000x4, .i32⟩ : BufTy).Contents (Elt Ideal)) (p : Fin 30000) (n : Fin 100) (i : Fin 9) (h4 : ¬ i.val < 4) (h7 : i.val < 7) :
    val_main_v37 (F := Ideal) x0 x1 x2 (ix3 p n i) = val_main_v9 (F := Ideal) x0 x1 (ix3 p n ⟨i.val - 4, by omega⟩) := by
  unfold val_main_v37
  exact concatenate_apply_piece 2 _ _ (ix3 p n i) 1 (by show 1 < 3; omega) S30000x100x3 (val_main_v9 (F := Ideal) x0 x1) rfl rfl 4 rfl
    (ix3 p n ⟨i.val - 4, by omega⟩)
    (fun b hb => by match b with | ⟨0, _⟩ => rfl | ⟨1, _⟩ => rfl | ⟨2, _⟩ => exact absurd rfl hb)
    (by show 4 + (i.val - 4) = i.val; omega)

/-- The third piece (feature index 7, 8): the first two values less the voxel centre. -/
theorem v37_hi (x0 : (⟨S30000x100x4, .f32⟩ : BufTy).Contents (Elt Ideal)) (x1 : (⟨S30000, .i32⟩ : BufTy).Contents (Elt Ideal)) (x2 : (⟨S30000x4, .i32⟩ : BufTy).Contents (Elt Ideal)) (p : Fin 30000) (n : Fin 100) (i : Fin 9) (h7 : ¬ i.val < 7) :
    val_main_v37 (F := Ideal) x0 x1 x2 (ix3 p n i) = val_main_v36 (F := Ideal) x0 x2 (ix3 p n ⟨i.val - 7, by omega⟩) := by
  unfold val_main_v37
  exact concatenate_apply_piece 2 _ _ (ix3 p n i) 2 (by show 2 < 3; omega) S30000x100x2 (val_main_v36 (F := Ideal) x0 x2) rfl rfl 7 rfl
    (ix3 p n ⟨i.val - 7, by omega⟩)
    (fun b hb => by match b with | ⟨0, _⟩ => rfl | ⟨1, _⟩ => rfl | ⟨2, _⟩ => exact absurd rfl hb)
    (by show 7 + (i.val - 7) = i.val; omega)

/-- Position 0 of the joined centre offsets is the first value's. -/
theorem v36_left (x0 : (⟨S30000x100x4, .f32⟩ : BufTy).Contents (Elt Ideal)) (x2 : (⟨S30000x4, .i32⟩ : BufTy).Contents (Elt Ideal)) (p : Fin 30000) (n : Fin 100) :
    val_main_v36 (F := Ideal) x0 x2 (ix3 p n (0 : Fin 2)) = val_main_v34 (F := Ideal) x0 x2 (ix3 p n (0 : Fin 1)) := by
  unfold val_main_v36
  exact concatenate_pair_apply_left (t := S30000x100x2) (s₁ := S30000x100x1) (s₂ := S30000x100x1) 2 _ _ _ (ix3 p n (0 : Fin 2)) rfl (ix3 p n (0 : Fin 1))
    (fun b => by match b with | ⟨0, _⟩ => rfl | ⟨1, _⟩ => rfl | ⟨2, _⟩ => rfl)

/-- Position 1 of the joined centre offsets is the second value's. -/
theorem v36_right (x0 : (⟨S30000x100x4, .f32⟩ : BufTy).Contents (Elt Ideal)) (x2 : (⟨S30000x4, .i32⟩ : BufTy).Contents (Elt Ideal)) (p : Fin 30000) (n : Fin 100) :
    val_main_v36 (F := Ideal) x0 x2 (ix3 p n (1 : Fin 2)) = val_main_v35 (F := Ideal) x0 x2 (ix3 p n (0 : Fin 1)) := by
  unfold val_main_v36
  exact concatenate_pair_apply_right (t := S30000x100x2) (s₁ := S30000x100x1) (s₂ := S30000x100x1) 2 _ _ _ (ix3 p n (1 : Fin 2)) rfl rfl (ix3 p n (0 : Fin 1))
    (fun b hb => by match b with | ⟨0, _⟩ => rfl | ⟨1, _⟩ => rfl | ⟨2, _⟩ => exact absurd rfl hb)
    rfl

/-- A centred value: one of the first three values less the pillar's mean (the sum over the pillar's 100 points from
    zero, divided by the count read as a signed number). -/
theorem ref_centred (x0 : (⟨S30000x100x4, .f32⟩ : BufTy).Contents (Elt Ideal)) (x1 : (⟨S30000, .i32⟩ : BufTy).Contents (Elt Ideal)) (p : Fin 30000) (n : Fin 100) (k : Fin 3) :
    val_main_v9 (F := Ideal) x0 x1 (ix3 p n k)
      = x0 (ix3 p n (⟨k.val, by omega⟩ : Fin 4)) - pmean (pillarF x0 p) (pillarN x1 p) ⟨k.val, by omega⟩ := by
  rw [val_main_v9_apply, val_main_v7_apply, val_main_v8_apply, val_main_v6_apply, val_main_v3_apply, val_main_v2_apply,
    val_main_v5_apply, val_main_v4_apply, val_main_v0_apply, val_main_cst_apply]
  simp only [val_main_v1_apply]
  have e7 : idx_main_v7 (ix3 p n k) = ix3 p n (⟨k.val, by omega⟩ : Fin 4) :=
    funext fun a => Fin.ext (by match a with | ⟨0, _⟩ => rfl | ⟨1, _⟩ => rfl | ⟨2, _⟩ => rfl)
  have e1 : ∀ m : Fin 100, idx_main_v1 (idx_main_v2 (idx_main_v3 (idx_main_v8 (ix3 p n k))) m)
      = ix3 p m (⟨k.val, by omega⟩ : Fin 4) :=
    fun m => funext fun a => Fin.ext (by match a with | ⟨0, _⟩ => rfl | ⟨1, _⟩ => rfl | ⟨2, _⟩ => rfl)
  have e4 : idx_main_v4 (idx_main_v5 (idx_main_v8 (ix3 p n k))) = ix1 p :=
    funext fun a => Fin.ext (by match a with | ⟨0, _⟩ => rfl)
  simp only [e7, e1, e4, Ideal.subf_def, Ideal.hostDivf_def, Ideal.ofBits_def, Ideal.ofBits_zero_f32, zero_add]
  rfl

/-- The first value less the voxel centre along the first axis (coordinate 3 of the voxel, × 0.16 + 0.08). -/
theorem ref_off0 (x0 : (⟨S30000x100x4, .f32⟩ : BufTy).Contents (Elt Ideal)) (x2 : (⟨S30000x4, .i32⟩ : BufTy).Contents (Elt Ideal)) (p : Fin 30000) (n : Fin 100) :
    val_main_v34 (F := Ideal) x0 x2 (ix3 p n (0 : Fin 1))
      = x0 (ix3 p n (0 : Fin 4)) - (ofInt (x2 (ix2 p (3 : Fin 4))) * c016 + c008) := by
  rw [val_main_v34_apply, val_main_v25_apply, val_main_v19_apply, val_main_v18_apply, val_main_v24_apply,
    val_main_v23_apply, val_main_v21_apply, val_main_v13_apply, val_main_v12_apply, val_main_v11_apply,
    val_main_v10_apply, val_main_v20_apply, val_main_cst_0_apply, val_main_v22_apply, val_main_cst_1_apply]
  have e18 : idx_main_v18 (idx_main_v19 (idx_main_v34 (ix3 p n (0 : Fin 1)))) = ix3 p n (0 : Fin 4) :=
    funext fun a => Fin.ext (by
      match a with
      | ⟨0, _⟩ => show (p.val * 100 + n.val) / 100 = p.val; omega
      | ⟨1, _⟩ => show (p.val * 100 + n.val) / 1 % 100 = n.val; omega
      | ⟨2, _⟩ => rfl)
  have e10 : idx_main_v10 (idx_main_v11 (idx_main_v13 (idx_main_v24 (idx_main_v34 (ix3 p n (0 : Fin 1))))))
      = ix2 p (3 : Fin 4) :=
    funext fun a => Fin.ext (by
      match a with
      | ⟨0, _⟩ => show p.val / 1 = p.val; omega
      | ⟨1, _⟩ => rfl)
  simp only [e18, e10, Ideal.subf_def, Ideal.addf_def, Ideal.mulf_def, Ideal.ofBits_def]
  rfl

/-- The second value less the voxel centre along the second axis (coordinate 2 of the voxel, × 0.16 − 39.6). -/
theorem ref_off1 (x0 : (⟨S30000x100x4, .f32⟩ : BufTy).Contents (Elt Ideal)) (x2 : (⟨S30000x4, .i32⟩ : BufTy).Contents (Elt Ideal)) (p : Fin 30000) (n : Fin 100) :
    val_main_v35 (F := Ideal) x0 x2 (ix3 p n (0 : Fin 1))
      = x0 (ix3 p n (1 : Fin 4)) - (ofInt (x2 (ix2 p (2 : Fin 4))) * c016 + cm396) := by
  rw [val_main_v35_apply, val_main_v33_apply, val_main_v27_apply, val_main_v26_apply, val_main_v32_apply,
    val_main_v31_apply, val_main_v29_apply, val_main_v17_apply, val_main_v16_apply, val_main_v15_apply,
    val_main_v14_apply, val_main_v28_apply, val_main_cst_2_apply, val_main_v30_apply, val_main_cst_3_apply]
  have e26 : idx_main_v26 (idx_main_v27 (idx_main_v35 (ix3 p n (0 : Fin 1)))) = ix3 p n (1 : Fin 4) :=
    funext fun a => Fin.ext (by
      match a with
      | ⟨0, _⟩ => show (p.val * 100 + n.val) / 100 = p.val; omega
      | ⟨1, _⟩ => show (p.val * 100 + n.val) / 1 % 100 = n.val; omega
      | ⟨2, _⟩ => rfl)
  have e14 : idx_main_v14 (idx_main_v15 (idx_main_v17 (idx_main_v32 (idx_main_v35 (ix3 p n (0 : Fin 1))))))
      = ix2 p (2 : Fin 4) :=
    funext fun a => Fin.ext (by
      match a with
      | ⟨0, _⟩ => show p.val / 1 = p.val; omega
      | ⟨1, _⟩ => rfl)
  simp only [e26, e14, Ideal.subf_def, Ideal.addf_def, Ideal.mulf_def, Ideal.ofBits_def]
  rfl

/-- The masked nine features at a point are the pillar mathematics' `featP`. -/
theorem ref_feat (x0 : (⟨S30000x100x4, .f32⟩ : BufTy).Contents (Elt Ideal)) (x1 : (⟨S30000, .i32⟩ : BufTy).Contents (Elt Ideal)) (x2 : (⟨S30000x4, .i32⟩ : BufTy).Contents (Elt Ideal)) (p : Fin 30000) (n : Fin 100) (i : Fin 9) :
    val_main_v47 (F := Ideal) x0 x1 x2 (ix3 p n i)
      = featP (pillarF x0 p) (pillarN x1 p) (pillarC x2 p) n i := by
  rw [val_main_v47_apply, ref_mask]
  unfold featP
  refine congrArg (· * maskP (pillarN x1 p) n) ?_
  unfold rawP
  by_cases h4 : i.val < 4
  · rw [dif_pos h4]
    exact v37_lo x0 x1 x2 p n i h4
  · rw [dif_neg h4]
    by_cases h7 : i.val < 7
    · rw [dif_pos h7]
      exact (v37_mid x0 x1 x2 p n i h4 h7).trans (ref_centred x0 x1 p n ⟨i.val - 4, by omega⟩)
    · rw [dif_neg h7]
      by_cases h8 : i.val = 7
      · rw [if_pos h8]
        obtain rfl : i = (7 : Fin 9) := Fin.ext h8
        exact (v37_hi x0 x1 x2 p n 7 h7).trans ((v36_left x0 x2 p n).trans (ref_off0 x0 x2 p n))
      · rw [if_neg h8]
        obtain rfl : i = (8 : Fin 9) := Fin.ext (by have := i.isLt; omega)
        exact (v37_hi x0 x1 x2 p n 8 h7).trans ((v36_right x0 x2 p n).trans (ref_off1 x0 x2 p n))

/-- The linear layer at a point and channel: the nine masked features contracted with the channel's weights. -/
theorem ref_lin (x0 : (⟨S30000x100x4, .f32⟩ : BufTy).Contents (Elt Ideal)) (x1 : (⟨S30000, .i32⟩ : BufTy).Contents (Elt Ideal))
    (x2 : (⟨S30000x4, .i32⟩ : BufTy).Contents (Elt Ideal)) (x3 : (⟨S64x9, .f32⟩ : BufTy).Contents (Elt Ideal))
    (p : Fin 30000) (n : Fin 100) (o : Fin 64) :
    val_main_v48 (F := Ideal) x0 x1 x2 x3 (ix3 p n o) = X x0 x1 x2 x3 p n o := by
  rw [val_main_v48_apply]
  unfold X linP weight
  refine Finset.sum_congr rfl fun k _ => ?_
  have el : lidx_main_v48 (ix3 p n o) k = ix3 p n k :=
    funext fun a => Fin.ext (by match a with | ⟨0, _⟩ => rfl | ⟨1, _⟩ => rfl | ⟨2, _⟩ => rfl)
  have er : ridx_main_v48 (ix3 p n o) k = ix2 o k :=
    funext fun a => Fin.ext (by match a with | ⟨0, _⟩ => rfl | ⟨1, _⟩ => rfl)
  rw [el, er, ref_feat]

end Cert.ReferenceIdeal.RefValue

end
-- ==== Proof.RefOut.lean ====
/-
  The reference's result read at an index: from its linear layer `X` the per-channel mean and variance (mean of squared
  deviations), and at pillar `p`, channel `o` the normalised, scaled, shifted, clamped values maximised over the points.
-/
import proofs.«164556_j22273700397341_1_alg».proof.Proof.RefLin
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.ValueIdx Cert.ReferenceIdeal Cert.ReferenceIdeal.Read Cert.Spec

/-! ## A sum over the first two axes of a [30000, 100, 64] array -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An index of the [30000, 100, 64] array drops, over its first two axes, to channel `o` exactly when its third
    coordinate is `o`. -/
theorem drop01_iff (h' : S30000x100x64.ReducesTo [0, 1] S64) (i : S30000x100x64.Idx) (o : Fin 64) :
    h'.drop i = ix1 o ↔ (i 2).val = o.val := by
  have hv : ((h'.drop i) 0 : Nat) = i 2 := Shape.ReducesTo.drop_apply_val_of_eq h' i 0 2
  constructor
  · intro e
    rw [e] at hv
    exact hv.symm
  · intro e
    funext b
    match b with
    | ⟨0, _⟩ => exact Fin.ext (hv.trans e)

/-- The sum over the first two axes of a [30000, 100, 64] array, at channel `o`: the initial value plus the double
    sum over the 30000 pillars and the 100 points of the array at (p, n, o). -/
theorem hostReduceAdd_axes01 (h' : S30000x100x64.ReducesTo [0, 1] S64) (x : S30000x100x64.Idx → EReal) (init : EReal)
    (o : Fin 64) :
    Ideal.hostReduceAdd h' x init (ix1 o) = init + ∑ p : Fin 30000, ∑ n : Fin 100, x (ix3 p n o) := by
  unfold Ideal.hostReduceAdd
  refine congrArg (init + ·) ?_
  rw [Finset.filter_congr (fun i _ => drop01_iff h' i o), Finset.sum_filter, sum_idx3]
  refine Finset.sum_congr rfl fun p _ => Finset.sum_congr rfl fun n _ => ?_
  rw [Finset.sum_eq_single o]
  · exact if_pos rfl
  · intro c _ hc
    exact if_neg (fun e => hc (Fin.ext e))
  · intro ho
    exact absurd (Finset.mem_univ o) ho

/-! ## The per-channel statistics -/

section Chain

variable (x0 : (⟨S30000x100x4, .f32⟩ : BufTy).Contents (Elt Ideal)) (x1 : (⟨S30000, .i32⟩ : BufTy).Contents (Elt Ideal))
    (x2 : (⟨S30000x4, .i32⟩ : BufTy).Contents (Elt Ideal)) (x3 : (⟨S64x9, .f32⟩ : BufTy).Contents (Elt Ideal))
    (x4 x5 : (⟨S64, .f32⟩ : BufTy).Contents (Elt Ideal))

/-- The channel's sum over all pillars and points, divided by 3·10⁶: the mean. -/
theorem v51_apply (o : Fin 64) : val_main_v51 (F := Ideal) x0 x1 x2 x3 (ix1 o) = meanX (X x0 x1 x2 x3) o := by
  have e49 : val_main_v49 (F := Ideal) x0 x1 x2 x3 (ix1 o)
      = Ideal.ofBits .f32 0x00000000#32
        + ∑ p : Fin 30000, ∑ n : Fin 100, val_main_v48 (F := Ideal) x0 x1 x2 x3 (ix3 p n o) :=
    hostReduceAdd_axes01 _ _ _ o
  have e50 : val_main_v50 (F := Ideal) (ix1 o) = cN := by
    rw [val_main_v50_apply]; rfl
  show Ideal.div (val_main_v49 (F := Ideal) x0 x1 x2 x3 (ix1 o)) (val_main_v50 (F := Ideal) (ix1 o)) = _
  rw [e49, e50, Ideal.ofBits_zero_f32, zero_add]
  unfold meanX sumX
  exact congrArg (Ideal.div · cN)
    (Finset.sum_congr rfl fun p _ => Finset.sum_congr rfl fun n _ => ref_lin x0 x1 x2 x3 p n o)

/-- The mean broadcast over pillars and points (for the deviations that are squared). -/
theorem v53_apply (p : Fin 30000) (n : Fin 100) (o : Fin 64) :
    val_main_v53 (F := Ideal) x0 x1 x2 x3 (ix3 p n o) = meanX (X x0 x1 x2 x3) o := by
  have hi : idx_main_v52 (idx_main_v53 (ix3 p n o)) = ix1 o := funext fun a => by
    match a with | ⟨0, _⟩ => rfl
  rw [val_main_v53_apply, val_main_v52_apply, hi, v51_apply]

/-- The deviation from the mean. -/
theorem v54_apply (p : Fin 30000) (n : Fin 100) (o : Fin 64) :
    val_main_v54 (F := Ideal) x0 x1 x2 x3 (ix3 p n o) = X x0 x1 x2 x3 p n o - meanX (X x0 x1 x2 x3) o := by
  show val_main_v48 (F := Ideal) x0 x1 x2 x3 (ix3 p n o) - val_main_v53 (F := Ideal) x0 x1 x2 x3 (ix3 p n o) = _
  rw [ref_lin, v53_apply]

/-- The channel's sum of squared deviations, divided by 3·10⁶: the variance. -/
theorem v58_apply (o : Fin 64) : val_main_v58 (F := Ideal) x0 x1 x2 x3 (ix1 o) = varR (X x0 x1 x2 x3) o := by
  have e56 : val_main_v56 (F := Ideal) x0 x1 x2 x3 (ix1 o)
      = Ideal.ofBits .f32 0x00000000#32
        + ∑ p : Fin 30000, ∑ n : Fin 100, val_main_v55 (F := Ideal) x0 x1 x2 x3 (ix3 p n o) :=
    hostReduceAdd_axes01 _ _ _ o
  have e57 : val_main_v57 (F := Ideal) (ix1 o) = cN := by
    rw [val_main_v57_apply]; rfl
  show Ideal.div (val_main_v56 (F := Ideal) x0 x1 x2 x3 (ix1 o)) (val_main_v57 (F := Ideal) (ix1 o)) = _
  rw [e56, e57, Ideal.ofBits_zero_f32, zero_add]
  unfold varR
  refine congrArg (Ideal.div · cN) (Finset.sum_congr rfl fun p _ => Finset.sum_congr rfl fun n _ => ?_)
  show val_main_v54 (F := Ideal) x0 x1 x2 x3 (ix3 p n o) * val_main_v54 (F := Ideal) x0 x1 x2 x3 (ix3 p n o) = _
  rw [v54_apply]

/-- The deviation from the mean again (for the normalised value). -/
theorem v61_apply (p : Fin 30000) (n : Fin 100) (o : Fin 64) :
    val_main_v61 (F := Ideal) x0 x1 x2 x3 (ix3 p n o) = X x0 x1 x2 x3 p n o - meanX (X x0 x1 x2 x3) o := by
  have hi : idx_main_v59 (idx_main_v60 (ix3 p n o)) = ix1 o := funext fun a => by
    match a with | ⟨0, _⟩ => rfl
  show val_main_v48 (F := Ideal) x0 x1 x2 x3 (ix3 p n o) - val_main_v60 (F := Ideal) x0 x1 x2 x3 (ix3 p n o) = _
  rw [ref_lin, val_main_v60_apply, val_main_v59_apply, hi, v51_apply]

/-- The reciprocal square root of the variance plus 10⁻³, broadcast over pillars and points. -/
theorem v66_apply (p : Fin 30000) (n : Fin 100) (o : Fin 64) :
    val_main_v66 (F := Ideal) x0 x1 x2 x3 (ix3 p n o) = Ideal.rsqrt (varR (X x0 x1 x2 x3) o + ceps) := by
  have hi : idx_main_v65 (idx_main_v66 (ix3 p n o)) = ix1 o := funext fun a => by
    match a with | ⟨0, _⟩ => rfl
  have e62 : val_main_v62 (F := Ideal) (ix1 o) = ceps := by
    rw [val_main_v62_apply]; rfl
  rw [val_main_v66_apply, val_main_v65_apply, hi]
  show Ideal.rsqrt (val_main_v58 (F := Ideal) x0 x1 x2 x3 (ix1 o) + val_main_v62 (F := Ideal) (ix1 o)) = _
  rw [v58_apply, e62]

/-- The scale and the shift broadcast over pillars and points. -/
theorem v69_apply (p : Fin 30000) (n : Fin 100) (o : Fin 64) :
    val_main_v69 (F := Ideal) x4 (ix3 p n o) = x4 (ix1 o) := by
  have hi : idx_main_v68 (idx_main_v69 (ix3 p n o)) = ix1 o := funext fun a => by
    match a with | ⟨0, _⟩ => rfl
  rw [val_main_v69_apply, val_main_v68_apply, hi]

theorem v72_apply (p : Fin 30000) (n : Fin 100) (o : Fin 64) :
    val_main_v72 (F := Ideal) x5 (ix3 p n o) = x5 (ix1 o) := by
  have hi : idx_main_v71 (idx_main_v72 (ix3 p n o)) = ix1 o := funext fun a => by
    match a with | ⟨0, _⟩ => rfl
  rw [val_main_v72_apply, val_main_v71_apply, hi]

/-- The normalised, scaled, shifted value clamped at zero, at pillar `p`, point `n`, channel `o`. -/
theorem v74_apply (p : Fin 30000) (n : Fin 100) (o : Fin 64) :
    val_main_v74 (F := Ideal) x0 x1 x2 x3 x4 x5 (ix3 p n o)
      = max ((X x0 x1 x2 x3 p n o - meanX (X x0 x1 x2 x3) o) * Ideal.rsqrt (varR (X x0 x1 x2 x3) o + ceps)
          * x4 (ix1 o) + x5 (ix1 o)) zero := by
  have ez : val_main_call0_v0 (F := Ideal) (ix3 p n o) = zero := by
    rw [val_main_call0_v0_apply]; rfl
  show max (val_main_v61 (F := Ideal) x0 x1 x2 x3 (ix3 p n o) * val_main_v66 (F := Ideal) x0 x1 x2 x3 (ix3 p n o)
      * val_main_v69 (F := Ideal) x4 (ix3 p n o) + val_main_v72 (F := Ideal) x5 (ix3 p n o))
      (val_main_call0_v0 (F := Ideal) (ix3 p n o)) = _
  rw [v61_apply, v66_apply, v69_apply, v72_apply, ez]

end Chain

/-! ## The result: the maximum over the pillar's 100 points -/

theorem ref_out (x0 : (⟨S30000x100x4, .f32⟩ : BufTy).Contents (Elt Ideal)) (x1 : (⟨S30000, .i32⟩ : BufTy).Contents (Elt Ideal))
    (x2 : (⟨S30000x4, .i32⟩ : BufTy).Contents (Elt Ideal)) (x3 : (⟨S64x9, .f32⟩ : BufTy).Contents (Elt Ideal))
    (x4 x5 : (⟨S64, .f32⟩ : BufTy).Contents (Elt Ideal)) (p : Fin 30000) (o : Fin 64) :
    val_main_v75 (F := Ideal) x0 x1 x2 x3 x4 x5 (ix2 p o)
      = normP (fun n => X x0 x1 x2 x3 p n o) (meanX (X x0 x1 x2 x3) o) (varR (X x0 x1 x2 x3) o) (x4 (ix1 o)) (x5 (ix1 o)) := by
  have h : S30000x100x64.Reduces [1] S30000x64 := by decide
  have hl : ∀ n : Fin 100, h.lift (ix2 p o) n = ix3 p n o := fun n => funext fun c => Fin.ext (by
    match c with
    | ⟨0, _⟩ => rfl
    | ⟨1, _⟩ => rfl
    | ⟨2, _⟩ => rfl)
  unfold val_main_v75
  rw [Host.reduce_eq_fold_single (FloatOps.maximumf (F := Ideal) (φ := .f32)) _ _ _ h]
  unfold normP
  refine congrArg (fun f => Finset.fold max ninf f (Finset.univ : Finset (Fin 100))) (funext fun (n : Fin 100) => ?_)
  show val_main_v74 (F := Ideal) x0 x1 x2 x3 x4 x5 (h.lift (ix2 p o) n) = _
  rw [hl n]
  exact v74_apply x0 x1 x2 x3 x4 x5 p n o

end Cert.ReferenceIdeal.RefValue

end
-- ==== Proof.Bridge.lean ====
/-
  The kernel program's result is the reference's, index by index, over the extended reals.
  Row 80·t+p of the kernel's output is what grid point t of its second region left in row p of its block: the
  pillar's 100 linear outputs, normalised by the mean row and the variance row the host computed from the first
  region's two totals (per channel S / 3·10⁶ and Q / 3·10⁶ − mean², S and Q the sums of the linear layer's output and of
  its square over all 30000 × 100 points), scaled by gamma, shifted by beta, clamped at zero and maximised over the
  points. The reference computes the same from the same linear outputs, with the variance as the mean of squared
  deviations; the two variances agree because every linear output is a real number when the points and the weight are
  finite.
-/
import proofs.«164556_j22273700397341_1_alg».proof.Proof.KI.Run
import proofs.«164556_j22273700397341_1_alg».proof.Proof.KI.Blocks
import proofs.«164556_j22273700397341_1_alg».proof.Proof.KI.Hosts
import proofs.«164556_j22273700397341_1_alg».proof.Proof.HostsIdeal
import proofs.«164556_j22273700397341_1_alg».proof.Proof.KBlockX
import proofs.«164556_j22273700397341_1_alg».proof.Proof.Totals
import proofs.«164556_j22273700397341_1_alg».proof.Proof.KVal1
import proofs.«164556_j22273700397341_1_alg».proof.Proof.Finite
import proofs.«164556_j22273700397341_1_alg».proof.Proof.SpecLaws
import proofs.«164556_j22273700397341_1_alg».proof.Proof.RefOut

set_option maxRecDepth 16384

noncomputable section

namespace Cert.KernelIdeal.HandValue

open Idealize.ShloMosaic Idealize.ShloMosaic.TcCoe Idealize.ShloMosaic.ValueIdx Cert.KernelIdeal Cert.KernelIdeal.Gen Cert.KernelIdeal.Hand Cert.Spec

variable (m : (ℓ : Loc nD τ sig) → Buf (Elt Ideal) ℓ)

/-- Every pillar is pillar `p` of some block `t`. -/
theorem exists_gp (P : Fin 30000) : ∃ (t : Fin 375) (p : Fin 80), P = gp t p :=
  ⟨⟨P.val / 80, by have := P.isLt; omega⟩, ⟨P.val % 80, Nat.mod_lt _ (by norm_num)⟩, Fin.ext (by
    show P.val = 80 * (P.val / 80) + P.val % 80
    omega)⟩

/-- Region 0's first output row, per channel: the grand total of the linear layer's output. -/
theorem sum_row (c : Dev nD) (o : Fin 64) :
    (E2 m c main_v4_0 : Vec Ideal S1x64 .f32) (ix2 0 o) = sumX (XK m c) o := by
  have e : (E2 m c main_v4_0 : Vec Ideal S1x64 .f32) = sumAt (E1 m) c 374 (by have : cfg0.N = 375 := N_0; omega) :=
    (B2_arr m c 4).trans (final0_4 (E1 m) c)
  rw [e]
  exact sum_total m c o

/-- Region 0's second output row, per channel: the grand total of its square. -/
theorem sq_row (c : Dev nD) (o : Fin 64) :
    (E2 m c main_v4_1 : Vec Ideal S1x64 .f32) (ix2 0 o) = sumSq (XK m c) o := by
  have e : (E2 m c main_v4_1 : Vec Ideal S1x64 .f32) = sqAt (E1 m) c 374 (by have : cfg0.N = 375 := N_0; omega) :=
    (B2_arr m c 5).trans (final0_5 (E1 m) c)
  rw [e]
  exact sq_total m c o

/-- The mean row region 1 is entered with: per channel the grand total over 3·10⁶. -/
theorem mean_row (c : Dev nD) (o : Fin 64) :
    (E3 m c main_v13 : Vec Ideal S1x64 .f32) (ix2 0 o) = meanX (XK m c) o := by
  rw [E3_v13_apply, sum_row]
  rfl

/-- The variance row: mean of squares less the squared mean. -/
theorem var_row (c : Dev nD) (o : Fin 64) :
    (E3 m c main_v14 : Vec Ideal S1x64 .f32) (ix2 0 o) = varK (XK m c) o := by
  rw [E3_v14_apply, sum_row, sq_row]
  rfl

/-- The kernel's output at row 80·t+p, channel o. -/
theorem kernel_out (c : Dev nD) (t : Fin 375) (p : Fin 80) (o : Fin 64) :
    (B4 m c (Proc.devRef .tc main_v15) : Vec Ideal S30000x64 .f32) (ix2 (gp t p) o)
      = normP (fun n => XK m c (gp t p) n o) (meanX (XK m c) o) (varK (XK m c) o) (a4 m c (ix1 o)) (a5 m c (ix1 o)) := by
  have e : (B4 m c (Proc.devRef .tc main_v15) : Vec Ideal S30000x64 .f32) (ix2 (gp t p) o) = outAt1 (E3 m) c (pt1 t) (ix2 p o) :=
    (congrFun (B4_arr m c 8) _).trans (final1_8 (E3 m) c t p o)
  rw [e]
  unfold outAt1
  rw [normMax_apply]
  have hl : (fun n => linB (iblk1 (E3 m) c 0 (pt1 t)) (iblk1 (E3 m) c 1 (pt1 t)) (iblk1 (E3 m) c 2 (pt1 t)) (iblk1 (E3 m) c 3 (pt1 t)) p n o)
      = fun n => XK m c (gp t p) n o := funext fun n => linB_block1 m c t p n o
  rw [hl, iblk1_4_eq, iblk1_5_eq, iblk1_6_eq, iblk1_7_eq, mean_row, var_row, E3_v2_apply, E3_v3_apply]

/-- The kernel's output array is the reference's result term of the kernel's own arguments. -/
theorem result_eq [hPre : Cert.Pre_finite_inputs.Facts] (h : Cert.Pre_KernelIdeal m) (c : Dev nD) :
    (B4 m c (Proc.devRef .tc main_v15) : Vec Ideal S30000x64 .f32)
      = Cert.ReferenceIdeal.Read.val_main_v75 (F := Ideal) (a0 m c) (a1 m c) (a2 m c) (a3 m c) (a4 m c) (a5 m c) := by
  funext j
  obtain ⟨P, o, rfl⟩ : ∃ (P : Fin 30000) (o : Fin 64), j = ix2 P o := ⟨j 0, j 1, eq_ix2 j⟩
  obtain ⟨t, p, rfl⟩ := exists_gp P
  have hX : ∀ P n o, ∃ r : ℝ, XK m c P n o = (r : EReal) := fun P n o =>
    linP_real _ _ _ _ (fun n k => (finite_of_pre m h c).1 _) (fun o i => (finite_of_pre m h c).2 _) n o
  rw [kernel_out, Cert.ReferenceIdeal.RefValue.ref_out]
  show _ = normP (fun n => XK m c (gp t p) n o) (meanX (XK m c) o) (varR (XK m c) o) (a4 m c (ix1 o)) (a5 m c (ix1 o))
  rw [varR_eq_varK (XK m c) hX o]

end Cert.KernelIdeal.HandValue

end
-- ==== Proof.lean ====
/-
  The certificate's claims. Both kernel programs — the word-level one and its idealization, the same text read at two
  float instances — run to the end with the arguments unchanged: @main is two host stretches and two pipelined regions,
  each region's body run symbolically at every grid point (the first carrying two rows of running sums in scratch
  across its 375 points, the second pointwise in the block). The idealization rewrote nothing, so `preserves` is
  trivial. At the extended reals the idealized kernel's result array equals the reference's: both normalise the same
  linear-layer outputs by the same per-channel mean and by variances that agree on real entries (mean of squares less
  squared mean against mean of squared deviations), scale, shift, clamp and maximise over each pillar's points.
-/
import proofs.«164556_j22273700397341_1_alg».proof.Defs
import proofs.«164556_j22273700397341_1_alg».proof.Proof.Gen.Kernel
import proofs.«164556_j22273700397341_1_alg».proof.Proof.Gen.KernelIdeal
import proofs.«164556_j22273700397341_1_alg».proof.Proof.Gen.ReferenceIdeal
import proofs.«164556_j22273700397341_1_alg».proof.Proof.Gen.Pre_finite_inputs
import proofs.«164556_j22273700397341_1_alg».proof.Proof.Gen.ReferenceIdeal.Run
import proofs.«164556_j22273700397341_1_alg».proof.Proof.Gen.ReferenceIdeal.Read
import proofs.«164556_j22273700397341_1_alg».proof.Proof.K.Run
import proofs.«164556_j22273700397341_1_alg».proof.Proof.K.Hosts
import proofs.«164556_j22273700397341_1_alg».proof.Proof.KI.Run
import proofs.«164556_j22273700397341_1_alg».proof.Proof.KI.Hosts
import proofs.«164556_j22273700397341_1_alg».proof.Proof.Bridge
import Idealize.ShloMosaic.Adequacy
import Idealize.ShloMosaic.Init

noncomputable section

namespace Cert.Proof

open Idealize.ShloMosaic Idealize.ShloMosaic.TcCoe Idealize.SL.Sem

section Claims

variable [hK : Cert.Kernel.Facts] [hKI : Cert.KernelIdeal.Facts] [hR : Cert.ReferenceIdeal.Facts] [hP : Cert.Pre_finite_inputs.Facts]

/-- The word-level kernel's frame: its run read at the six arguments. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.B4_main_arg0 m c),
     (h c _ (Cert.Kernel.Hand.mem_uc Cert.Kernel.main_arg1 (by decide))).trans (Cert.Kernel.Hand.B4_main_arg1 m c),
     (h c _ (Cert.Kernel.Hand.mem_uc Cert.Kernel.main_arg2 (by decide))).trans (Cert.Kernel.Hand.B4_main_arg2 m c),
     (h c _ (Cert.Kernel.Hand.mem_uc Cert.Kernel.main_arg3 (by decide))).trans (Cert.Kernel.Hand.B4_main_arg3 m c),
     (h c _ (Cert.Kernel.Hand.mem_uc Cert.Kernel.main_arg4 (by decide))).trans (Cert.Kernel.Hand.B4_main_arg4 m c),
     (h c _ (Cert.Kernel.Hand.mem_uc Cert.Kernel.main_arg5 (by decide))).trans (Cert.Kernel.Hand.B4_main_arg5 m c)⟩)
    (Cert.Kernel.Hand.run_all (F := Bits) m ρ)

/-- The idealized kernel's run read at the result and the six arguments. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v15) = Cert.KernelIdeal.Hand.B4 m c (Proc.devRef .tc Cert.KernelIdeal.main_v15)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun r h c =>
    ⟨h c _ (Cert.KernelIdeal.Hand.mem_uc Cert.KernelIdeal.main_v15 (by decide)),
     (h c _ (Cert.KernelIdeal.Hand.mem_uc Cert.KernelIdeal.main_arg0 (by decide))).trans (Cert.KernelIdeal.Hand.B4_main_arg0 m c),
     (h c _ (Cert.KernelIdeal.Hand.mem_uc Cert.KernelIdeal.main_arg1 (by decide))).trans (Cert.KernelIdeal.Hand.B4_main_arg1 m c),
     (h c _ (Cert.KernelIdeal.Hand.mem_uc Cert.KernelIdeal.main_arg2 (by decide))).trans (Cert.KernelIdeal.Hand.B4_main_arg2 m c),
     (h c _ (Cert.KernelIdeal.Hand.mem_uc Cert.KernelIdeal.main_arg3 (by decide))).trans (Cert.KernelIdeal.Hand.B4_main_arg3 m c),
     (h c _ (Cert.KernelIdeal.Hand.mem_uc Cert.KernelIdeal.main_arg4 (by decide))).trans (Cert.KernelIdeal.Hand.B4_main_arg4 m c),
     (h c _ (Cert.KernelIdeal.Hand.mem_uc Cert.KernelIdeal.main_arg5 (by decide))).trans (Cert.KernelIdeal.Hand.B4_main_arg5 m c)⟩)
    (Cert.KernelIdeal.Hand.run_all (F := Ideal) m ρ)

theorem frame_ki : Cert.frame_KernelIdeal := fun m ρ _ =>
  (θ_run Cert.KernelIdeal.defs _ _).mono (fun _ h c => (h c).2) (run_ki m ρ)

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array. -/
theorem algebraic : Cert.algebraic_KernelIdeal_ReferenceIdeal := by
  intro m ρ m' ρ' hpre hagree
  refine ⟨fun c => Cert.KernelIdeal.Hand.B4 m c (Proc.devRef .tc Cert.KernelIdeal.main_v15), run_ki m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v75_eq, (hagree c).1, (hagree c).2.1, (hagree c).2.2.1, (hagree c).2.2.2.1,
    (hagree c).2.2.2.2.1, (hagree c).2.2.2.2.2]
  exact (Cert.KernelIdeal.HandValue.result_eq m hpre c).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
